-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x2000000 : Shape := ⟨2, ![3, 2000000]⟩
abbrev S_ : Shape := ⟨0, ![]⟩

class Facts : Prop where
  bcast_S_S3x2000000 : S_.BroadcastsInDim S3x2000000 (![] : Fin 0 → Fin S3x2000000.rank)
  reducesTo_S3x2000000_S_d0_1 : S3x2000000.ReducesTo [0, 1] S_
  h_S_ : 0 < S_.numel

variable [Facts]

def fn {F : FTy → Type} [FloatOps F] (main_arg0 : FVec F S3x2000000 .f32) : IVec S_ 1 :=
  let main_v0 : FVec F S3x2000000 .f32 := Host.absf main_arg0
  let main_cst : FVec F S_ .f32 := constant S_ .f32 0x7F800000#32
  let main_v1 : FVec F S3x2000000 .f32 := broadcastInDim S3x2000000 ![] bcast_S_S3x2000000 main_cst
  let main_v2 : IVec S3x2000000 1 := cmpf .olt main_v0 main_v1
  let main_c : IVec S_ 1 := constantI S_ 1 1#1
  let main_v3 : IVec S_ 1 := (fun x v => Host.reduce IntOp.andi x v reducesTo_S3x2000000_S_d0_1 h_S_) main_v2 main_c
  main_v3
-- ==== Kernel.lean ====
abbrev S3x2000000 : Shape := ⟨2, ![3, 2000000]⟩
abbrev S25x2000000 : Shape := ⟨2, ![25, 2000000]⟩
abbrev S3x80000 : Shape := ⟨2, ![3, 80000]⟩
abbrev S25x80000 : Shape := ⟨2, ![25, 80000]⟩
abbrev S1x80000 : Shape := ⟨2, ![1, 80000]⟩
abbrev S80000 : Shape := ⟨1, ![80000]⟩

abbrev nBuf : Space → Nat
  | .hbm => 2
  | .vmem => 4
  | .smem => 0
  | _ => 0

abbrev bufTy : (tb : Table) → Fin (tcTables nBuf tb) → BufTy
  | .hbm, ⟨0, _⟩ => ⟨S3x2000000, .f32⟩
  | .hbm, ⟨1, _⟩ => ⟨S25x2000000, .f32⟩
  | .local _ .vmem, ⟨0, _⟩ => ⟨S3x80000, .f32⟩
  | .local _ .vmem, ⟨1, _⟩ => ⟨S3x80000, .f32⟩
  | .local _ .vmem, ⟨2, _⟩ => ⟨S25x80000, .f32⟩
  | .local _ .vmem, ⟨3, _⟩ => ⟨S25x80000, .f32⟩
  | _, _ => ⟨S3x2000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x80000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S25x80000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S3x80000_S1x80000_0_0 : ∀ a, (![0, 0] : Fin 2 → Nat) a + S1x80000.size a ≤ S3x80000.size a
  h_S1x80000 : 0 < S1x80000.numel
  shapeCasts_S1x80000_S80000 : S1x80000.ShapeCasts S80000
  inb_S3x80000_S1x80000_1_0 : ∀ a, (![1, 0] : Fin 2 → Nat) a + S1x80000.size a ≤ S3x80000.size a
  inb_S3x80000_S1x80000_2_0 : ∀ a, (![2, 0] : Fin 2 → Nat) a + S1x80000.size a ≤ S3x80000.size a
  inb_S25x80000_S1x80000_0_0 : ∀ a, (![0, 0] : Fin 2 → Nat) a + S1x80000.size a ≤ S25x80000.size a
  shapeCasts_S80000_S1x80000 : S80000.ShapeCasts S1x80000
  inb_S25x80000_S1x80000_1_0 : ∀ a, (![1, 0] : Fin 2 → Nat) a + S1x80000.size a ≤ S25x80000.size a
  inb_S25x80000_S1x80000_2_0 : ∀ a, (![2, 0] : Fin 2 → Nat) a + S1x80000.size a ≤ S25x80000.size a
  inb_S25x80000_S1x80000_3_0 : ∀ a, (![3, 0] : Fin 2 → Nat) a + S1x80000.size a ≤ S25x80000.size a
  inb_S25x80000_S1x80000_4_0 : ∀ a, (![4, 0] : Fin 2 → Nat) a + S1x80000.size a ≤ S25x80000.size a
  inb_S25x80000_S1x80000_5_0 : ∀ a, (![5, 0] : Fin 2 → Nat) a + S1x80000.size a ≤ S25x80000.size a
  inb_S25x80000_S1x80000_6_0 : ∀ a, (![6, 0] : Fin 2 → Nat) a + S1x80000.size a ≤ S25x80000.size a
  inb_S25x80000_S1x80000_7_0 : ∀ a, (![7, 0] : Fin 2 → Nat) a + S1x80000.size a ≤ S25x80000.size a
  inb_S25x80000_S1x80000_8_0 : ∀ a, (![8, 0] : Fin 2 → Nat) a + S1x80000.size a ≤ S25x80000.size a
  inb_S25x80000_S1x80000_9_0 : ∀ a, (![9, 0] : Fin 2 → Nat) a + S1x80000.size a ≤ S25x80000.size a
  inb_S25x80000_S1x80000_10_0 : ∀ a, (![10, 0] : Fin 2 → Nat) a + S1x80000.size a ≤ S25x80000.size a
  inb_S25x80000_S1x80000_11_0 : ∀ a, (![11, 0] : Fin 2 → Nat) a + S1x80000.size a ≤ S25x80000.size a
  inb_S25x80000_S1x80000_12_0 : ∀ a, (![12, 0] : Fin 2 → Nat) a + S1x80000.size a ≤ S25x80000.size a
  inb_S25x80000_S1x80000_13_0 : ∀ a, (![13, 0] : Fin 2 → Nat) a + S1x80000.size a ≤ S25x80000.size a
  inb_S25x80000_S1x80000_14_0 : ∀ a, (![14, 0] : Fin 2 → Nat) a + S1x80000.size a ≤ S25x80000.size a
  inb_S25x80000_S1x80000_15_0 : ∀ a, (![15, 0] : Fin 2 → Nat) a + S1x80000.size a ≤ S25x80000.size a
  inb_S25x80000_S1x80000_16_0 : ∀ a, (![16, 0] : Fin 2 → Nat) a + S1x80000.size a ≤ S25x80000.size a
  inb_S25x80000_S1x80000_17_0 : ∀ a, (![17, 0] : Fin 2 → Nat) a + S1x80000.size a ≤ S25x80000.size a
  inb_S25x80000_S1x80000_18_0 : ∀ a, (![18, 0] : Fin 2 → Nat) a + S1x80000.size a ≤ S25x80000.size a
  inb_S25x80000_S1x80000_19_0 : ∀ a, (![19, 0] : Fin 2 → Nat) a + S1x80000.size a ≤ S25x80000.size a
  inb_S25x80000_S1x80000_20_0 : ∀ a, (![20, 0] : Fin 2 → Nat) a + S1x80000.size a ≤ S25x80000.size a
  inb_S25x80000_S1x80000_21_0 : ∀ a, (![21, 0] : Fin 2 → Nat) a + S1x80000.size a ≤ S25x80000.size a
  inb_S25x80000_S1x80000_22_0 : ∀ a, (![22, 0] : Fin 2 → Nat) a + S1x80000.size a ≤ S25x80000.size a
  inb_S25x80000_S1x80000_23_0 : ∀ a, (![23, 0] : Fin 2 → Nat) a + S1x80000.size a ≤ S25x80000.size a
  inb_S25x80000_S1x80000_24_0 : ∀ a, (![24, 0] : Fin 2 → Nat) a + S1x80000.size a ≤ S25x80000.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x80000.size a ≤ S3x2000000.size a
  hwx0_0 : ∀ i : grid0.Coords, EltTy.bits .f32 = 32 ∨ (Rect.block (s := S3x2000000) S3x80000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S25x80000.size a ≤ S25x2000000.size a
  hwx0_1 : ∀ i : grid0.Coords, EltTy.bits .f32 = 32 ∨ (Rect.block (s := S25x2000000) S25x80000.size (cc0_transform_1 i) (hinb0_1 i)).WholeWords (EltTy.packing .f32)

variable [Facts₀]

abbrev win0_0 : Pipeline.Window sig grid0 :=
  Pipeline.Window.ofSpec (Memref.whole main_arg0) S3x80000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S25x80000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S3x2000000 : Shape := ⟨2, ![3, 2000000]⟩
abbrev S1 : Shape := ⟨1, ![1]⟩
abbrev S2 : Shape := ⟨1, ![2]⟩
abbrev S3 : Shape := ⟨1, ![3]⟩
abbrev S1x2000000 : Shape := ⟨2, ![1, 2000000]⟩
abbrev S2000000 : Shape := ⟨1, ![2000000]⟩
abbrev S_ : Shape := ⟨0, ![]⟩
abbrev S9x2000000 : Shape := ⟨2, ![9, 2000000]⟩
abbrev S1x1 : Shape := ⟨2, ![1, 1]⟩
abbrev S2x1 : Shape := ⟨2, ![2, 1]⟩
abbrev S2x2000000 : Shape := ⟨2, ![2, 2000000]⟩
abbrev S16x2000000 : Shape := ⟨2, ![16, 2000000]⟩
abbrev S3x1 : Shape := ⟨2, ![3, 1]⟩
abbrev S25x2000000 : Shape := ⟨2, ![25, 2000000]⟩

abbrev nBuf : Space → Nat
  | .hbm => 239
  | .vmem => 0
  | .smem => 0
  | _ => 0

abbrev hbmTy0_0 (i : Nat) : BufTy := match i % 128 with
  | 0 => ⟨S3x2000000, .f32⟩
  | 1 => ⟨S1, .f32⟩
  | 2 => ⟨S1, .f32⟩
  | 3 => ⟨S1, .i32⟩
  | 4 => ⟨S1, .i1⟩
  | 5 => ⟨S1, .i32⟩
  | 6 => ⟨S1, .i1⟩
  | 7 => ⟨S2, .f32⟩
  | 8 => ⟨S2, .f32⟩
  | 9 => ⟨S2, .i32⟩
  | 10 => ⟨S2, .i1⟩
  | 11 => ⟨S2, .i32⟩
  | 12 => ⟨S2, .i1⟩
  | 13 => ⟨S2, .f32⟩
  | 14 => ⟨S2, .f32⟩
  | 15 => ⟨S2, .i32⟩
  | 16 => ⟨S2, .i1⟩
  | 17 => ⟨S2, .i32⟩
  | 18 => ⟨S2, .i1⟩
  | 19 => ⟨S3, .f32⟩
  | 20 => ⟨S3, .f32⟩
  | 21 => ⟨S3, .i32⟩
  | 22 => ⟨S3, .i1⟩
  | 23 => ⟨S3, .i32⟩
  | 24 => ⟨S3, .i1⟩
  | 25 => ⟨S1x2000000, .f32⟩
  | 26 => ⟨S2000000, .f32⟩
  | 27 => ⟨S1x2000000, .f32⟩
  | 28 => ⟨S2000000, .f32⟩
  | 29 => ⟨S1x2000000, .f32⟩
  | 30 => ⟨S2000000, .f32⟩
  | 31 => ⟨S2000000, .f32⟩
  | 32 => ⟨S2000000, .f32⟩
  | 33 => ⟨S2000000, .f32⟩
  | 34 => ⟨S2000000, .f32⟩
  | 35 => ⟨S2000000, .f32⟩
  | 36 => ⟨S_, .f32⟩
  | 37 => ⟨S2000000, .f32⟩
  | 38 => ⟨S_, .f32⟩
  | 39 => ⟨S2000000, .f32⟩
  | 40 => ⟨S2000000, .f32⟩
  | 41 => ⟨S_, .f32⟩
  | 42 => ⟨S2000000, .f32⟩
  | 43 => ⟨S2000000, .f32⟩
  | 44 => ⟨S_, .f32⟩
  | 45 => ⟨S2000000, .f32⟩
  | 46 => ⟨S2000000, .f32⟩
  | 47 => ⟨S_, .f32⟩
  | 48 => ⟨S2000000, .f32⟩
  | 49 => ⟨S2000000, .f32⟩
  | 50 => ⟨S2000000, .f32⟩
  | 51 => ⟨S_, .f32⟩
  | 52 => ⟨S2000000, .f32⟩
  | 53 => ⟨S2000000, .f32⟩
  | 54 => ⟨S2000000, .f32⟩
  | 55 => ⟨S_, .f32⟩
  | 56 => ⟨S2000000, .f32⟩
  | 57 => ⟨S2000000, .f32⟩
  | 58 => ⟨S2000000, .f32⟩
  | 59 => ⟨S2000000, .f32⟩
  | 60 => ⟨S_, .f32⟩
  | 61 => ⟨S2000000, .f32⟩
  | 62 => ⟨S2000000, .f32⟩
  | 63 => ⟨S_, .f32⟩
  | 64 => ⟨S2000000, .f32⟩
  | 65 => ⟨S2000000, .f32⟩
  | 66 => ⟨S2000000, .f32⟩
  | 67 => ⟨S2000000, .f32⟩
  | 68 => ⟨S2000000, .f32⟩
  | 69 => ⟨S2000000, .f32⟩
  | 70 => ⟨S_, .f32⟩
  | 71 => ⟨S2000000, .f32⟩
  | 72 => ⟨S2000000, .f32⟩
  | 73 => ⟨S1x2000000, .f32⟩
  | 74 => ⟨S1x2000000, .f32⟩
  | 75 => ⟨S1x2000000, .f32⟩
  | 76 => ⟨S1x2000000, .f32⟩
  | 77 => ⟨S1x2000000, .f32⟩
  | 78 => ⟨S1x2000000, .f32⟩
  | 79 => ⟨S1x2000000, .f32⟩
  | 80 => ⟨S1x2000000, .f32⟩
  | 81 => ⟨S1x2000000, .f32⟩
  | 82 => ⟨S9x2000000, .f32⟩
  | 83 => ⟨S1x2000000, .f32⟩
  | 84 => ⟨S2000000, .f32⟩
  | 85 => ⟨S1x2000000, .f32⟩
  | 86 => ⟨S2000000, .f32⟩
  | 87 => ⟨S2000000, .f32⟩
  | 88 => ⟨S2000000, .f32⟩
  | 89 => ⟨S2000000, .f32⟩
  | 90 => ⟨S_, .f32⟩
  | 91 => ⟨S2000000, .f32⟩
  | 92 => ⟨S2000000, .f32⟩
  | 93 => ⟨S1x2000000, .f32⟩
  | 94 => ⟨S_, .f32⟩
  | 95 => ⟨S2000000, .f32⟩
  | 96 => ⟨S2000000, .f32⟩
  | 97 => ⟨S2000000, .f32⟩
  | 98 => ⟨S1x2000000, .f32⟩
  | 99 => ⟨S1x1, .f32⟩
  | 100 => ⟨S1x1, .f32⟩
  | 101 => ⟨S_, .i32⟩
  | 102 => ⟨S1, .i32⟩
  | 103 => ⟨S1, .i32⟩
  | 104 => ⟨S1, .i32⟩
  | 105 => ⟨S1x1, .i32⟩
  | 106 => ⟨S1x2000000, .f32⟩
  | 107 => ⟨S1x2000000, .f32⟩
  | 108 => ⟨S1x2000000, .f32⟩
  | 109 => ⟨S_, .i32⟩
  | 110 => ⟨S1, .i32⟩
  | 111 => ⟨S1, .i32⟩
  | 112 => ⟨S1, .i32⟩
  | 113 => ⟨S1x1, .i32⟩
  | 114 => ⟨S1x2000000, .f32⟩
  | 115 => ⟨S1x2000000, .f32⟩
  | 116 => ⟨S1x2000000, .f32⟩
  | 117 => ⟨S1x2000000, .f32⟩
  | 118 => ⟨S1x2000000, .f32⟩
  | 119 => ⟨S1x2000000, .f32⟩
  | 120 => ⟨S1x2000000, .f32⟩
  | 121 => ⟨S1x2000000, .f32⟩
  | 122 => ⟨S2x1, .f32⟩
  | 123 => ⟨S2x1, .f32⟩
  | 124 => ⟨S_, .i32⟩
  | 125 => ⟨S2, .i32⟩
  | 126 => ⟨S2, .i32⟩
  | 127 => ⟨S2, .i32⟩
  | _ => ⟨S3x2000000, .f32⟩

abbrev hbmTy0_1 (i : Nat) : BufTy := match i % 128 with
  | 0 => ⟨S2x1, .i32⟩
  | 1 => ⟨S2x2000000, .f32⟩
  | 2 => ⟨S1x2000000, .f32⟩
  | 3 => ⟨S2x2000000, .f32⟩
  | 4 => ⟨S2x2000000, .f32⟩
  | 5 => ⟨S_, .i32⟩
  | 6 => ⟨S2, .i32⟩
  | 7 => ⟨S2, .i32⟩
  | 8 => ⟨S2, .i32⟩
  | 9 => ⟨S2x1, .i32⟩
  | 10 => ⟨S2x2000000, .f32⟩
  | 11 => ⟨S1x2000000, .f32⟩
  | 12 => ⟨S2x2000000, .f32⟩
  | 13 => ⟨S2x2000000, .f32⟩
  | 14 => ⟨S2x2000000, .f32⟩
  | 15 => ⟨S2x2000000, .f32⟩
  | 16 => ⟨S2x2000000, .f32⟩
  | 17 => ⟨S2x2000000, .f32⟩
  | 18 => ⟨S2x2000000, .f32⟩
  | 19 => ⟨S_, .f32⟩
  | 20 => ⟨S2000000, .f32⟩
  | 21 => ⟨S2000000, .f32⟩
  | 22 => ⟨S2000000, .f32⟩
  | 23 => ⟨S1x2000000, .f32⟩
  | 24 => ⟨S2000000, .f32⟩
  | 25 => ⟨S2000000, .f32⟩
  | 26 => ⟨S2000000, .f32⟩
  | 27 => ⟨S_, .f32⟩
  | 28 => ⟨S2000000, .f32⟩
  | 29 => ⟨S2000000, .f32⟩
  | 30 => ⟨S1x2000000, .f32⟩
  | 31 => ⟨S16x2000000, .f32⟩
  | 32 => ⟨S1x2000000, .f32⟩
  | 33 => ⟨S2000000, .f32⟩
  | 34 => ⟨S1x2000000, .f32⟩
  | 35 => ⟨S2000000, .f32⟩
  | 36 => ⟨S2000000, .f32⟩
  | 37 => ⟨S2000000, .f32⟩
  | 38 => ⟨S2000000, .f32⟩
  | 39 => ⟨S_, .f32⟩
  | 40 => ⟨S2000000, .f32⟩
  | 41 => ⟨S2000000, .f32⟩
  | 42 => ⟨S1x2000000, .f32⟩
  | 43 => ⟨S_, .f32⟩
  | 44 => ⟨S2000000, .f32⟩
  | 45 => ⟨S2000000, .f32⟩
  | 46 => ⟨S2000000, .f32⟩
  | 47 => ⟨S1x2000000, .f32⟩
  | 48 => ⟨S2x1, .f32⟩
  | 49 => ⟨S2x1, .f32⟩
  | 50 => ⟨S_, .i32⟩
  | 51 => ⟨S2, .i32⟩
  | 52 => ⟨S2, .i32⟩
  | 53 => ⟨S2, .i32⟩
  | 54 => ⟨S2x1, .i32⟩
  | 55 => ⟨S2x2000000, .f32⟩
  | 56 => ⟨S1x2000000, .f32⟩
  | 57 => ⟨S2x2000000, .f32⟩
  | 58 => ⟨S2x2000000, .f32⟩
  | 59 => ⟨S_, .i32⟩
  | 60 => ⟨S2, .i32⟩
  | 61 => ⟨S2, .i32⟩
  | 62 => ⟨S2, .i32⟩
  | 63 => ⟨S2x1, .i32⟩
  | 64 => ⟨S2x2000000, .f32⟩
  | 65 => ⟨S1x2000000, .f32⟩
  | 66 => ⟨S2x2000000, .f32⟩
  | 67 => ⟨S2x2000000, .f32⟩
  | 68 => ⟨S2x2000000, .f32⟩
  | 69 => ⟨S2x2000000, .f32⟩
  | 70 => ⟨S2x2000000, .f32⟩
  | 71 => ⟨S2x2000000, .f32⟩
  | 72 => ⟨S2x2000000, .f32⟩
  | 73 => ⟨S3x1, .f32⟩
  | 74 => ⟨S3x1, .f32⟩
  | 75 => ⟨S_, .i32⟩
  | 76 => ⟨S3, .i32⟩
  | 77 => ⟨S3, .i32⟩
  | 78 => ⟨S3, .i32⟩
  | 79 => ⟨S3x1, .i32⟩
  | 80 => ⟨S3x2000000, .f32⟩
  | 81 => ⟨S1x2000000, .f32⟩
  | 82 => ⟨S3x2000000, .f32⟩
  | 83 => ⟨S3x2000000, .f32⟩
  | 84 => ⟨S_, .i32⟩
  | 85 => ⟨S3, .i32⟩
  | 86 => ⟨S3, .i32⟩
  | 87 => ⟨S3, .i32⟩
  | 88 => ⟨S3x1, .i32⟩
  | 89 => ⟨S3x2000000, .f32⟩
  | 90 => ⟨S1x2000000, .f32⟩
  | 91 => ⟨S3x2000000, .f32⟩
  | 92 => ⟨S3x2000000, .f32⟩
  | 93 => ⟨S3x2000000, .f32⟩
  | 94 => ⟨S3x2000000, .f32⟩
  | 95 => ⟨S3x2000000, .f32⟩
  | 96 => ⟨S3x2000000, .f32⟩
  | 97 => ⟨S3x2000000, .f32⟩
  | 98 => ⟨S_, .f32⟩
  | 99 => ⟨S2000000, .f32⟩
  | 100 => ⟨S2000000, .f32⟩
  | 101 => ⟨S2000000, .f32⟩
  | 102 => ⟨S1x2000000, .f32⟩
  | 103 => ⟨S2000000, .f32⟩
  | 104 => ⟨S2000000, .f32⟩
  | 105 => ⟨S2000000, .f32⟩
  | 106 => ⟨S_, .f32⟩
  | 107 => ⟨S2000000, .f32⟩
  | 108 => ⟨S2000000, .f32⟩
  | 109 => ⟨S1x2000000, .f32⟩
  | 110 => ⟨S25x2000000, .f32⟩
  | _ => ⟨S3x2000000, .f32⟩

abbrev hbmTy (i : Nat) : BufTy := match i / 128 with
  | 0 => hbmTy0_0 i
  | 1 => hbmTy0_1 i
  | _ => ⟨S3x2000000, .f32⟩

abbrev bufTy : (tb : Table) → Fin (tcTables nBuf tb) → BufTy
  | .hbm, ⟨i, _⟩ => hbmTy i
  | _, _ => ⟨S3x2000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_c : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_cst_4 : Ref sig .tc := ⟨.hbm, 7, rfl⟩
abbrev main_cst_5 : Ref sig .tc := ⟨.hbm, 8, rfl⟩
abbrev main_c_6 : Ref sig .tc := ⟨.hbm, 9, rfl⟩
abbrev main_c_7 : Ref sig .tc := ⟨.hbm, 10, rfl⟩
abbrev main_c_8 : Ref sig .tc := ⟨.hbm, 11, rfl⟩
abbrev main_c_9 : Ref sig .tc := ⟨.hbm, 12, rfl⟩
abbrev main_cst_10 : Ref sig .tc := ⟨.hbm, 13, rfl⟩
abbrev main_cst_11 : Ref sig .tc := ⟨.hbm, 14, rfl⟩
abbrev main_c_12 : Ref sig .tc := ⟨.hbm, 15, rfl⟩
abbrev main_c_13 : Ref sig .tc := ⟨.hbm, 16, rfl⟩
abbrev main_c_14 : Ref sig .tc := ⟨.hbm, 17, rfl⟩
abbrev main_c_15 : Ref sig .tc := ⟨.hbm, 18, rfl⟩
abbrev main_cst_16 : Ref sig .tc := ⟨.hbm, 19, rfl⟩
abbrev main_cst_17 : Ref sig .tc := ⟨.hbm, 20, rfl⟩
abbrev main_c_18 : Ref sig .tc := ⟨.hbm, 21, rfl⟩
abbrev main_c_19 : Ref sig .tc := ⟨.hbm, 22, rfl⟩
abbrev main_c_20 : Ref sig .tc := ⟨.hbm, 23, rfl⟩
abbrev main_c_21 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst_22 : Ref sig .tc := ⟨.hbm, 36, rfl⟩
abbrev main_v11 : Ref sig .tc := ⟨.hbm, 37, rfl⟩
abbrev main_cst_23 : Ref sig .tc := ⟨.hbm, 38, rfl⟩
abbrev main_v12 : Ref sig .tc := ⟨.hbm, 39, rfl⟩
abbrev main_v13 : Ref sig .tc := ⟨.hbm, 40, rfl⟩
abbrev main_cst_24 : Ref sig .tc := ⟨.hbm, 41, rfl⟩
abbrev main_v14 : Ref sig .tc := ⟨.hbm, 42, rfl⟩
abbrev main_v15 : Ref sig .tc := ⟨.hbm, 43, rfl⟩
abbrev main_cst_25 : Ref sig .tc := ⟨.hbm, 44, rfl⟩
abbrev main_v16 : Ref sig .tc := ⟨.hbm, 45, rfl⟩
abbrev main_v17 : Ref sig .tc := ⟨.hbm, 46, rfl⟩
abbrev main_cst_26 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_cst_27 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_28 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_29 : Ref sig .tc := ⟨.hbm, 60, rfl⟩
abbrev main_v28 : Ref sig .tc := ⟨.hbm, 61, rfl⟩
abbrev main_v29 : Ref sig .tc := ⟨.hbm, 62, rfl⟩
abbrev main_cst_30 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_31 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_32 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_33 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_c_34 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_c_35 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_c_36 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_c_37 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_38 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_cst_39 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_cst_40 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_41 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_c_42 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_c_43 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_c_44 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_c_45 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_cst_46 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_cst_47 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩

abbrev nD : Nat := 1
abbrev τ : Topo := Topo.v7x

variable {F : FTy → Type} [FloatOps F]

class Facts₀ : Prop where
  slices_S3x2000000_S1x2000000_0_0 : S3x2000000.Slices ![0, 0] S1x2000000
  shapeCasts_S1x2000000_S2000000 : S1x2000000.ShapeCasts S2000000
  slices_S3x2000000_S1x2000000_1_0 : S3x2000000.Slices ![1, 0] S1x2000000
  slices_S3x2000000_S1x2000000_2_0 : S3x2000000.Slices ![2, 0] S1x2000000
  bcast_S_S2000000 : S_.BroadcastsInDim S2000000 (![] : Fin 0 → Fin S2000000.rank)
  bcast_S2000000_S1x2000000_1 : S2000000.BroadcastsInDim S1x2000000 (![1] : Fin 1 → Fin S1x2000000.rank)
  concatenates_S1x2000000_S1x2000000_S1x2000000_S1x2000000_S1x2000000_S1x2000000_S1x2000000_S1x2000000_S1x2000000_S9x2000000_d0 : Shape.Concatenates [S1x2000000, S1x2000000, S1x2000000, S1x2000000, S1x2000000, S1x2000000, S1x2000000, S1x2000000, S1x2000000] S9x2000000 0
  slices_S9x2000000_S1x2000000_8_0 : S9x2000000.Slices ![8, 0] S1x2000000
  slices_S9x2000000_S1x2000000_4_0 : S9x2000000.Slices ![4, 0] S1x2000000
  bcast_S1_S1x1_0 : S1.BroadcastsInDim S1x1 (![0] : Fin 1 → Fin S1x1.rank)
  bcast_S_S1 : S_.BroadcastsInDim S1 (![] : Fin 0 → Fin S1.rank)
  bcast_S1x1_S1x2000000_0_1 : S1x1.BroadcastsInDim S1x2000000 (![0, 1] : Fin 2 → Fin S1x2000000.rank)
  bcast_S2_S2x1_0 : S2.BroadcastsInDim S2x1 (![0] : Fin 1 → Fin S2x1.rank)
  bcast_S_S2 : S_.BroadcastsInDim S2 (![] : Fin 0 → Fin S2.rank)
  bcast_S1x2000000_S2x2000000_0_1 : S1x2000000.BroadcastsInDim S2x2000000 (![0, 1] : Fin 2 → Fin S2x2000000.rank)
  bcast_S2x1_S2x2000000_0_1 : S2x1.BroadcastsInDim S2x2000000 (![0, 1] : Fin 2 → Fin S2x2000000.rank)
  concatenates_S9x2000000_S1x2000000_S1x2000000_S1x2000000_S2x2000000_S1x2000000_S1x2000000_S16x2000000_d0 : Shape.Concatenates [S9x2000000, S1x2000000, S1x2000000, S1x2000000, S2x2000000, S1x2000000, S1x2000000] S16x2000000 0
  slices_S16x2000000_S1x2000000_15_0 : S16x2000000.Slices ![15, 0] S1x2000000
  slices_S16x2000000_S1x2000000_9_0 : S16x2000000.Slices ![9, 0] S1x2000000
  bcast_S3_S3x1_0 : S3.BroadcastsInDim S3x1 (![0] : Fin 1 → Fin S3x1.rank)
  bcast_S_S3 : S_.BroadcastsInDim S3 (![] : Fin 0 → Fin S3.rank)
  bcast_S1x2000000_S3x2000000_0_1 : S1x2000000.BroadcastsInDim S3x2000000 (![0, 1] : Fin 2 → Fin S3x2000000.rank)
  bcast_S3x1_S3x2000000_0_1 : S3x1.BroadcastsInDim S3x2000000 (![0, 1] : Fin 2 → Fin S3x2000000.rank)
  concatenates_S16x2000000_S1x2000000_S1x2000000_S2x2000000_S3x2000000_S1x2000000_S1x2000000_S25x2000000_d0 : Shape.Concatenates [S16x2000000, S1x2000000, S1x2000000, S2x2000000, S3x2000000, S1x2000000, S1x2000000] S25x2000000 0
  gather_S9x2000000_S1x1_S1x2000000_1_0_n_n_0_1_12000000_wf : GatherDims.WF S9x2000000 S1x1 S1x2000000 [1] [0] [] [0] [] 1 ![1, 2000000]
  gather_S9x2000000_S2x1_S2x2000000_1_0_n_n_0_1_12000000_wf : GatherDims.WF S9x2000000 S2x1 S2x2000000 [1] [0] [] [0] [] 1 ![1, 2000000]
  gather_S16x2000000_S2x1_S2x2000000_1_0_n_n_0_1_12000000_wf : GatherDims.WF S16x2000000 S2x1 S2x2000000 [1] [0] [] [0] [] 1 ![1, 2000000]
  gather_S16x2000000_S3x1_S3x2000000_1_0_n_n_0_1_12000000_wf : GatherDims.WF S16x2000000 S3x1 S3x2000000 [1] [0] [] [0] [] 1 ![1, 2000000]

variable [Facts₀]

def gather_S9x2000000_S1x1_S1x2000000_1_0_n_n_0_1_12000000 : GatherDims S9x2000000 S1x1 S1x2000000 where
  offsetDims := [1]
  collapsedSliceDims := [0]
  operandBatchingDims := []
  startIndicesBatchingDims := []
  startIndexMap := [0]
  indexVectorDim := 1
  sliceSizes := ![1, 2000000]
  wf := gather_S9x2000000_S1x1_S1x2000000_1_0_n_n_0_1_12000000_wf
def gather_S9x2000000_S2x1_S2x2000000_1_0_n_n_0_1_12000000 : GatherDims S9x2000000 S2x1 S2x2000000 where
  offsetDims := [1]
  collapsedSliceDims := [0]
  operandBatchingDims := []
  startIndicesBatchingDims := []
  startIndexMap := [0]
  indexVectorDim := 1
  sliceSizes := ![1, 2000000]
  wf := gather_S9x2000000_S2x1_S2x2000000_1_0_n_n_0_1_12000000_wf
def gather_S16x2000000_S2x1_S2x2000000_1_0_n_n_0_1_12000000 : GatherDims S16x2000000 S2x1 S2x2000000 where
  offsetDims := [1]
  collapsedSliceDims := [0]
  operandBatchingDims := []
  startIndicesBatchingDims := []
  startIndexMap := [0]
  indexVectorDim := 1
  sliceSizes := ![1, 2000000]
  wf := gather_S16x2000000_S2x1_S2x2000000_1_0_n_n_0_1_12000000_wf
def gather_S16x2000000_S3x1_S3x2000000_1_0_n_n_0_1_12000000 : GatherDims S16x2000000 S3x1 S3x2000000 where
  offsetDims := [1]
  collapsedSliceDims := [0]
  operandBatchingDims := []
  startIndicesBatchingDims := []
  startIndexMap := [0]
  indexVectorDim := 1
  sliceSizes := ![1, 2000000]
  wf := gather_S16x2000000_S3x1_S3x2000000_1_0_n_n_0_1_12000000_wf

class Facts : Prop extends Facts₀ where

variable [Facts]
-- ==== Proof.Spec.lean ====
/-
  The specification both programs are compared with: the real spherical harmonics of degree l ≤ 4 at a point
  (x, y, z), by the upward recurrence in l, as 25 functions on the extended reals. Nothing here mentions a program.

  Each function is written with the grouping of products and sums that the recurrence is stated in
  (`c * x * y` is `(c · x) · y`; `d` is `(x·x + y·y) + z·z`), and every coefficient is the extended real that
  its 32-bit pattern denotes, so the same pattern on both sides of a comparison is never evaluated.

  Degree 0 to 2 are closed forms. For l = 3, 4 the harmonics of degree l are, in order of m = -l … l:
    * m = -l      :  p₁(l) · (x · B + y · T)
    * m = -(l-1)  :  p₂(l-1) · z · B
    * the inner orders: a(l,m) · (z · Y(l-1, m) + b(l,m) · (d · Y(l-2, m)))
    * m = l-1     :  p₂(l-1) · z · T
    * m = l       :  p₁(l) · (x · T - y · B)
  where T and B are the harmonics of degree l-1 of highest and lowest order.
-/
import Idealize.ShloMosaic.PureOps.Ideal
import Idealize.ShloMosaic.Lib.ValueIdx

noncomputable section

namespace Cert.Harmonics

open Idealize.ShloMosaic Idealize.ShloMosaic.ValueIdx

/-- The extended real a 32-bit float pattern denotes. -/
abbrev coef (w : BitVec 32) : EReal := Ideal.ofBits .f32 w

/-- The squared length of the point. -/
def dsq (x y z : EReal) : EReal := x * x + y * y + z * z

/-! ## Degree 0, 1, 2 -/

def h0 (_x _y _z : EReal) : EReal := coef 0x3E906EBB#32
def h1 (_x y _z : EReal) : EReal := coef 0xBEFA2A1C#32 * y
def h2 (_x _y z : EReal) : EReal := coef 0x3EFA2A1C#32 * z
def h3 (x _y _z : EReal) : EReal := coef 0xBEFA2A1C#32 * x
def h4 (x y _z : EReal) : EReal := coef 0x3F8BD8A1#32 * x * y
def h5 (_x y z : EReal) : EReal := coef 0xBF8BD8A1#32 * y * z
def h6 (x y z : EReal) : EReal := coef 0x3EA17B01#32 * (coef 0x40400000#32 * z * z - dsq x y z)
def h7 (x _y z : EReal) : EReal := coef 0xBF8BD8A1#32 * x * z
def h8 (x y _z : EReal) : EReal := coef 0x3F0BD8A1#32 * (x * x - y * y)

/-! ## Degree 3: T = h8, B = h4 -/

def h9 (x y z : EReal) : EReal := coef 0xBF8A417C#32 * (x * h4 x y z + y * h8 x y z)
def h10 (x y z : EReal) : EReal := coef 0x402953FD#32 * z * h4 x y z
def h11 (x y z : EReal) : EReal := coef 0x4005DD98#32 * (z * h5 x y z + coef 0xBEE4F92E#32 * (dsq x y z * h1 x y z))
def h12 (x y z : EReal) : EReal := coef 0x3FFC6B5E#32 * (z * h6 x y z + coef 0xBF0432A5#32 * (dsq x y z * h2 x y z))
def h13 (x y z : EReal) : EReal := coef 0x4005DD98#32 * (z * h7 x y z + coef 0xBEE4F92E#32 * (dsq x y z * h3 x y z))
def h14 (x y z : EReal) : EReal := coef 0x402953FD#32 * z * h8 x y z
def h15 (x y z : EReal) : EReal := coef 0xBF8A417C#32 * (x * h8 x y z - y * h4 x y z)

/-! ## Degree 4: T = h15, B = h9 -/

def h16 (x y z : EReal) : EReal := coef 0xBF87C3B6#32 * (x * h9 x y z + y * h15 x y z)
def h17 (x y z : EReal) : EReal := coef 0x40400000#32 * z * h9 x y z
def h18 (x y z : EReal) : EReal := coef 0x4012A476#32 * (z * h10 x y z + coef 0xBEC1848F#32 * (dsq x y z * h4 x y z))
def h19 (x y z : EReal) : EReal := coef 0x40032935#32 * (z * h11 x y z + coef 0xBEF4C867#32 * (dsq x y z * h5 x y z))
def h20 (x y z : EReal) : EReal := coef 0x3FFDFDFC#32 * (z * h12 x y z + coef 0xBF01D0D1#32 * (dsq x y z * h6 x y z))
def h21 (x y z : EReal) : EReal := coef 0x40032935#32 * (z * h13 x y z + coef 0xBEF4C867#32 * (dsq x y z * h7 x y z))
def h22 (x y z : EReal) : EReal := coef 0x4012A476#32 * (z * h14 x y z + coef 0xBEC1848F#32 * (dsq x y z * h8 x y z))
def h23 (x y z : EReal) : EReal := coef 0x40400000#32 * z * h15 x y z
def h24 (x y z : EReal) : EReal := coef 0xBF87C3B6#32 * (x * h15 x y z - y * h9 x y z)

/-- Harmonic number `k` (degree-major, then order). -/
def harm (k : Fin 25) : EReal → EReal → EReal → EReal :=
  match k.val with
  | 0 => h0 | 1 => h1 | 2 => h2 | 3 => h3 | 4 => h4 | 5 => h5 | 6 => h6 | 7 => h7 | 8 => h8
  | 9 => h9 | 10 => h10 | 11 => h11 | 12 => h12 | 13 => h13 | 14 => h14 | 15 => h15
  | 16 => h16 | 17 => h17 | 18 => h18 | 19 => h19 | 20 => h20 | 21 => h21 | 22 => h22 | 23 => h23
  | _ => h24

/-- The whole result: entry (k, j) is harmonic `k` of the point whose coordinates are column `j` of the three rows. -/
def sph (a : FVec Ideal ⟨2, ![3, 2000000]⟩ .f32) : FVec Ideal ⟨2, ![25, 2000000]⟩ .f32 :=
  fun i => harm ⟨(i 0).val, idx2_lt0 i⟩
    (a (ix2 (0 : Fin 3) ⟨(i 1).val, idx2_lt1 i⟩)) (a (ix2 (1 : Fin 3) ⟨(i 1).val, idx2_lt1 i⟩)) (a (ix2 (2 : Fin 3) ⟨(i 1).val, idx2_lt1 i⟩))

theorem sph_apply (a : FVec Ideal ⟨2, ![3, 2000000]⟩ .f32) (k : Fin 25) (j : Fin 2000000) :
    sph a (ix2 k j) = harm k (a (ix2 (0 : Fin 3) j)) (a (ix2 (1 : Fin 3) j)) (a (ix2 (2 : Fin 3) j)) := rfl

end Cert.Harmonics

end
-- ==== Proof.KerPoint.lean ====
/-
  The kernel's arithmetic at one column. Every value the body computes is a vector over the 80000 columns of a block,
  and every operation is elementwise, so each named value of the body, read at column `q`, is an arithmetic expression
  of its operands read at column `q`. The values computed from the three loaded rows alone are, at column `q`, the
  squared length and the harmonics of degree at most 2 of the point (x q, y q, z q) (and two partial results of degree
  3); the later ones are one step of the recurrence in the degree, applied to whatever vectors they are handed.
  The only operations that are not elementwise are the casts between a row [1, 80000] and a vector [80000], which
  keep the column.
-/
import proofs.«103363_j66211215835310_1_alg».proof.Proof.Gen.KernelIdeal.Frame
import proofs.«103363_j66211215835310_1_alg».proof.Proof.Spec
import Idealize.ShloMosaic.Lib.ValueIdx
import Idealize.ShloMosaic.Lib.Pipeline.Value
import Idealize.ShloMosaic.Lib.ValueLayout

noncomputable section

namespace Cert.KernelIdeal.Point

open Cert.KernelIdeal Cert.KernelIdeal.Gen Idealize.ShloMosaic Idealize.ShloMosaic.ValueIdx Cert.Harmonics

/-! ## The three loaded rows -/

/-- Column `q` of the one-row rectangle at row 0 of the input block is the block's index (0, q): the load through it
    reads the x coordinates. -/
theorem idx0 (u : Fin 1) (q : Fin 80000) : r0_0.idx (ix2 u q) = ix2 (0 : Fin 3) q := by
  funext a; apply Fin.ext
  match a with
  | ⟨0, _⟩ => show 0 + 1 * u.val = 0; omega
  | ⟨1, _⟩ => show 0 + 1 * q.val = q.val; omega

/-- Row 1 likewise: the y coordinates. -/
theorem idx1 (u : Fin 1) (q : Fin 80000) : r0_1.idx (ix2 u q) = ix2 (1 : Fin 3) q := by
  funext a; apply Fin.ext
  match a with
  | ⟨0, _⟩ => show 1 + 1 * u.val = 1; omega
  | ⟨1, _⟩ => show 0 + 1 * q.val = q.val; omega

/-- Row 2 likewise: the z coordinates. -/
theorem idx2 (u : Fin 1) (q : Fin 80000) : r0_2.idx (ix2 u q) = ix2 (2 : Fin 3) q := by
  funext a; apply Fin.ext
  match a with
  | ⟨0, _⟩ => show 2 + 1 * u.val = 2; omega
  | ⟨1, _⟩ => show 0 + 1 * q.val = q.val; omega

/-! ## The casts keep the column -/

/-- A [1, 80000] row viewed as a vector reads, at `q`, the row at (0, q): the x coordinates, -/
theorem castx (v : Vec Ideal S1x80000 .f32) (q : Fin 80000) : k0_pay4 v (ix1 q) = v (ix2 (0 : Fin 1) q) := by
  unfold k0_pay4; exact shapeCast_1a_a_apply v _ q
/-- the y coordinates, -/
theorem casty (v : Vec Ideal S1x80000 .f32) (q : Fin 80000) : k0_pay5 v (ix1 q) = v (ix2 (0 : Fin 1) q) := by
  unfold k0_pay5; exact shapeCast_1a_a_apply v _ q
/-- the z coordinates. -/
theorem castz (v : Vec Ideal S1x80000 .f32) (q : Fin 80000) : k0_pay6 v (ix1 q) = v (ix2 (0 : Fin 1) q) := by
  unfold k0_pay6; exact shapeCast_1a_a_apply v _ q

/-- A vector viewed as a [1, 80000] row, as each of the 25 stores takes it, reads the vector at the column. -/
theorem row_of_vec (v : FVec Ideal S80000 .f32) (u : Fin 1) (q : Fin 80000) :
    shapeCast S1x80000 v shapeCasts_S80000_S1x80000 (ix2 u q) = v (ix1 q) :=
  shapeCast_a_1a_apply v _ u q

/-! ## The values computed from the loaded rows, at a column

`a`, `b`, `c` are the loaded rows; the point is (x, y, z) = (a (0, q), b (0, q), c (0, q)). -/

section Loaded
variable (a b c : Vec Ideal S1x80000 .f32) (q : Fin 80000)

/-- The squared length. -/
theorem p7 : k0_pay7 a b c (ix1 q) = dsq (a (ix2 (0 : Fin 1) q)) (b (ix2 (0 : Fin 1) q)) (c (ix2 (0 : Fin 1) q)) := by
  unfold k0_pay7; simp only [mulf_apply, addf_apply, castx, casty, castz]; rfl
/-- Harmonic 0, a constant. -/
theorem p8 (i : S80000.Idx) : k0_pay8 (F := Ideal) i = coef 0x3E906EBB#32 := rfl
/-- Harmonic 1. -/
theorem p9 : k0_pay9 b (ix1 q) = h1 (a (ix2 (0 : Fin 1) q)) (b (ix2 (0 : Fin 1) q)) (c (ix2 (0 : Fin 1) q)) := by
  unfold k0_pay9; simp only [mulf_apply, broadcast_apply, casty]; rfl
/-- Harmonic 2. -/
theorem p10 : k0_pay10 c (ix1 q) = h2 (a (ix2 (0 : Fin 1) q)) (b (ix2 (0 : Fin 1) q)) (c (ix2 (0 : Fin 1) q)) := by
  unfold k0_pay10; simp only [mulf_apply, broadcast_apply, castz]; rfl
/-- Harmonic 3. -/
theorem p11 : k0_pay11 a (ix1 q) = h3 (a (ix2 (0 : Fin 1) q)) (b (ix2 (0 : Fin 1) q)) (c (ix2 (0 : Fin 1) q)) := by
  unfold k0_pay11; simp only [mulf_apply, broadcast_apply, castx]; rfl
/-- Harmonic 4. -/
theorem p12 : k0_pay12 a b (ix1 q) = h4 (a (ix2 (0 : Fin 1) q)) (b (ix2 (0 : Fin 1) q)) (c (ix2 (0 : Fin 1) q)) := by
  unfold k0_pay12; simp only [mulf_apply, broadcast_apply, castx, casty]; rfl
/-- Harmonic 5. -/
theorem p13 : k0_pay13 b c (ix1 q) = h5 (a (ix2 (0 : Fin 1) q)) (b (ix2 (0 : Fin 1) q)) (c (ix2 (0 : Fin 1) q)) := by
  unfold k0_pay13; simp only [mulf_apply, broadcast_apply, casty, castz]; rfl
/-- Harmonic 6. -/
theorem p14 : k0_pay14 a b c (ix1 q) = h6 (a (ix2 (0 : Fin 1) q)) (b (ix2 (0 : Fin 1) q)) (c (ix2 (0 : Fin 1) q)) := by
  unfold k0_pay14; simp only [mulf_apply, subf_apply, broadcast_apply, castz, p7]; rfl
/-- Harmonic 7. -/
theorem p15 : k0_pay15 a c (ix1 q) = h7 (a (ix2 (0 : Fin 1) q)) (b (ix2 (0 : Fin 1) q)) (c (ix2 (0 : Fin 1) q)) := by
  unfold k0_pay15; simp only [mulf_apply, broadcast_apply, castx, castz]; rfl
/-- Harmonic 8. -/
theorem p16 : k0_pay16 a b (ix1 q) = h8 (a (ix2 (0 : Fin 1) q)) (b (ix2 (0 : Fin 1) q)) (c (ix2 (0 : Fin 1) q)) := by
  unfold k0_pay16; simp only [mulf_apply, subf_apply, broadcast_apply, castx, casty]; rfl
/-- The sum x · Y₄ + y · Y₈ that harmonic 9 scales. -/
theorem p17 : k0_pay17 a b (ix1 q) =
    a (ix2 (0 : Fin 1) q) * h4 (a (ix2 (0 : Fin 1) q)) (b (ix2 (0 : Fin 1) q)) (c (ix2 (0 : Fin 1) q))
      + b (ix2 (0 : Fin 1) q) * h8 (a (ix2 (0 : Fin 1) q)) (b (ix2 (0 : Fin 1) q)) (c (ix2 (0 : Fin 1) q)) := by
  unfold k0_pay17; simp only [mulf_apply, addf_apply, castx, casty, p12 a b c q, p16 a b c q]
/-- The factor of harmonic 9, a constant. -/
theorem p18 (i : S80000.Idx) : k0_pay18 (F := Ideal) i = coef 0xBF8A417C#32 := rfl

end Loaded

/-! ## One step of the recurrence, at any index, for any operands -/

section Step
variable (i : S80000.Idx)

theorem p19 (v40 v41 : FVec Ideal S80000 .f32) : k0_pay19 v40 v41 i = v41 i * v40 i := rfl
theorem p20 (v5 v20 : FVec Ideal S80000 .f32) : k0_pay20 v5 v20 i = coef 0x402953FD#32 * v5 i * v20 i := rfl
theorem p21 (v5 v10 v13 v23 : FVec Ideal S80000 .f32) :
    k0_pay21 v5 v10 v13 v23 i = coef 0x4005DD98#32 * (v5 i * v23 i + coef 0xBEE4F92E#32 * (v10 i * v13 i)) := rfl
theorem p22 (v5 v10 v15 v29 : FVec Ideal S80000 .f32) :
    k0_pay22 v5 v10 v15 v29 i = coef 0x3FFC6B5E#32 * (v5 i * v29 i + coef 0xBF0432A5#32 * (v10 i * v15 i)) := rfl
theorem p23 (v5 v10 v17 v32 : FVec Ideal S80000 .f32) :
    k0_pay23 v5 v10 v17 v32 i = coef 0x4005DD98#32 * (v5 i * v32 i + coef 0xBEE4F92E#32 * (v10 i * v17 i)) := rfl
theorem p24 (v5 v37 : FVec Ideal S80000 .f32) : k0_pay24 v5 v37 i = coef 0x402953FD#32 * v5 i * v37 i := rfl
theorem p25 (v1 v3 v20 v37 : FVec Ideal S80000 .f32) :
    k0_pay25 v1 v3 v20 v37 i = coef 0xBF8A417C#32 * (v1 i * v37 i - v3 i * v20 i) := rfl
theorem p26 (v1 v3 v20 v37 v40 v41 : FVec Ideal S80000 .f32) :
    k0_pay26 v1 v3 v20 v37 v40 v41 i
      = coef 0xBF87C3B6#32 * (v1 i * (v41 i * v40 i) + v3 i * (coef 0xBF8A417C#32 * (v1 i * v37 i - v3 i * v20 i))) := rfl
theorem p27 (v5 v40 v41 : FVec Ideal S80000 .f32) :
    k0_pay27 v5 v40 v41 i = coef 0x40400000#32 * v5 i * (v41 i * v40 i) := rfl
theorem p28 (v5 v10 v20 : FVec Ideal S80000 .f32) :
    k0_pay28 v5 v10 v20 i = v5 i * (coef 0x402953FD#32 * v5 i * v20 i) + coef 0xBEC1848F#32 * (v10 i * v20 i) := rfl
theorem p29 : k0_pay29 (F := Ideal) i = coef 0x4012A476#32 := rfl
theorem p30 (v87 v88 : FVec Ideal S80000 .f32) : k0_pay30 v87 v88 i = v88 i * v87 i := rfl
theorem p31 (v5 v10 v23 v52 : FVec Ideal S80000 .f32) :
    k0_pay31 v5 v10 v23 v52 i = coef 0x40032935#32 * (v5 i * v52 i + coef 0xBEF4C867#32 * (v10 i * v23 i)) := rfl
theorem p32 (v5 v10 v29 v59 : FVec Ideal S80000 .f32) :
    k0_pay32 v5 v10 v29 v59 i = coef 0x3FFDFDFC#32 * (v5 i * v59 i + coef 0xBF01D0D1#32 * (v10 i * v29 i)) := rfl
theorem p33 (v5 v10 v32 v66 : FVec Ideal S80000 .f32) :
    k0_pay33 v5 v10 v32 v66 i = coef 0x40032935#32 * (v5 i * v66 i + coef 0xBEF4C867#32 * (v10 i * v32 i)) := rfl
theorem p34 (v5 v10 v37 v69 : FVec Ideal S80000 .f32) :
    k0_pay34 v5 v10 v37 v69 i = coef 0x4012A476#32 * (v5 i * v69 i + coef 0xBEC1848F#32 * (v10 i * v37 i)) := rfl
theorem p35 (v5 v74 : FVec Ideal S80000 .f32) : k0_pay35 v5 v74 i = coef 0x40400000#32 * v5 i * v74 i := rfl
theorem p36 (v1 v3 v42 v74 : FVec Ideal S80000 .f32) :
    k0_pay36 v1 v3 v42 v74 i = coef 0xBF87C3B6#32 * (v1 i * v74 i - v3 i * v42 i) := rfl

end Step

end Cert.KernelIdeal.Point

end
-- ==== Proof.KerBlock.lean ====
/-
  What one grid point stores. The body writes its output block by 25 stores, one per row: the store to row `k` writes,
  as a [1, 80000] row, a vector whose entry at column `q` is harmonic `k` of the point (x q, y q, z q) read from the
  three rows of the input block. The 25 rows tile the block, so the block after the body is one function of the input
  block: entry (k, q) is harmonic `k` at column `q`.
-/
import proofs.«103363_j66211215835310_1_alg».proof.Proof.KerPoint

noncomputable section

namespace Cert.KernelIdeal.Block

open Cert.KernelIdeal Cert.KernelIdeal.Gen Idealize.ShloMosaic Idealize.ShloMosaic.ValueIdx Cert.Harmonics
open Cert.KernelIdeal.Point

/-- The output block as one function of the input block: entry (k, q) is harmonic `k` of column `q`'s point. -/
def harmBlock (x0 : Vec Ideal S3x80000 .f32) : Vec Ideal S25x80000 .f32 :=
  fun i => harm ⟨(i 0).val, idx2_lt0 i⟩
    (x0 (ix2 (0 : Fin 3) ⟨(i 1).val, idx2_lt1 i⟩)) (x0 (ix2 (1 : Fin 3) ⟨(i 1).val, idx2_lt1 i⟩)) (x0 (ix2 (2 : Fin 3) ⟨(i 1).val, idx2_lt1 i⟩))

theorem harmBlock_apply (x0 : Vec Ideal S3x80000 .f32) (k : Fin 25) (q : Fin 80000) :
    harmBlock x0 (ix2 k q) = harm k (x0 (ix2 (0 : Fin 3) q)) (x0 (ix2 (1 : Fin 3) q)) (x0 (ix2 (2 : Fin 3) q)) := rfl

/-- Column `q` of the one-row rectangle at row `k` of the block is the block's index (k, q). -/
theorem emb_row (k : ℕ) (inb : ∀ a, (![k, 0] : Fin 2 → Nat) a + S1x80000.size a ≤ S25x80000.size a)
    (u : Fin 1) (q : Fin 80000) :
    (Rect.unit (s := S25x80000) ![k, 0] S1x80000.size inb).emb (ix2 u q)
      = ix2 (⟨k, by have := inb 0; simp only [Matrix.cons_val_zero] at this; omega⟩ : Fin 25) q := by
  funext a; apply Fin.ext
  match a with
  | ⟨0, _⟩ => show k + 1 * u.val = k; omega
  | ⟨1, _⟩ => show 0 + 1 * q.val = q.val; omega

/-- The block after the body, entry by entry. -/
theorem out_apply (x0 : Vec Ideal S3x80000 .f32) (k : Fin 25) (q : Fin 80000) :
    out0_1 x0 (ix2 k q) = harm k (x0 (ix2 (0 : Fin 3) q)) (x0 (ix2 (1 : Fin 3) q)) (x0 (ix2 (2 : Fin 3) q)) := by
  rw [← harmBlock_apply]
  unfold out0_1
  refine View.canon_apply_of_pieces (harmBlock x0) _ ?_ (ix2 k q) (cover0_1 _ _ _ _ _ _ _ _ _ _ _ _ _ _ _ _ _ _ _ _ _ _ _ _ _ (ix2 k q))
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl <;>
  · obtain ⟨u, q', rfl⟩ : ∃ (u : Fin 1) (q' : Fin 80000), x = ix2 u q' := ⟨x 0, x 1, eq_ix2 x⟩
    rw [emb_row, harmBlock_apply]
    simp only [k0_pay1, k0_pay2, k0_pay3, k0_pay37, k0_pay38, k0_pay39, k0_pay40, k0_pay41, k0_pay42, k0_pay43, k0_pay44,
      k0_pay45, k0_pay46, k0_pay47, k0_pay48, k0_pay49, k0_pay50, k0_pay51, k0_pay52, k0_pay53, k0_pay54, k0_pay55, k0_pay56,
      k0_pay57, k0_pay58, row_of_vec, castx, casty, castz,
      p7, p8, p9 (View.ld x0 r0_0) (View.ld x0 r0_1) (View.ld x0 r0_2), p10 (View.ld x0 r0_0) (View.ld x0 r0_1) (View.ld x0 r0_2), p11 (View.ld x0 r0_0) (View.ld x0 r0_1) (View.ld x0 r0_2),
      p12 (View.ld x0 r0_0) (View.ld x0 r0_1) (View.ld x0 r0_2), p13 (View.ld x0 r0_0) (View.ld x0 r0_1) (View.ld x0 r0_2), p14,
      p15 (View.ld x0 r0_0) (View.ld x0 r0_1) (View.ld x0 r0_2), p16 (View.ld x0 r0_0) (View.ld x0 r0_1) (View.ld x0 r0_2), p17 (View.ld x0 r0_0) (View.ld x0 r0_1) (View.ld x0 r0_2), p18,
      p19, p20, p21, p22, p23, p24, p25, p26, p27, p28, p29, p30, p31, p32, p33, p34, p35, p36]
    try simp only [View.ld, idx0, idx1, idx2]
    rfl

end Cert.KernelIdeal.Block

end
-- ==== Proof.KerValue.lean ====
/-
  The idealized kernel's run with its result named: the output array after the run is the array of the 25 harmonics
  of the argument's columns. Each grid point writes a block of 80000 columns; inside a block, row `k` is one store,
  whose value is harmonic `k` of the three loaded rows; the 25 blocks tile the array.

  Point `t`'s input block is columns 80000 t … 80000 t + 79999 of the argument and its output block the same columns
  of the result (both index maps send `t` to block (0, t)), so what point `t` writes back is block `t` of ONE function
  of the argument, the harmonics column by column; every column lies in the block of the point `column / 80000`.
-/
import proofs.«103363_j66211215835310_1_alg».proof.Proof.Gen.KernelIdeal.Value
import proofs.«103363_j66211215835310_1_alg».proof.Proof.Spec
import proofs.«103363_j66211215835310_1_alg».proof.Proof.KerBlock
import Idealize.ShloMosaic.Lib.ValueIdx
import Idealize.ShloMosaic.Lib.Pipeline.Value
import Idealize.ShloMosaic.Lib.ValueLayout

noncomputable section

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Where a block sits in its array -/

/-- The printed index maps, decided over the 25 grid points: both windows' block index at point `t` is (0, t). -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

/-- Column `q` of block `t` is column 80000 t + q of the array. -/
def col (t : Fin cfg0.N) (q : Fin 80000) : Fin 2000000 :=
  ⟨80000 * t.val + q.val, by have h : t.val < grid0.N := t.isLt; have e : grid0.N = 25 := N_0; have := q.isLt; omega⟩

/-- Point `t`'s input block at (a, q) is the argument at (a, 80000 t + q). -/
theorem iblk_apply (c : Dev nD) (t : Fin cfg0.N) (a : Fin 3) (q : Fin 80000) :
    (iblk m c 0 t : Vec Ideal S3x80000 .f32) (ix2 a q)
      = (m ((c : Thread nD τ).loc main_arg0) : S3x2000000.Idx → EReal) (ix2 a (col t q)) := by
  obtain ⟨e0, e1, -, -⟩ := idx_facts t
  unfold iblk
  rw [View.read_apply]
  show V m c main_arg0 _ = m (c.tc.loc main_arg0) _
  unfold V
  congr 1
  funext b; apply Fin.ext
  match b with
  | ⟨0, _⟩ => show win0_0.index t 0 * 3 + 1 * a.val = a.val; rw [e0]; omega
  | ⟨1, _⟩ => show win0_0.index t 1 * 80000 + 1 * q.val = 80000 * t.val + q.val; rw [e1]; omega

/-- Point `t`'s output block's (k, q) is the result array's (k, 80000 t + q). -/
theorem emb_out (t : Fin cfg0.N) (k : Fin 25) (q : Fin 80000) :
    ((cfg0.win 1).blk t).view.emb (ix2 k q) = (ix2 k (col t q) : S25x2000000.Idx) := by
  obtain ⟨-, -, e0, e1⟩ := idx_facts t
  funext b; apply Fin.ext
  match b with
  | ⟨0, _⟩ => show win0_1.index t 0 * 25 + 1 * k.val = k.val; rw [e0]; omega
  | ⟨1, _⟩ => show win0_1.index t 1 * 80000 + 1 * q.val = 80000 * t.val + q.val; rw [e1]; omega

/-! ## What a point writes back, and the array after the run -/

/-- What point `t` writes back is block `t` of the harmonics of the argument. -/
theorem flushed_eq (c : Dev nD) (t : Fin cfg0.N) :
    (dats m 0 c).flushed 1 t
      = ((cfg0.win 1).blk t).view.read (Elt Ideal) (Cert.Harmonics.sph (m ((c : Thread nD τ).loc main_arg0))) := by
  rw [Value.flushed1]
  funext j
  obtain ⟨k, q, rfl⟩ : ∃ (k : Fin 25) (q : Fin 80000), j = ix2 k q := ⟨j 0, j 1, eq_ix2 j⟩
  show out0_1 (iblk m c 0 t) (ix2 k q)
    = Cert.Harmonics.sph (m ((c : Thread nD τ).loc main_arg0)) (((cfg0.win 1).blk t).view.emb (ix2 k q))
  refine (Block.out_apply _ k q).trans ?_
  rw [iblk_apply m c t 0 q, iblk_apply m c t 1 q, iblk_apply m c t 2 q, emb_out t k q, Cert.Harmonics.sph_apply]

/-- An index of the array is in point `t`'s block iff each coordinate is in the block's range on its axis. -/
theorem mem_blk (t : Fin cfg0.N) (i : S25x2000000.Idx) :
    i ∈ ((cfg0.win 1).blk t).view.set ↔ ∀ a : Fin 2, win0_1.index t a * S25x80000.size a ≤ (i a).val
      ∧ (i a).val < win0_1.index t a * S25x80000.size a + S25x80000.size a := by
  show i ∈ ((View.whole main_v0).slice (win0_1.rect t)).set ↔ _
  rw [View.set_slice_whole, Rect.mem_set_unit]
  exact Iff.rfl

/-- Every index of the array lies in the block of the point its column falls in. -/
theorem cover (i : S25x2000000.Idx) :
    ∃ t : Fin cfg0.N, (cfg0.win 1).flush t = true ∧ i ∈ ((cfg0.win 1).blk t).view.set := by
  have hi0 : (i 0).val < 25 := (i 0).isLt
  have hi1 : (i 1).val < 2000000 := (i 1).isLt
  have hN : grid0.N = 25 := N_0
  let t : Fin cfg0.N := ⟨(i 1).val / 80000, by show (i 1).val / 80000 < grid0.N; omega⟩
  obtain ⟨-, -, e0, e1⟩ := idx_facts t
  refine ⟨t, flush0_1 t, ?_⟩
  rw [mem_blk]
  intro a
  match a with
  | ⟨0, _⟩ => show win0_1.index t 0 * 25 ≤ (i 0).val ∧ (i 0).val < win0_1.index t 0 * 25 + 25; rw [e0]; omega
  | ⟨1, _⟩ =>
    show win0_1.index t 1 * 80000 ≤ (i 1).val ∧ (i 1).val < win0_1.index t 1 * 80000 + 80000
    rw [e1]
    show (i 1).val / 80000 * 80000 ≤ (i 1).val ∧ (i 1).val < (i 1).val / 80000 * 80000 + 80000
    omega

/-- The output array after the run is the harmonics of the argument. -/
theorem final (c : Dev nD) :
    (dats m 0 c).arrAt 1 cfg0.N = Cert.Harmonics.sph (m ((c : Thread nD τ).loc main_arg0)) :=
  (dats m 0 c).arrAt_eq_of_cover 1 (Cert.Harmonics.sph (m ((c : Thread nD τ).loc main_arg0)))
    (fun t _ => flushed_eq m c t) cover

/-- Every weakly fair execution of the kernel's @main terminates with the result at the 25 harmonics of the argument
    and the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v0) = Cert.Harmonics.sph (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Whole

end
-- ==== Proof.RefOps.lean ====
import proofs.«103363_j66211215835310_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- The operations 1 to 60 of 238, in order (in the printed program's window 0). -/
abbrev chunk0 : List (HloOp τ sig (Elt F)) :=
  [ StableHlo.nullary main_cst (constant S1 .f32 0x4005DD98#32),
    StableHlo.nullary main_cst_0 (constant S1 .f32 0xBEE4F92E#32),
    StableHlo.nullary main_c (constantI S1 32 5#32),
    StableHlo.nullary main_c_1 (constantI S1 1 0#1),
    StableHlo.nullary main_c_2 (constantI S1 32 1#32),
    StableHlo.nullary main_c_3 (constantI S1 1 0#1),
    StableHlo.nullary main_cst_4 (fun i => FloatOps.ofBits .f32 (lit0 (S2.rowMajor i))),
    StableHlo.nullary main_cst_5 (fun i => FloatOps.ofBits .f32 (lit1 (S2.rowMajor i))),
    StableHlo.nullary main_c_6 (fun i => lit2 (S2.rowMajor i)),
    StableHlo.nullary main_c_7 (constantI S2 1 0#1),
    StableHlo.nullary main_c_8 (fun i => lit3 (S2.rowMajor i)),
    StableHlo.nullary main_c_9 (constantI S2 1 0#1),
    StableHlo.nullary main_cst_10 (fun i => FloatOps.ofBits .f32 (lit4 (S2.rowMajor i))),
    StableHlo.nullary main_cst_11 (fun i => FloatOps.ofBits .f32 (lit5 (S2.rowMajor i))),
    StableHlo.nullary main_c_12 (fun i => lit6 (S2.rowMajor i)),
    StableHlo.nullary main_c_13 (constantI S2 1 0#1),
    StableHlo.nullary main_c_14 (fun i => lit7 (S2.rowMajor i)),
    StableHlo.nullary main_c_15 (constantI S2 1 0#1),
    StableHlo.nullary main_cst_16 (fun i => FloatOps.ofBits .f32 (lit8 (S3.rowMajor i))),
    StableHlo.nullary main_cst_17 (fun i => FloatOps.ofBits .f32 (lit9 (S3.rowMajor i))),
    StableHlo.nullary main_c_18 (fun i => lit10 (S3.rowMajor i)),
    StableHlo.nullary main_c_19 (constantI S3 1 0#1),
    StableHlo.nullary main_c_20 (fun i => lit11 (S3.rowMajor i)),
    StableHlo.nullary main_c_21 (constantI S3 1 0#1),
    StableHlo.unary main_arg0 main_v0 ((extractStridedSlice S1x2000000 ![0, 0] · slices_S3x2000000_S1x2000000_0_0) : (⟨S3x2000000, .f32⟩ : BufTy).Contents (Elt F) → (⟨S1x2000000, .f32⟩ : BufTy).Contents (Elt F)),
    StableHlo.reshape main_v0 main_v1 rfl shapeCasts_S1x2000000_S2000000,
    StableHlo.unary main_arg0 main_v2 ((extractStridedSlice S1x2000000 ![1, 0] · slices_S3x2000000_S1x2000000_1_0) : (⟨S3x2000000, .f32⟩ : BufTy).Contents (Elt F) → (⟨S1x2000000, .f32⟩ : BufTy).Contents (Elt F)),
    StableHlo.reshape main_v2 main_v3 rfl shapeCasts_S1x2000000_S2000000,
    StableHlo.unary main_arg0 main_v4 ((extractStridedSlice S1x2000000 ![2, 0] · slices_S3x2000000_S1x2000000_2_0) : (⟨S3x2000000, .f32⟩ : BufTy).Contents (Elt F) → (⟨S1x2000000, .f32⟩ : BufTy).Contents (Elt F)),
    StableHlo.reshape main_v4 main_v5 rfl shapeCasts_S1x2000000_S2000000,
    StableHlo.binary main_v1 main_v1 main_v6 (mulf : (⟨S2000000, .f32⟩ : BufTy).Contents (Elt F) → (⟨S2000000, .f32⟩ : BufTy).Contents (Elt F) → (⟨S2000000, .f32⟩ : BufTy).Contents (Elt F)),
    StableHlo.binary main_v3 main_v3 main_v7 (mulf : (⟨S2000000, .f32⟩ : BufTy).Contents (Elt F) → (⟨S2000000, .f32⟩ : BufTy).Contents (Elt F) → (⟨S2000000, .f32⟩ : BufTy).Contents (Elt F)),
    StableHlo.binary main_v6 main_v7 main_v8 (addf : (⟨S2000000, .f32⟩ : BufTy).Contents (Elt F) → (⟨S2000000, .f32⟩ : BufTy).Contents (Elt F) → (⟨S2000000, .f32⟩ : BufTy).Contents (Elt F)),
    StableHlo.binary main_v5 main_v5 main_v9 (mulf : (⟨S2000000, .f32⟩ : BufTy).Contents (Elt F) → (⟨S2000000, .f32⟩ : BufTy).Contents (Elt F) → (⟨S2000000, .f32⟩ : BufTy).Contents (Elt F)),
    StableHlo.binary main_v8 main_v9 main_v10 (addf : (⟨S2000000, .f32⟩ : BufTy).Contents (Elt F) → (⟨S2000000, .f32⟩ : BufTy).Contents (Elt F) → (⟨S2000000, .f32⟩ : BufTy).Contents (Elt F)),
    StableHlo.nullary main_cst_22 (constant S_ .f32 0x3E906EBB#32),
    StableHlo.unary main_cst_22 main_v11 (broadcastInDim S2000000 ![] bcast_S_S2000000 : (⟨S_, .f32⟩ : BufTy).Contents (Elt F) → (⟨S2000000, .f32⟩ : BufTy).Contents (Elt F)),
    StableHlo.nullary main_cst_23 (constant S_ .f32 0xBEFA2A1C#32),
    StableHlo.unary main_cst_23 main_v12 (broadcastInDim S2000000 ![] bcast_S_S2000000 : (⟨S_, .f32⟩ : BufTy).Contents (Elt F) → (⟨S2000000, .f32⟩ : BufTy).Contents (Elt F)),
    StableHlo.binary main_v12 main_v3 main_v13 (mulf : (⟨S2000000, .f32⟩ : BufTy).Contents (Elt F) → (⟨S2000000, .f32⟩ : BufTy).Contents (Elt F) → (⟨S2000000, .f32⟩ : BufTy).Contents (Elt F)),
    StableHlo.nullary main_cst_24 (constant S_ .f32 0x3EFA2A1C#32),
    StableHlo.unary main_cst_24 main_v14 (broadcastInDim S2000000 ![] bcast_S_S2000000 : (⟨S_, .f32⟩ : BufTy).Contents (Elt F) → (⟨S2000000, .f32⟩ : BufTy).Contents (Elt F)),
    StableHlo.binary main_v14 main_v5 main_v15 (mulf : (⟨S2000000, .f32⟩ : BufTy).Contents (Elt F) → (⟨S2000000, .f32⟩ : BufTy).Contents (Elt F) → (⟨S2000000, .f32⟩ : BufTy).Contents (Elt F)),
    StableHlo.nullary main_cst_25 (constant S_ .f32 0xBEFA2A1C#32),
    StableHlo.unary main_cst_25 main_v16 (broadcastInDim S2000000 ![] bcast_S_S2000000 : (⟨S_, .f32⟩ : BufTy).Contents (Elt F) → (⟨S2000000, .f32⟩ : BufTy).Contents (Elt F)),
    StableHlo.binary main_v16 main_v1 main_v17 (mulf : (⟨S2000000, .f32⟩ : BufTy).Contents (Elt F) → (⟨S2000000, .f32⟩ : BufTy).Contents (Elt F) → (⟨S2000000, .f32⟩ : BufTy).Contents (Elt F)),
    StableHlo.nullary main_cst_26 (constant S_ .f32 0x3F8BD8A1#32),
    StableHlo.unary main_cst_26 main_v18 (broadcastInDim S2000000 ![] bcast_S_S2000000 : (⟨S_, .f32⟩ : BufTy).Contents (Elt F) → (⟨S2000000, .f32⟩ : BufTy).Contents (Elt F)),
    StableHlo.binary main_v18 main_v1 main_v19 (mulf : (⟨S2000000, .f32⟩ : BufTy).Contents (Elt F) → (⟨S2000000, .f32⟩ : BufTy).Contents (Elt F) → (⟨S2000000, .f32⟩ : BufTy).Contents (Elt F)),
    StableHlo.binary main_v19 main_v3 main_v20 (mulf : (⟨S2000000, .f32⟩ : BufTy).Contents (Elt F) → (⟨S2000000, .f32⟩ : BufTy).Contents (Elt F) → (⟨S2000000, .f32⟩ : BufTy).Contents (Elt F)),
    StableHlo.nullary main_cst_27 (constant S_ .f32 0xBF8BD8A1#32),
    StableHlo.unary main_cst_27 main_v21 (broadcastInDim S2000000 ![] bcast_S_S2000000 : (⟨S_, .f32⟩ : BufTy).Contents (Elt F) → (⟨S2000000, .f32⟩ : BufTy).Contents (Elt F)),
    StableHlo.binary main_v21 main_v3 main_v22 (mulf : (⟨S2000000, .f32⟩ : BufTy).Contents (Elt F) → (⟨S2000000, .f32⟩ : BufTy).Contents (Elt F) → (⟨S2000000, .f32⟩ : BufTy).Contents (Elt F)),
    StableHlo.binary main_v22 main_v5 main_v23 (mulf : (⟨S2000000, .f32⟩ : BufTy).Contents (Elt F) → (⟨S2000000, .f32⟩ : BufTy).Contents (Elt F) → (⟨S2000000, .f32⟩ : BufTy).Contents (Elt F)),
    StableHlo.nullary main_cst_28 (constant S_ .f32 0x40400000#32),
    StableHlo.unary main_cst_28 main_v24 (broadcastInDim S2000000 ![] bcast_S_S2000000 : (⟨S_, .f32⟩ : BufTy).Contents (Elt F) → (⟨S2000000, .f32⟩ : BufTy).Contents (Elt F)),
    StableHlo.binary main_v24 main_v5 main_v25 (mulf : (⟨S2000000, .f32⟩ : BufTy).Contents (Elt F) → (⟨S2000000, .f32⟩ : BufTy).Contents (Elt F) → (⟨S2000000, .f32⟩ : BufTy).Contents (Elt F)),
    StableHlo.binary main_v25 main_v5 main_v26 (mulf : (⟨S2000000, .f32⟩ : BufTy).Contents (Elt F) → (⟨S2000000, .f32⟩ : BufTy).Contents (Elt F) → (⟨S2000000, .f32⟩ : BufTy).Contents (Elt F)),
    StableHlo.binary main_v26 main_v10 main_v27 (subf : (⟨S2000000, .f32⟩ : BufTy).Contents (Elt F) → (⟨S2000000, .f32⟩ : BufTy).Contents (Elt F) → (⟨S2000000, .f32⟩ : BufTy).Contents (Elt F)),
    StableHlo.nullary main_cst_29 (constant S_ .f32 0x3EA17B01#32) ]

/-- The buffers the operations of `chunk0` write. -/
abbrev written0 : List (Ref sig .tc) := [main_cst, main_cst_0, main_c, main_c_1, main_c_2, main_c_3, main_cst_4, main_cst_5, main_c_6, main_c_7, main_c_8, main_c_9, main_cst_10, main_cst_11, main_c_12, main_c_13, main_c_14, main_c_15, main_cst_16, main_cst_17, main_c_18, main_c_19, main_c_20, main_c_21, main_v0, main_v1, main_v2, main_v3, main_v4, main_v5, main_v6, main_v7, main_v8, main_v9, main_v10, main_cst_22, main_v11, main_cst_23, main_v12, main_v13, main_cst_24, main_v14, main_v15, main_cst_25, main_v16, main_v17, main_cst_26, main_v18, main_v19, main_v20, main_cst_27, main_v21, main_v22, main_v23, main_cst_28, main_v24, main_v25, main_v26, main_v27, main_cst_29]

/-- The operations 61 to 81 of 238, in order (in the printed program's window 1). -/
abbrev chunk1 : List (HloOp τ sig (Elt F)) :=
  [ StableHlo.unary main_cst_29 main_v28 (broadcastInDim S2000000 ![] bcast_S_S2000000 : (⟨S_, .f32⟩ : BufTy).Contents (Elt F) → (⟨S2000000, .f32⟩ : BufTy).Contents (Elt F)),
    StableHlo.binary main_v28 main_v27 main_v29 (mulf : (⟨S2000000, .f32⟩ : BufTy).Contents (Elt F) → (⟨S2000000, .f32⟩ : BufTy).Contents (Elt F) → (⟨S2000000, .f32⟩ : BufTy).Contents (Elt F)),
    StableHlo.nullary main_cst_30 (constant S_ .f32 0xBF8BD8A1#32),
    StableHlo.unary main_cst_30 main_v30 (broadcastInDim S2000000 ![] bcast_S_S2000000 : (⟨S_, .f32⟩ : BufTy).Contents (Elt F) → (⟨S2000000, .f32⟩ : BufTy).Contents (Elt F)),
    StableHlo.binary main_v30 main_v1 main_v31 (mulf : (⟨S2000000, .f32⟩ : BufTy).Contents (Elt F) → (⟨S2000000, .f32⟩ : BufTy).Contents (Elt F) → (⟨S2000000, .f32⟩ : BufTy).Contents (Elt F)),
    StableHlo.binary main_v31 main_v5 main_v32 (mulf : (⟨S2000000, .f32⟩ : BufTy).Contents (Elt F) → (⟨S2000000, .f32⟩ : BufTy).Contents (Elt F) → (⟨S2000000, .f32⟩ : BufTy).Contents (Elt F)),
    StableHlo.binary main_v1 main_v1 main_v33 (mulf : (⟨S2000000, .f32⟩ : BufTy).Contents (Elt F) → (⟨S2000000, .f32⟩ : BufTy).Contents (Elt F) → (⟨S2000000, .f32⟩ : BufTy).Contents (Elt F)),
    StableHlo.binary main_v3 main_v3 main_v34 (mulf : (⟨S2000000, .f32⟩ : BufTy).Contents (Elt F) → (⟨S2000000, .f32⟩ : BufTy).Contents (Elt F) → (⟨S2000000, .f32⟩ : BufTy).Contents (Elt F)),
    StableHlo.binary main_v33 main_v34 main_v35 (subf : (⟨S2000000, .f32⟩ : BufTy).Contents (Elt F) → (⟨S2000000, .f32⟩ : BufTy).Contents (Elt F) → (⟨S2000000, .f32⟩ : BufTy).Contents (Elt F)),
    StableHlo.nullary main_cst_31 (constant S_ .f32 0x3F0BD8A1#32),
    StableHlo.unary main_cst_31 main_v36 (broadcastInDim S2000000 ![] bcast_S_S2000000 : (⟨S_, .f32⟩ : BufTy).Contents (Elt F) → (⟨S2000000, .f32⟩ : BufTy).Contents (Elt F)),
    StableHlo.binary main_v36 main_v35 main_v37 (mulf : (⟨S2000000, .f32⟩ : BufTy).Contents (Elt F) → (⟨S2000000, .f32⟩ : BufTy).Contents (Elt F) → (⟨S2000000, .f32⟩ : BufTy).Contents (Elt F)),
    StableHlo.unary main_v11 main_v38 (broadcastInDim S1x2000000 ![1] bcast_S2000000_S1x2000000_1 : (⟨S2000000, .f32⟩ : BufTy).Contents (Elt F) → (⟨S1x2000000, .f32⟩ : BufTy).Contents (Elt F)),
    StableHlo.unary main_v13 main_v39 (broadcastInDim S1x2000000 ![1] bcast_S2000000_S1x2000000_1 : (⟨S2000000, .f32⟩ : BufTy).Contents (Elt F) → (⟨S1x2000000, .f32⟩ : BufTy).Contents (Elt F)),
    StableHlo.unary main_v15 main_v40 (broadcastInDim S1x2000000 ![1] bcast_S2000000_S1x2000000_1 : (⟨S2000000, .f32⟩ : BufTy).Contents (Elt F) → (⟨S1x2000000, .f32⟩ : BufTy).Contents (Elt F)),
    StableHlo.unary main_v17 main_v41 (broadcastInDim S1x2000000 ![1] bcast_S2000000_S1x2000000_1 : (⟨S2000000, .f32⟩ : BufTy).Contents (Elt F) → (⟨S1x2000000, .f32⟩ : BufTy).Contents (Elt F)),
    StableHlo.unary main_v20 main_v42 (broadcastInDim S1x2000000 ![1] bcast_S2000000_S1x2000000_1 : (⟨S2000000, .f32⟩ : BufTy).Contents (Elt F) → (⟨S1x2000000, .f32⟩ : BufTy).Contents (Elt F)),
    StableHlo.unary main_v23 main_v43 (broadcastInDim S1x2000000 ![1] bcast_S2000000_S1x2000000_1 : (⟨S2000000, .f32⟩ : BufTy).Contents (Elt F) → (⟨S1x2000000, .f32⟩ : BufTy).Contents (Elt F)),
    StableHlo.unary main_v29 main_v44 (broadcastInDim S1x2000000 ![1] bcast_S2000000_S1x2000000_1 : (⟨S2000000, .f32⟩ : BufTy).Contents (Elt F) → (⟨S1x2000000, .f32⟩ : BufTy).Contents (Elt F)),
    StableHlo.unary main_v32 main_v45 (broadcastInDim S1x2000000 ![1] bcast_S2000000_S1x2000000_1 : (⟨S2000000, .f32⟩ : BufTy).Contents (Elt F) → (⟨S1x2000000, .f32⟩ : BufTy).Contents (Elt F)),
    StableHlo.unary main_v37 main_v46 (broadcastInDim S1x2000000 ![1] bcast_S2000000_S1x2000000_1 : (⟨S2000000, .f32⟩ : BufTy).Contents (Elt F) → (⟨S1x2000000, .f32⟩ : BufTy).Contents (Elt F)) ]

/-- The buffers the operations of `chunk1` write. -/
abbrev written1 : List (Ref sig .tc) := [main_v28, main_v29, main_cst_30, main_v30, main_v31, main_v32, main_v33, main_v34, main_v35, main_cst_31, main_v36, main_v37, main_v38, main_v39, main_v40, main_v41, main_v42, main_v43, main_v44, main_v45, main_v46]

/-- The operations 82 to 82 of 238, in order (in the printed program's window 1). -/
abbrev chunk2 : List (HloOp τ sig (Elt F)) :=
  [ StableHlo.nary ![main_v38, main_v39, main_v40, main_v41, main_v42, main_v43, main_v44, main_v45, main_v46] main_v47 (fun u => concatenate S9x2000000 0 [⟨S1x2000000, u 0⟩, ⟨S1x2000000, u 1⟩, ⟨S1x2000000, u 2⟩, ⟨S1x2000000, u 3⟩, ⟨S1x2000000, u 4⟩, ⟨S1x2000000, u 5⟩, ⟨S1x2000000, u 6⟩, ⟨S1x2000000, u 7⟩, ⟨S1x2000000, u 8⟩] concatenates_S1x2000000_S1x2000000_S1x2000000_S1x2000000_S1x2000000_S1x2000000_S1x2000000_S1x2000000_S1x2000000_S9x2000000_d0) ]

/-- The buffers the operations of `chunk2` write. -/
abbrev written2 : List (Ref sig .tc) := [main_v47]

/-- The operations 83 to 120 of 238, in order (in the printed program's window 1). -/
abbrev chunk3 : List (HloOp τ sig (Elt F)) :=
  [ StableHlo.unary main_v47 main_v48 ((extractStridedSlice S1x2000000 ![8, 0] · slices_S9x2000000_S1x2000000_8_0) : (⟨S9x2000000, .f32⟩ : BufTy).Contents (Elt F) → (⟨S1x2000000, .f32⟩ : BufTy).Contents (Elt F)),
    StableHlo.reshape main_v48 main_v49 rfl shapeCasts_S1x2000000_S2000000,
    StableHlo.unary main_v47 main_v50 ((extractStridedSlice S1x2000000 ![4, 0] · slices_S9x2000000_S1x2000000_4_0) : (⟨S9x2000000, .f32⟩ : BufTy).Contents (Elt F) → (⟨S1x2000000, .f32⟩ : BufTy).Contents (Elt F)),
    StableHlo.reshape main_v50 main_v51 rfl shapeCasts_S1x2000000_S2000000,
    StableHlo.binary main_v1 main_v51 main_v52 (mulf : (⟨S2000000, .f32⟩ : BufTy).Contents (Elt F) → (⟨S2000000, .f32⟩ : BufTy).Contents (Elt F) → (⟨S2000000, .f32⟩ : BufTy).Contents (Elt F)),
    StableHlo.binary main_v3 main_v49 main_v53 (mulf : (⟨S2000000, .f32⟩ : BufTy).Contents (Elt F) → (⟨S2000000, .f32⟩ : BufTy).Contents (Elt F) → (⟨S2000000, .f32⟩ : BufTy).Contents (Elt F)),
    StableHlo.binary main_v52 main_v53 main_v54 (addf : (⟨S2000000, .f32⟩ : BufTy).Contents (Elt F) → (⟨S2000000, .f32⟩ : BufTy).Contents (Elt F) → (⟨S2000000, .f32⟩ : BufTy).Contents (Elt F)),
    StableHlo.nullary main_cst_32 (constant S_ .f32 0xBF8A417C#32),
    StableHlo.unary main_cst_32 main_v55 (broadcastInDim S2000000 ![] bcast_S_S2000000 : (⟨S_, .f32⟩ : BufTy).Contents (Elt F) → (⟨S2000000, .f32⟩ : BufTy).Contents (Elt F)),
    StableHlo.binary main_v55 main_v54 main_v56 (mulf : (⟨S2000000, .f32⟩ : BufTy).Contents (Elt F) → (⟨S2000000, .f32⟩ : BufTy).Contents (Elt F) → (⟨S2000000, .f32⟩ : BufTy).Contents (Elt F)),
    StableHlo.unary main_v56 main_v57 (broadcastInDim S1x2000000 ![1] bcast_S2000000_S1x2000000_1 : (⟨S2000000, .f32⟩ : BufTy).Contents (Elt F) → (⟨S1x2000000, .f32⟩ : BufTy).Contents (Elt F)),
    StableHlo.nullary main_cst_33 (constant S_ .f32 0x402953FD#32),
    StableHlo.unary main_cst_33 main_v58 (broadcastInDim S2000000 ![] bcast_S_S2000000 : (⟨S_, .f32⟩ : BufTy).Contents (Elt F) → (⟨S2000000, .f32⟩ : BufTy).Contents (Elt F)),
    StableHlo.binary main_v58 main_v5 main_v59 (mulf : (⟨S2000000, .f32⟩ : BufTy).Contents (Elt F) → (⟨S2000000, .f32⟩ : BufTy).Contents (Elt F) → (⟨S2000000, .f32⟩ : BufTy).Contents (Elt F)),
    StableHlo.binary main_v59 main_v51 main_v60 (mulf : (⟨S2000000, .f32⟩ : BufTy).Contents (Elt F) → (⟨S2000000, .f32⟩ : BufTy).Contents (Elt F) → (⟨S2000000, .f32⟩ : BufTy).Contents (Elt F)),
    StableHlo.unary main_v60 main_v61 (broadcastInDim S1x2000000 ![1] bcast_S2000000_S1x2000000_1 : (⟨S2000000, .f32⟩ : BufTy).Contents (Elt F) → (⟨S1x2000000, .f32⟩ : BufTy).Contents (Elt F)),
    StableHlo.unary main_cst main_v62 (broadcastInDim S1x1 ![0] bcast_S1_S1x1_0 : (⟨S1, .f32⟩ : BufTy).Contents (Elt F) → (⟨S1x1, .f32⟩ : BufTy).Contents (Elt F)),
    StableHlo.unary main_cst_0 main_v63 (broadcastInDim S1x1 ![0] bcast_S1_S1x1_0 : (⟨S1, .f32⟩ : BufTy).Contents (Elt F) → (⟨S1x1, .f32⟩ : BufTy).Contents (Elt F)),
    StableHlo.nullary main_c_34 (constantI S_ 32 9#32),
    StableHlo.unary main_c_34 main_v64 (broadcastInDim S1 ![] bcast_S_S1 : (⟨S_, .i32⟩ : BufTy).Contents (Elt F) → (⟨S1, .i32⟩ : BufTy).Contents (Elt F)),
    StableHlo.binary main_c main_v64 main_v65 (addi : (⟨S1, .i32⟩ : BufTy).Contents (Elt F) → (⟨S1, .i32⟩ : BufTy).Contents (Elt F) → (⟨S1, .i32⟩ : BufTy).Contents (Elt F)),
    StableHlo.ternary main_c_1 main_v65 main_c main_v66 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    StableHlo.unary main_v66 main_v67 (broadcastInDim S1x1 ![0] bcast_S1_S1x1_0 : (⟨S1, .i32⟩ : BufTy).Contents (Elt F) → (⟨S1x1, .i32⟩ : BufTy).Contents (Elt F)),
    StableHlo.binary main_v47 main_v67 main_v68 ((fun x i => Host.gather gather_S9x2000000_S1x1_S1x2000000_1_0_n_n_0_1_12000000 x i) : (⟨S9x2000000, .f32⟩ : BufTy).Contents (Elt F) → (⟨S1x1, .i32⟩ : BufTy).Contents (Elt F) → (⟨S1x2000000, .f32⟩ : BufTy).Contents (Elt F)),
    StableHlo.unary main_v5 main_v69 (broadcastInDim S1x2000000 ![1] bcast_S2000000_S1x2000000_1 : (⟨S2000000, .f32⟩ : BufTy).Contents (Elt F) → (⟨S1x2000000, .f32⟩ : BufTy).Contents (Elt F)),
    StableHlo.binary main_v69 main_v68 main_v70 (mulf : (⟨S1x2000000, .f32⟩ : BufTy).Contents (Elt F) → (⟨S1x2000000, .f32⟩ : BufTy).Contents (Elt F) → (⟨S1x2000000, .f32⟩ : BufTy).Contents (Elt F)),
    StableHlo.nullary main_c_35 (constantI S_ 32 9#32),
    StableHlo.unary main_c_35 main_v71 (broadcastInDim S1 ![] bcast_S_S1 : (⟨S_, .i32⟩ : BufTy).Contents (Elt F) → (⟨S1, .i32⟩ : BufTy).Contents (Elt F)),
    StableHlo.binary main_c_2 main_v71 main_v72 (addi : (⟨S1, .i32⟩ : BufTy).Contents (Elt F) → (⟨S1, .i32⟩ : BufTy).Contents (Elt F) → (⟨S1, .i32⟩ : BufTy).Contents (Elt F)),
    StableHlo.ternary main_c_3 main_v72 main_c_2 main_v73 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    StableHlo.unary main_v73 main_v74 (broadcastInDim S1x1 ![0] bcast_S1_S1x1_0 : (⟨S1, .i32⟩ : BufTy).Contents (Elt F) → (⟨S1x1, .i32⟩ : BufTy).Contents (Elt F)),
    StableHlo.binary main_v47 main_v74 main_v75 ((fun x i => Host.gather gather_S9x2000000_S1x1_S1x2000000_1_0_n_n_0_1_12000000 x i) : (⟨S9x2000000, .f32⟩ : BufTy).Contents (Elt F) → (⟨S1x1, .i32⟩ : BufTy).Contents (Elt F) → (⟨S1x2000000, .f32⟩ : BufTy).Contents (Elt F)),
    StableHlo.unary main_v10 main_v76 (broadcastInDim S1x2000000 ![1] bcast_S2000000_S1x2000000_1 : (⟨S2000000, .f32⟩ : BufTy).Contents (Elt F) → (⟨S1x2000000, .f32⟩ : BufTy).Contents (Elt F)),
    StableHlo.binary main_v76 main_v75 main_v77 (mulf : (⟨S1x2000000, .f32⟩ : BufTy).Contents (Elt F) → (⟨S1x2000000, .f32⟩ : BufTy).Contents (Elt F) → (⟨S1x2000000, .f32⟩ : BufTy).Contents (Elt F)),
    StableHlo.unary main_v63 main_v78 (broadcastInDim S1x2000000 ![0, 1] bcast_S1x1_S1x2000000_0_1 : (⟨S1x1, .f32⟩ : BufTy).Contents (Elt F) → (⟨S1x2000000, .f32⟩ : BufTy).Contents (Elt F)),
    StableHlo.binary main_v78 main_v77 main_v79 (mulf : (⟨S1x2000000, .f32⟩ : BufTy).Contents (Elt F) → (⟨S1x2000000, .f32⟩ : BufTy).Contents (Elt F) → (⟨S1x2000000, .f32⟩ : BufTy).Contents (Elt F)),
    StableHlo.binary main_v70 main_v79 main_v80 (addf : (⟨S1x2000000, .f32⟩ : BufTy).Contents (Elt F) → (⟨S1x2000000, .f32⟩ : BufTy).Contents (Elt F) → (⟨S1x2000000, .f32⟩ : BufTy).Contents (Elt F)),
    StableHlo.unary main_v62 main_v81 (broadcastInDim S1x2000000 ![0, 1] bcast_S1x1_S1x2000000_0_1 : (⟨S1x1, .f32⟩ : BufTy).Contents (Elt F) → (⟨S1x2000000, .f32⟩ : BufTy).Contents (Elt F)) ]

/-- The buffers the operations of `chunk3` write. -/
abbrev written3 : List (Ref sig .tc) := [main_v48, main_v49, main_v50, main_v51, main_v52, main_v53, main_v54, main_cst_32, main_v55, main_v56, main_v57, main_cst_33, main_v58, main_v59, main_v60, main_v61, main_v62, main_v63, main_c_34, main_v64, main_v65, main_v66, main_v67, main_v68, main_v69, main_v70, main_c_35, main_v71, main_v72, main_v73, main_v74, main_v75, main_v76, main_v77, main_v78, main_v79, main_v80, main_v81]

/-- The operations 121 to 158 of 238, in order (in the printed program's window 2). -/
abbrev chunk4 : List (HloOp τ sig (Elt F)) :=
  [ StableHlo.binary main_v81 main_v80 main_v82 (mulf : (⟨S1x2000000, .f32⟩ : BufTy).Contents (Elt F) → (⟨S1x2000000, .f32⟩ : BufTy).Contents (Elt F) → (⟨S1x2000000, .f32⟩ : BufTy).Contents (Elt F)),
    StableHlo.unary main_cst_4 main_v83 (broadcastInDim S2x1 ![0] bcast_S2_S2x1_0 : (⟨S2, .f32⟩ : BufTy).Contents (Elt F) → (⟨S2x1, .f32⟩ : BufTy).Contents (Elt F)),
    StableHlo.unary main_cst_5 main_v84 (broadcastInDim S2x1 ![0] bcast_S2_S2x1_0 : (⟨S2, .f32⟩ : BufTy).Contents (Elt F) → (⟨S2x1, .f32⟩ : BufTy).Contents (Elt F)),
    StableHlo.nullary main_c_36 (constantI S_ 32 9#32),
    StableHlo.unary main_c_36 main_v85 (broadcastInDim S2 ![] bcast_S_S2 : (⟨S_, .i32⟩ : BufTy).Contents (Elt F) → (⟨S2, .i32⟩ : BufTy).Contents (Elt F)),
    StableHlo.binary main_c_6 main_v85 main_v86 (addi : (⟨S2, .i32⟩ : BufTy).Contents (Elt F) → (⟨S2, .i32⟩ : BufTy).Contents (Elt F) → (⟨S2, .i32⟩ : BufTy).Contents (Elt F)),
    StableHlo.ternary main_c_7 main_v86 main_c_6 main_v87 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v87 main_v88 (broadcastInDim S2x1 ![0] bcast_S2_S2x1_0 : (⟨S2, .i32⟩ : BufTy).Contents (Elt F) → (⟨S2x1, .i32⟩ : BufTy).Contents (Elt F)),
    StableHlo.binary main_v47 main_v88 main_v89 ((fun x i => Host.gather gather_S9x2000000_S2x1_S2x2000000_1_0_n_n_0_1_12000000 x i) : (⟨S9x2000000, .f32⟩ : BufTy).Contents (Elt F) → (⟨S2x1, .i32⟩ : BufTy).Contents (Elt F) → (⟨S2x2000000, .f32⟩ : BufTy).Contents (Elt F)),
    StableHlo.unary main_v5 main_v90 (broadcastInDim S1x2000000 ![1] bcast_S2000000_S1x2000000_1 : (⟨S2000000, .f32⟩ : BufTy).Contents (Elt F) → (⟨S1x2000000, .f32⟩ : BufTy).Contents (Elt F)),
    StableHlo.unary main_v90 main_v91 (broadcastInDim S2x2000000 ![0, 1] bcast_S1x2000000_S2x2000000_0_1 : (⟨S1x2000000, .f32⟩ : BufTy).Contents (Elt F) → (⟨S2x2000000, .f32⟩ : BufTy).Contents (Elt F)),
    StableHlo.binary main_v91 main_v89 main_v92 (mulf : (⟨S2x2000000, .f32⟩ : BufTy).Contents (Elt F) → (⟨S2x2000000, .f32⟩ : BufTy).Contents (Elt F) → (⟨S2x2000000, .f32⟩ : BufTy).Contents (Elt F)),
    StableHlo.nullary main_c_37 (constantI S_ 32 9#32),
    StableHlo.unary main_c_37 main_v93 (broadcastInDim S2 ![] bcast_S_S2 : (⟨S_, .i32⟩ : BufTy).Contents (Elt F) → (⟨S2, .i32⟩ : BufTy).Contents (Elt F)),
    StableHlo.binary main_c_8 main_v93 main_v94 (addi : (⟨S2, .i32⟩ : BufTy).Contents (Elt F) → (⟨S2, .i32⟩ : BufTy).Contents (Elt F) → (⟨S2, .i32⟩ : BufTy).Contents (Elt F)),
    StableHlo.ternary main_c_9 main_v94 main_c_8 main_v95 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v95 main_v96 (broadcastInDim S2x1 ![0] bcast_S2_S2x1_0 : (⟨S2, .i32⟩ : BufTy).Contents (Elt F) → (⟨S2x1, .i32⟩ : BufTy).Contents (Elt F)),
    StableHlo.binary main_v47 main_v96 main_v97 ((fun x i => Host.gather gather_S9x2000000_S2x1_S2x2000000_1_0_n_n_0_1_12000000 x i) : (⟨S9x2000000, .f32⟩ : BufTy).Contents (Elt F) → (⟨S2x1, .i32⟩ : BufTy).Contents (Elt F) → (⟨S2x2000000, .f32⟩ : BufTy).Contents (Elt F)),
    StableHlo.unary main_v10 main_v98 (broadcastInDim S1x2000000 ![1] bcast_S2000000_S1x2000000_1 : (⟨S2000000, .f32⟩ : BufTy).Contents (Elt F) → (⟨S1x2000000, .f32⟩ : BufTy).Contents (Elt F)),
    StableHlo.unary main_v98 main_v99 (broadcastInDim S2x2000000 ![0, 1] bcast_S1x2000000_S2x2000000_0_1 : (⟨S1x2000000, .f32⟩ : BufTy).Contents (Elt F) → (⟨S2x2000000, .f32⟩ : BufTy).Contents (Elt F)),
    StableHlo.binary main_v99 main_v97 main_v100 (mulf : (⟨S2x2000000, .f32⟩ : BufTy).Contents (Elt F) → (⟨S2x2000000, .f32⟩ : BufTy).Contents (Elt F) → (⟨S2x2000000, .f32⟩ : BufTy).Contents (Elt F)),
    StableHlo.unary main_v84 main_v101 (broadcastInDim S2x2000000 ![0, 1] bcast_S2x1_S2x2000000_0_1 : (⟨S2x1, .f32⟩ : BufTy).Contents (Elt F) → (⟨S2x2000000, .f32⟩ : BufTy).Contents (Elt F)),
    StableHlo.binary main_v101 main_v100 main_v102 (mulf : (⟨S2x2000000, .f32⟩ : BufTy).Contents (Elt F) → (⟨S2x2000000, .f32⟩ : BufTy).Contents (Elt F) → (⟨S2x2000000, .f32⟩ : BufTy).Contents (Elt F)),
    StableHlo.binary main_v92 main_v102 main_v103 (addf : (⟨S2x2000000, .f32⟩ : BufTy).Contents (Elt F) → (⟨S2x2000000, .f32⟩ : BufTy).Contents (Elt F) → (⟨S2x2000000, .f32⟩ : BufTy).Contents (Elt F)),
    StableHlo.unary main_v83 main_v104 (broadcastInDim S2x2000000 ![0, 1] bcast_S2x1_S2x2000000_0_1 : (⟨S2x1, .f32⟩ : BufTy).Contents (Elt F) → (⟨S2x2000000, .f32⟩ : BufTy).Contents (Elt F)),
    StableHlo.binary main_v104 main_v103 main_v105 (mulf : (⟨S2x2000000, .f32⟩ : BufTy).Contents (Elt F) → (⟨S2x2000000, .f32⟩ : BufTy).Contents (Elt F) → (⟨S2x2000000, .f32⟩ : BufTy).Contents (Elt F)),
    StableHlo.nullary main_cst_38 (constant S_ .f32 0x402953FD#32),
    StableHlo.unary main_cst_38 main_v106 (broadcastInDim S2000000 ![] bcast_S_S2000000 : (⟨S_, .f32⟩ : BufTy).Contents (Elt F) → (⟨S2000000, .f32⟩ : BufTy).Contents (Elt F)),
    StableHlo.binary main_v106 main_v5 main_v107 (mulf : (⟨S2000000, .f32⟩ : BufTy).Contents (Elt F) → (⟨S2000000, .f32⟩ : BufTy).Contents (Elt F) → (⟨S2000000, .f32⟩ : BufTy).Contents (Elt F)),
    StableHlo.binary main_v107 main_v49 main_v108 (mulf : (⟨S2000000, .f32⟩ : BufTy).Contents (Elt F) → (⟨S2000000, .f32⟩ : BufTy).Contents (Elt F) → (⟨S2000000, .f32⟩ : BufTy).Contents (Elt F)),
    StableHlo.unary main_v108 main_v109 (broadcastInDim S1x2000000 ![1] bcast_S2000000_S1x2000000_1 : (⟨S2000000, .f32⟩ : BufTy).Contents (Elt F) → (⟨S1x2000000, .f32⟩ : BufTy).Contents (Elt F)),
    StableHlo.binary main_v1 main_v49 main_v110 (mulf : (⟨S2000000, .f32⟩ : BufTy).Contents (Elt F) → (⟨S2000000, .f32⟩ : BufTy).Contents (Elt F) → (⟨S2000000, .f32⟩ : BufTy).Contents (Elt F)),
    StableHlo.binary main_v3 main_v51 main_v111 (mulf : (⟨S2000000, .f32⟩ : BufTy).Contents (Elt F) → (⟨S2000000, .f32⟩ : BufTy).Contents (Elt F) → (⟨S2000000, .f32⟩ : BufTy).Contents (Elt F)),
    StableHlo.binary main_v110 main_v111 main_v112 (subf : (⟨S2000000, .f32⟩ : BufTy).Contents (Elt F) → (⟨S2000000, .f32⟩ : BufTy).Contents (Elt F) → (⟨S2000000, .f32⟩ : BufTy).Contents (Elt F)),
    StableHlo.nullary main_cst_39 (constant S_ .f32 0xBF8A417C#32),
    StableHlo.unary main_cst_39 main_v113 (broadcastInDim S2000000 ![] bcast_S_S2000000 : (⟨S_, .f32⟩ : BufTy).Contents (Elt F) → (⟨S2000000, .f32⟩ : BufTy).Contents (Elt F)),
    StableHlo.binary main_v113 main_v112 main_v114 (mulf : (⟨S2000000, .f32⟩ : BufTy).Contents (Elt F) → (⟨S2000000, .f32⟩ : BufTy).Contents (Elt F) → (⟨S2000000, .f32⟩ : BufTy).Contents (Elt F)),
    StableHlo.unary main_v114 main_v115 (broadcastInDim S1x2000000 ![1] bcast_S2000000_S1x2000000_1 : (⟨S2000000, .f32⟩ : BufTy).Contents (Elt F) → (⟨S1x2000000, .f32⟩ : BufTy).Contents (Elt F)) ]

/-- The buffers the operations of `chunk4` write. -/
abbrev written4 : List (Ref sig .tc) := [main_v82, main_v83, main_v84, main_c_36, main_v85, main_v86, main_v87, main_v88, main_v89, main_v90, main_v91, main_v92, main_c_37, main_v93, main_v94, main_v95, main_v96, main_v97, main_v98, main_v99, main_v100, main_v101, main_v102, main_v103, main_v104, main_v105, main_cst_38, main_v106, main_v107, main_v108, main_v109, main_v110, main_v111, main_v112, main_cst_39, main_v113, main_v114, main_v115]

/-- The operations 159 to 159 of 238, in order (in the printed program's window 2). -/
abbrev chunk5 : List (HloOp τ sig (Elt F)) :=
  [ StableHlo.nary ![main_v47, main_v57, main_v61, main_v82, main_v105, main_v109, main_v115] main_v116 (fun u => concatenate S16x2000000 0 [⟨S9x2000000, u 0⟩, ⟨S1x2000000, u 1⟩, ⟨S1x2000000, u 2⟩, ⟨S1x2000000, u 3⟩, ⟨S2x2000000, u 4⟩, ⟨S1x2000000, u 5⟩, ⟨S1x2000000, u 6⟩] concatenates_S9x2000000_S1x2000000_S1x2000000_S1x2000000_S2x2000000_S1x2000000_S1x2000000_S16x2000000_d0) ]

/-- The buffers the operations of `chunk5` write. -/
abbrev written5 : List (Ref sig .tc) := [main_v116]

/-- The operations 160 to 180 of 238, in order (in the printed program's window 2). -/
abbrev chunk6 : List (HloOp τ sig (Elt F)) :=
  [ StableHlo.unary main_v116 main_v117 ((extractStridedSlice S1x2000000 ![15, 0] · slices_S16x2000000_S1x2000000_15_0) : (⟨S16x2000000, .f32⟩ : BufTy).Contents (Elt F) → (⟨S1x2000000, .f32⟩ : BufTy).Contents (Elt F)),
    StableHlo.reshape main_v117 main_v118 rfl shapeCasts_S1x2000000_S2000000,
    StableHlo.unary main_v116 main_v119 ((extractStridedSlice S1x2000000 ![9, 0] · slices_S16x2000000_S1x2000000_9_0) : (⟨S16x2000000, .f32⟩ : BufTy).Contents (Elt F) → (⟨S1x2000000, .f32⟩ : BufTy).Contents (Elt F)),
    StableHlo.reshape main_v119 main_v120 rfl shapeCasts_S1x2000000_S2000000,
    StableHlo.binary main_v1 main_v120 main_v121 (mulf : (⟨S2000000, .f32⟩ : BufTy).Contents (Elt F) → (⟨S2000000, .f32⟩ : BufTy).Contents (Elt F) → (⟨S2000000, .f32⟩ : BufTy).Contents (Elt F)),
    StableHlo.binary main_v3 main_v118 main_v122 (mulf : (⟨S2000000, .f32⟩ : BufTy).Contents (Elt F) → (⟨S2000000, .f32⟩ : BufTy).Contents (Elt F) → (⟨S2000000, .f32⟩ : BufTy).Contents (Elt F)),
    StableHlo.binary main_v121 main_v122 main_v123 (addf : (⟨S2000000, .f32⟩ : BufTy).Contents (Elt F) → (⟨S2000000, .f32⟩ : BufTy).Contents (Elt F) → (⟨S2000000, .f32⟩ : BufTy).Contents (Elt F)),
    StableHlo.nullary main_cst_40 (constant S_ .f32 0xBF87C3B6#32),
    StableHlo.unary main_cst_40 main_v124 (broadcastInDim S2000000 ![] bcast_S_S2000000 : (⟨S_, .f32⟩ : BufTy).Contents (Elt F) → (⟨S2000000, .f32⟩ : BufTy).Contents (Elt F)),
    StableHlo.binary main_v124 main_v123 main_v125 (mulf : (⟨S2000000, .f32⟩ : BufTy).Contents (Elt F) → (⟨S2000000, .f32⟩ : BufTy).Contents (Elt F) → (⟨S2000000, .f32⟩ : BufTy).Contents (Elt F)),
    StableHlo.unary main_v125 main_v126 (broadcastInDim S1x2000000 ![1] bcast_S2000000_S1x2000000_1 : (⟨S2000000, .f32⟩ : BufTy).Contents (Elt F) → (⟨S1x2000000, .f32⟩ : BufTy).Contents (Elt F)),
    StableHlo.nullary main_cst_41 (constant S_ .f32 0x40400000#32),
    StableHlo.unary main_cst_41 main_v127 (broadcastInDim S2000000 ![] bcast_S_S2000000 : (⟨S_, .f32⟩ : BufTy).Contents (Elt F) → (⟨S2000000, .f32⟩ : BufTy).Contents (Elt F)),
    StableHlo.binary main_v127 main_v5 main_v128 (mulf : (⟨S2000000, .f32⟩ : BufTy).Contents (Elt F) → (⟨S2000000, .f32⟩ : BufTy).Contents (Elt F) → (⟨S2000000, .f32⟩ : BufTy).Contents (Elt F)),
    StableHlo.binary main_v128 main_v120 main_v129 (mulf : (⟨S2000000, .f32⟩ : BufTy).Contents (Elt F) → (⟨S2000000, .f32⟩ : BufTy).Contents (Elt F) → (⟨S2000000, .f32⟩ : BufTy).Contents (Elt F)),
    StableHlo.unary main_v129 main_v130 (broadcastInDim S1x2000000 ![1] bcast_S2000000_S1x2000000_1 : (⟨S2000000, .f32⟩ : BufTy).Contents (Elt F) → (⟨S1x2000000, .f32⟩ : BufTy).Contents (Elt F)),
    StableHlo.unary main_cst_10 main_v131 (broadcastInDim S2x1 ![0] bcast_S2_S2x1_0 : (⟨S2, .f32⟩ : BufTy).Contents (Elt F) → (⟨S2x1, .f32⟩ : BufTy).Contents (Elt F)),
    StableHlo.unary main_cst_11 main_v132 (broadcastInDim S2x1 ![0] bcast_S2_S2x1_0 : (⟨S2, .f32⟩ : BufTy).Contents (Elt F) → (⟨S2x1, .f32⟩ : BufTy).Contents (Elt F)),
    StableHlo.nullary main_c_42 (constantI S_ 32 16#32),
    StableHlo.unary main_c_42 main_v133 (broadcastInDim S2 ![] bcast_S_S2 : (⟨S_, .i32⟩ : BufTy).Contents (Elt F) → (⟨S2, .i32⟩ : BufTy).Contents (Elt F)),
    StableHlo.binary main_c_12 main_v133 main_v134 (addi : (⟨S2, .i32⟩ : BufTy).Contents (Elt F) → (⟨S2, .i32⟩ : BufTy).Contents (Elt F) → (⟨S2, .i32⟩ : BufTy).Contents (Elt F)) ]

/-- The buffers the operations of `chunk6` write. -/
abbrev written6 : List (Ref sig .tc) := [main_v117, main_v118, main_v119, main_v120, main_v121, main_v122, main_v123, main_cst_40, main_v124, main_v125, main_v126, main_cst_41, main_v127, main_v128, main_v129, main_v130, main_v131, main_v132, main_c_42, main_v133, main_v134]

/-- The operations 181 to 237 of 238, in order (in the printed program's window 3). -/
abbrev chunk7 : List (HloOp τ sig (Elt F)) :=
  [ StableHlo.ternary main_c_13 main_v134 main_c_12 main_v135 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v135 main_v136 (broadcastInDim S2x1 ![0] bcast_S2_S2x1_0 : (⟨S2, .i32⟩ : BufTy).Contents (Elt F) → (⟨S2x1, .i32⟩ : BufTy).Contents (Elt F)),
    StableHlo.binary main_v116 main_v136 main_v137 ((fun x i => Host.gather gather_S16x2000000_S2x1_S2x2000000_1_0_n_n_0_1_12000000 x i) : (⟨S16x2000000, .f32⟩ : BufTy).Contents (Elt F) → (⟨S2x1, .i32⟩ : BufTy).Contents (Elt F) → (⟨S2x2000000, .f32⟩ : BufTy).Contents (Elt F)),
    StableHlo.unary main_v5 main_v138 (broadcastInDim S1x2000000 ![1] bcast_S2000000_S1x2000000_1 : (⟨S2000000, .f32⟩ : BufTy).Contents (Elt F) → (⟨S1x2000000, .f32⟩ : BufTy).Contents (Elt F)),
    StableHlo.unary main_v138 main_v139 (broadcastInDim S2x2000000 ![0, 1] bcast_S1x2000000_S2x2000000_0_1 : (⟨S1x2000000, .f32⟩ : BufTy).Contents (Elt F) → (⟨S2x2000000, .f32⟩ : BufTy).Contents (Elt F)),
    StableHlo.binary main_v139 main_v137 main_v140 (mulf : (⟨S2x2000000, .f32⟩ : BufTy).Contents (Elt F) → (⟨S2x2000000, .f32⟩ : BufTy).Contents (Elt F) → (⟨S2x2000000, .f32⟩ : BufTy).Contents (Elt F)),
    StableHlo.nullary main_c_43 (constantI S_ 32 16#32),
    StableHlo.unary main_c_43 main_v141 (broadcastInDim S2 ![] bcast_S_S2 : (⟨S_, .i32⟩ : BufTy).Contents (Elt F) → (⟨S2, .i32⟩ : BufTy).Contents (Elt F)),
    StableHlo.binary main_c_14 main_v141 main_v142 (addi : (⟨S2, .i32⟩ : BufTy).Contents (Elt F) → (⟨S2, .i32⟩ : BufTy).Contents (Elt F) → (⟨S2, .i32⟩ : BufTy).Contents (Elt F)),
    StableHlo.ternary main_c_15 main_v142 main_c_14 main_v143 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v143 main_v144 (broadcastInDim S2x1 ![0] bcast_S2_S2x1_0 : (⟨S2, .i32⟩ : BufTy).Contents (Elt F) → (⟨S2x1, .i32⟩ : BufTy).Contents (Elt F)),
    StableHlo.binary main_v116 main_v144 main_v145 ((fun x i => Host.gather gather_S16x2000000_S2x1_S2x2000000_1_0_n_n_0_1_12000000 x i) : (⟨S16x2000000, .f32⟩ : BufTy).Contents (Elt F) → (⟨S2x1, .i32⟩ : BufTy).Contents (Elt F) → (⟨S2x2000000, .f32⟩ : BufTy).Contents (Elt F)),
    StableHlo.unary main_v10 main_v146 (broadcastInDim S1x2000000 ![1] bcast_S2000000_S1x2000000_1 : (⟨S2000000, .f32⟩ : BufTy).Contents (Elt F) → (⟨S1x2000000, .f32⟩ : BufTy).Contents (Elt F)),
    StableHlo.unary main_v146 main_v147 (broadcastInDim S2x2000000 ![0, 1] bcast_S1x2000000_S2x2000000_0_1 : (⟨S1x2000000, .f32⟩ : BufTy).Contents (Elt F) → (⟨S2x2000000, .f32⟩ : BufTy).Contents (Elt F)),
    StableHlo.binary main_v147 main_v145 main_v148 (mulf : (⟨S2x2000000, .f32⟩ : BufTy).Contents (Elt F) → (⟨S2x2000000, .f32⟩ : BufTy).Contents (Elt F) → (⟨S2x2000000, .f32⟩ : BufTy).Contents (Elt F)),
    StableHlo.unary main_v132 main_v149 (broadcastInDim S2x2000000 ![0, 1] bcast_S2x1_S2x2000000_0_1 : (⟨S2x1, .f32⟩ : BufTy).Contents (Elt F) → (⟨S2x2000000, .f32⟩ : BufTy).Contents (Elt F)),
    StableHlo.binary main_v149 main_v148 main_v150 (mulf : (⟨S2x2000000, .f32⟩ : BufTy).Contents (Elt F) → (⟨S2x2000000, .f32⟩ : BufTy).Contents (Elt F) → (⟨S2x2000000, .f32⟩ : BufTy).Contents (Elt F)),
    StableHlo.binary main_v140 main_v150 main_v151 (addf : (⟨S2x2000000, .f32⟩ : BufTy).Contents (Elt F) → (⟨S2x2000000, .f32⟩ : BufTy).Contents (Elt F) → (⟨S2x2000000, .f32⟩ : BufTy).Contents (Elt F)),
    StableHlo.unary main_v131 main_v152 (broadcastInDim S2x2000000 ![0, 1] bcast_S2x1_S2x2000000_0_1 : (⟨S2x1, .f32⟩ : BufTy).Contents (Elt F) → (⟨S2x2000000, .f32⟩ : BufTy).Contents (Elt F)),
    StableHlo.binary main_v152 main_v151 main_v153 (mulf : (⟨S2x2000000, .f32⟩ : BufTy).Contents (Elt F) → (⟨S2x2000000, .f32⟩ : BufTy).Contents (Elt F) → (⟨S2x2000000, .f32⟩ : BufTy).Contents (Elt F)),
    StableHlo.unary main_cst_16 main_v154 (broadcastInDim S3x1 ![0] bcast_S3_S3x1_0 : (⟨S3, .f32⟩ : BufTy).Contents (Elt F) → (⟨S3x1, .f32⟩ : BufTy).Contents (Elt F)),
    StableHlo.unary main_cst_17 main_v155 (broadcastInDim S3x1 ![0] bcast_S3_S3x1_0 : (⟨S3, .f32⟩ : BufTy).Contents (Elt F) → (⟨S3x1, .f32⟩ : BufTy).Contents (Elt F)),
    StableHlo.nullary main_c_44 (constantI S_ 32 16#32),
    StableHlo.unary main_c_44 main_v156 (broadcastInDim S3 ![] bcast_S_S3 : (⟨S_, .i32⟩ : BufTy).Contents (Elt F) → (⟨S3, .i32⟩ : BufTy).Contents (Elt F)),
    StableHlo.binary main_c_18 main_v156 main_v157 (addi : (⟨S3, .i32⟩ : BufTy).Contents (Elt F) → (⟨S3, .i32⟩ : BufTy).Contents (Elt F) → (⟨S3, .i32⟩ : BufTy).Contents (Elt F)),
    StableHlo.ternary main_c_19 main_v157 main_c_18 main_v158 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v158 main_v159 (broadcastInDim S3x1 ![0] bcast_S3_S3x1_0 : (⟨S3, .i32⟩ : BufTy).Contents (Elt F) → (⟨S3x1, .i32⟩ : BufTy).Contents (Elt F)),
    StableHlo.binary main_v116 main_v159 main_v160 ((fun x i => Host.gather gather_S16x2000000_S3x1_S3x2000000_1_0_n_n_0_1_12000000 x i) : (⟨S16x2000000, .f32⟩ : BufTy).Contents (Elt F) → (⟨S3x1, .i32⟩ : BufTy).Contents (Elt F) → (⟨S3x2000000, .f32⟩ : BufTy).Contents (Elt F)),
    StableHlo.unary main_v5 main_v161 (broadcastInDim S1x2000000 ![1] bcast_S2000000_S1x2000000_1 : (⟨S2000000, .f32⟩ : BufTy).Contents (Elt F) → (⟨S1x2000000, .f32⟩ : BufTy).Contents (Elt F)),
    StableHlo.unary main_v161 main_v162 (broadcastInDim S3x2000000 ![0, 1] bcast_S1x2000000_S3x2000000_0_1 : (⟨S1x2000000, .f32⟩ : BufTy).Contents (Elt F) → (⟨S3x2000000, .f32⟩ : BufTy).Contents (Elt F)),
    StableHlo.binary main_v162 main_v160 main_v163 (mulf : (⟨S3x2000000, .f32⟩ : BufTy).Contents (Elt F) → (⟨S3x2000000, .f32⟩ : BufTy).Contents (Elt F) → (⟨S3x2000000, .f32⟩ : BufTy).Contents (Elt F)),
    StableHlo.nullary main_c_45 (constantI S_ 32 16#32),
    StableHlo.unary main_c_45 main_v164 (broadcastInDim S3 ![] bcast_S_S3 : (⟨S_, .i32⟩ : BufTy).Contents (Elt F) → (⟨S3, .i32⟩ : BufTy).Contents (Elt F)),
    StableHlo.binary main_c_20 main_v164 main_v165 (addi : (⟨S3, .i32⟩ : BufTy).Contents (Elt F) → (⟨S3, .i32⟩ : BufTy).Contents (Elt F) → (⟨S3, .i32⟩ : BufTy).Contents (Elt F)),
    StableHlo.ternary main_c_21 main_v165 main_c_20 main_v166 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v166 main_v167 (broadcastInDim S3x1 ![0] bcast_S3_S3x1_0 : (⟨S3, .i32⟩ : BufTy).Contents (Elt F) → (⟨S3x1, .i32⟩ : BufTy).Contents (Elt F)),
    StableHlo.binary main_v116 main_v167 main_v168 ((fun x i => Host.gather gather_S16x2000000_S3x1_S3x2000000_1_0_n_n_0_1_12000000 x i) : (⟨S16x2000000, .f32⟩ : BufTy).Contents (Elt F) → (⟨S3x1, .i32⟩ : BufTy).Contents (Elt F) → (⟨S3x2000000, .f32⟩ : BufTy).Contents (Elt F)),
    StableHlo.unary main_v10 main_v169 (broadcastInDim S1x2000000 ![1] bcast_S2000000_S1x2000000_1 : (⟨S2000000, .f32⟩ : BufTy).Contents (Elt F) → (⟨S1x2000000, .f32⟩ : BufTy).Contents (Elt F)),
    StableHlo.unary main_v169 main_v170 (broadcastInDim S3x2000000 ![0, 1] bcast_S1x2000000_S3x2000000_0_1 : (⟨S1x2000000, .f32⟩ : BufTy).Contents (Elt F) → (⟨S3x2000000, .f32⟩ : BufTy).Contents (Elt F)),
    StableHlo.binary main_v170 main_v168 main_v171 (mulf : (⟨S3x2000000, .f32⟩ : BufTy).Contents (Elt F) → (⟨S3x2000000, .f32⟩ : BufTy).Contents (Elt F) → (⟨S3x2000000, .f32⟩ : BufTy).Contents (Elt F)),
    StableHlo.unary main_v155 main_v172 (broadcastInDim S3x2000000 ![0, 1] bcast_S3x1_S3x2000000_0_1 : (⟨S3x1, .f32⟩ : BufTy).Contents (Elt F) → (⟨S3x2000000, .f32⟩ : BufTy).Contents (Elt F)),
    StableHlo.binary main_v172 main_v171 main_v173 (mulf : (⟨S3x2000000, .f32⟩ : BufTy).Contents (Elt F) → (⟨S3x2000000, .f32⟩ : BufTy).Contents (Elt F) → (⟨S3x2000000, .f32⟩ : BufTy).Contents (Elt F)),
    StableHlo.binary main_v163 main_v173 main_v174 (addf : (⟨S3x2000000, .f32⟩ : BufTy).Contents (Elt F) → (⟨S3x2000000, .f32⟩ : BufTy).Contents (Elt F) → (⟨S3x2000000, .f32⟩ : BufTy).Contents (Elt F)),
    StableHlo.unary main_v154 main_v175 (broadcastInDim S3x2000000 ![0, 1] bcast_S3x1_S3x2000000_0_1 : (⟨S3x1, .f32⟩ : BufTy).Contents (Elt F) → (⟨S3x2000000, .f32⟩ : BufTy).Contents (Elt F)),
    StableHlo.binary main_v175 main_v174 main_v176 (mulf : (⟨S3x2000000, .f32⟩ : BufTy).Contents (Elt F) → (⟨S3x2000000, .f32⟩ : BufTy).Contents (Elt F) → (⟨S3x2000000, .f32⟩ : BufTy).Contents (Elt F)),
    StableHlo.nullary main_cst_46 (constant S_ .f32 0x40400000#32),
    StableHlo.unary main_cst_46 main_v177 (broadcastInDim S2000000 ![] bcast_S_S2000000 : (⟨S_, .f32⟩ : BufTy).Contents (Elt F) → (⟨S2000000, .f32⟩ : BufTy).Contents (Elt F)),
    StableHlo.binary main_v177 main_v5 main_v178 (mulf : (⟨S2000000, .f32⟩ : BufTy).Contents (Elt F) → (⟨S2000000, .f32⟩ : BufTy).Contents (Elt F) → (⟨S2000000, .f32⟩ : BufTy).Contents (Elt F)),
    StableHlo.binary main_v178 main_v118 main_v179 (mulf : (⟨S2000000, .f32⟩ : BufTy).Contents (Elt F) → (⟨S2000000, .f32⟩ : BufTy).Contents (Elt F) → (⟨S2000000, .f32⟩ : BufTy).Contents (Elt F)),
    StableHlo.unary main_v179 main_v180 (broadcastInDim S1x2000000 ![1] bcast_S2000000_S1x2000000_1 : (⟨S2000000, .f32⟩ : BufTy).Contents (Elt F) → (⟨S1x2000000, .f32⟩ : BufTy).Contents (Elt F)),
    StableHlo.binary main_v1 main_v118 main_v181 (mulf : (⟨S2000000, .f32⟩ : BufTy).Contents (Elt F) → (⟨S2000000, .f32⟩ : BufTy).Contents (Elt F) → (⟨S2000000, .f32⟩ : BufTy).Contents (Elt F)),
    StableHlo.binary main_v3 main_v120 main_v182 (mulf : (⟨S2000000, .f32⟩ : BufTy).Contents (Elt F) → (⟨S2000000, .f32⟩ : BufTy).Contents (Elt F) → (⟨S2000000, .f32⟩ : BufTy).Contents (Elt F)),
    StableHlo.binary main_v181 main_v182 main_v183 (subf : (⟨S2000000, .f32⟩ : BufTy).Contents (Elt F) → (⟨S2000000, .f32⟩ : BufTy).Contents (Elt F) → (⟨S2000000, .f32⟩ : BufTy).Contents (Elt F)),
    StableHlo.nullary main_cst_47 (constant S_ .f32 0xBF87C3B6#32),
    StableHlo.unary main_cst_47 main_v184 (broadcastInDim S2000000 ![] bcast_S_S2000000 : (⟨S_, .f32⟩ : BufTy).Contents (Elt F) → (⟨S2000000, .f32⟩ : BufTy).Contents (Elt F)),
    StableHlo.binary main_v184 main_v183 main_v185 (mulf : (⟨S2000000, .f32⟩ : BufTy).Contents (Elt F) → (⟨S2000000, .f32⟩ : BufTy).Contents (Elt F) → (⟨S2000000, .f32⟩ : BufTy).Contents (Elt F)),
    StableHlo.unary main_v185 main_v186 (broadcastInDim S1x2000000 ![1] bcast_S2000000_S1x2000000_1 : (⟨S2000000, .f32⟩ : BufTy).Contents (Elt F) → (⟨S1x2000000, .f32⟩ : BufTy).Contents (Elt F)) ]

/-- The buffers the operations of `chunk7` write. -/
abbrev written7 : List (Ref sig .tc) := [main_v135, main_v136, main_v137, main_v138, main_v139, main_v140, main_c_43, main_v141, main_v142, main_v143, main_v144, main_v145, main_v146, main_v147, main_v148, main_v149, main_v150, main_v151, main_v152, main_v153, main_v154, main_v155, main_c_44, main_v156, main_v157, main_v158, main_v159, main_v160, main_v161, main_v162, main_v163, main_c_45, main_v164, main_v165, main_v166, main_v167, main_v168, main_v169, main_v170, main_v171, main_v172, main_v173, main_v174, main_v175, main_v176, main_cst_46, main_v177, main_v178, main_v179, main_v180, main_v181, main_v182, main_v183, main_cst_47, main_v184, main_v185, main_v186]

/-- The operations 238 to 238 of 238, in order (in the printed program's window 3). -/
abbrev chunk8 : List (HloOp τ sig (Elt F)) :=
  [ StableHlo.nary ![main_v116, main_v126, main_v130, main_v153, main_v176, main_v180, main_v186] main_v187 (fun u => concatenate S25x2000000 0 [⟨S16x2000000, u 0⟩, ⟨S1x2000000, u 1⟩, ⟨S1x2000000, u 2⟩, ⟨S2x2000000, u 3⟩, ⟨S3x2000000, u 4⟩, ⟨S1x2000000, u 5⟩, ⟨S1x2000000, u 6⟩] concatenates_S16x2000000_S1x2000000_S1x2000000_S2x2000000_S3x2000000_S1x2000000_S1x2000000_S25x2000000_d0) ]

/-- The buffers the operations of `chunk8` write. -/
abbrev written8 : List (Ref sig .tc) := [main_v187]

/-- The operations of the printed program's window 0: chunks 0. -/
abbrev window0 : List (HloOp τ sig (Elt F)) :=
  chunk0

/-- The operations of the printed program's window 1: chunks 1, 2, 3. -/
abbrev window1 : List (HloOp τ sig (Elt F)) :=
  chunk1 ++ (chunk2 ++ (chunk3))

/-- The operations of the printed program's window 2: chunks 4, 5, 6. -/
abbrev window2 : List (HloOp τ sig (Elt F)) :=
  chunk4 ++ (chunk5 ++ (chunk6))

/-- The operations of the printed program's window 3: chunks 7, 8. -/
abbrev window3 : List (HloOp τ sig (Elt F)) :=
  chunk7 ++ (chunk8)

/-- All 238 operations, in order. -/
abbrev all : List (HloOp τ sig (Elt F)) :=
  chunk0 ++ (chunk1 ++ (chunk2 ++ (chunk3 ++ (chunk4 ++ (chunk5 ++ (chunk6 ++ (chunk7 ++ (chunk8))))))))

end Cert.ReferenceIdeal.Ops

end
-- ==== Proof.RefSeq.lean ====
/-
  The reference program as a straight line. Its @main is the run of the list of its 238 host operations: the printed
  program cuts @main into four windows, each window is the run of its own list, and the lists are cut once more so
  that each of the three concatenations stands alone — nine chunks in all. Every operation touches TensorCore buffers
  only, and a chunk writes only its own results, so every other buffer passes through it unchanged.
-/
import proofs.«103363_j66211215835310_1_alg».proof.Proof.RefOps
import Idealize.ShloMosaic.Lib.Pipeline.Frame

noncomputable section

namespace Cert.ReferenceIdeal.Seq

open Cert.ReferenceIdeal Cert.ReferenceIdeal.Gen Cert.ReferenceIdeal.Ops Idealize.ShloMosaic Idealize.ShloMosaic.TcCoe Idealize.SL.Sem Idealize.ShloMosaic.StableHlo

variable {F : FTy → Type} [FloatOps F]

/-- A property of every member of `l₁` and of every member of `l₂` is one of every member of `l₁ ++ l₂`. -/
private theorem forall_append {α : Type} {p : α → Prop} {l₁ l₂ : List α}
    (h₁ : l₁.Forall p) (h₂ : l₂.Forall p) : (l₁ ++ l₂).Forall p :=
  List.forall_iff_forall_mem.mpr fun x h => (List.mem_append.mp h).elim
    (List.forall_iff_forall_mem.mp h₁ x) (List.forall_iff_forall_mem.mp h₂ x)

set_option maxRecDepth 8192 in
/-- Every operation of chunk 0 touches TensorCore buffers only. -/
theorem chunk0_sub : (chunk0 : List (HloOp τ sig (Elt F))).Forall fun op => op.bufs ⊆ tcRefs τ sig := by
  simp only [chunk0, List.Forall, nullary_bufs_sub, unary_bufs_sub, binary_bufs_sub, ternary_bufs_sub, reshape_bufs_sub,
    nary_bufs_sub, and_self]

set_option maxRecDepth 8192 in
/-- Every operation of chunk 0 writes a buffer of `written0`. -/
theorem chunk0_writes : (chunk0 : List (HloOp τ sig (Elt F))).Forall
    fun op => op.writes ⊆ (written0.map (Proc.devRef (τ := τ) .tc)).toFinset := by
  simp only [chunk0, List.Forall, nullary_writes, unary_writes, binary_writes, ternary_writes, reshape_writes, nary_writes,
    Finset.singleton_subset_iff, List.mem_toFinset]
  repeat' apply And.intro
  all_goals exact List.mem_map_of_mem (by decide)

/-- A buffer chunk 0 does not write has, after it, the contents it had before. -/
theorem keep0 (W : Valuation τ sig (Elt F)) (r : Ref sig .tc) (h : r ∉ written0) :
    after chunk0 W (Proc.devRef .tc r) = W (Proc.devRef .tc r) :=
  after_of_writes_sub chunk0 W chunk0_writes h

set_option maxRecDepth 8192 in
/-- Every operation of chunk 1 touches TensorCore buffers only. -/
theorem chunk1_sub : (chunk1 : List (HloOp τ sig (Elt F))).Forall fun op => op.bufs ⊆ tcRefs τ sig := by
  simp only [chunk1, List.Forall, nullary_bufs_sub, unary_bufs_sub, binary_bufs_sub, ternary_bufs_sub, reshape_bufs_sub,
    nary_bufs_sub, and_self]

set_option maxRecDepth 8192 in
/-- Every operation of chunk 1 writes a buffer of `written1`. -/
theorem chunk1_writes : (chunk1 : List (HloOp τ sig (Elt F))).Forall
    fun op => op.writes ⊆ (written1.map (Proc.devRef (τ := τ) .tc)).toFinset := by
  simp only [chunk1, List.Forall, nullary_writes, unary_writes, binary_writes, ternary_writes, reshape_writes, nary_writes,
    Finset.singleton_subset_iff, List.mem_toFinset]
  repeat' apply And.intro
  all_goals exact List.mem_map_of_mem (by decide)

/-- A buffer chunk 1 does not write has, after it, the contents it had before. -/
theorem keep1 (W : Valuation τ sig (Elt F)) (r : Ref sig .tc) (h : r ∉ written1) :
    after chunk1 W (Proc.devRef .tc r) = W (Proc.devRef .tc r) :=
  after_of_writes_sub chunk1 W chunk1_writes h

set_option maxRecDepth 8192 in
/-- Every operation of chunk 2 touches TensorCore buffers only. -/
theorem chunk2_sub : (chunk2 : List (HloOp τ sig (Elt F))).Forall fun op => op.bufs ⊆ tcRefs τ sig := by
  simp only [chunk2, List.Forall, nullary_bufs_sub, unary_bufs_sub, binary_bufs_sub, ternary_bufs_sub, reshape_bufs_sub,
    nary_bufs_sub, and_self]

set_option maxRecDepth 8192 in
/-- Every operation of chunk 2 writes a buffer of `written2`. -/
theorem chunk2_writes : (chunk2 : List (HloOp τ sig (Elt F))).Forall
    fun op => op.writes ⊆ (written2.map (Proc.devRef (τ := τ) .tc)).toFinset := by
  simp only [chunk2, List.Forall, nullary_writes, unary_writes, binary_writes, ternary_writes, reshape_writes, nary_writes,
    Finset.singleton_subset_iff, List.mem_toFinset]
  repeat' apply And.intro
  all_goals exact List.mem_map_of_mem (by decide)

/-- A buffer chunk 2 does not write has, after it, the contents it had before. -/
theorem keep2 (W : Valuation τ sig (Elt F)) (r : Ref sig .tc) (h : r ∉ written2) :
    after chunk2 W (Proc.devRef .tc r) = W (Proc.devRef .tc r) :=
  after_of_writes_sub chunk2 W chunk2_writes h

set_option maxRecDepth 8192 in
/-- Every operation of chunk 3 touches TensorCore buffers only. -/
theorem chunk3_sub : (chunk3 : List (HloOp τ sig (Elt F))).Forall fun op => op.bufs ⊆ tcRefs τ sig := by
  simp only [chunk3, List.Forall, nullary_bufs_sub, unary_bufs_sub, binary_bufs_sub, ternary_bufs_sub, reshape_bufs_sub,
    nary_bufs_sub, and_self]

set_option maxRecDepth 8192 in
/-- Every operation of chunk 3 writes a buffer of `written3`. -/
theorem chunk3_writes : (chunk3 : List (HloOp τ sig (Elt F))).Forall
    fun op => op.writes ⊆ (written3.map (Proc.devRef (τ := τ) .tc)).toFinset := by
  simp only [chunk3, List.Forall, nullary_writes, unary_writes, binary_writes, ternary_writes, reshape_writes, nary_writes,
    Finset.singleton_subset_iff, List.mem_toFinset]
  repeat' apply And.intro
  all_goals exact List.mem_map_of_mem (by decide)

/-- A buffer chunk 3 does not write has, after it, the contents it had before. -/
theorem keep3 (W : Valuation τ sig (Elt F)) (r : Ref sig .tc) (h : r ∉ written3) :
    after chunk3 W (Proc.devRef .tc r) = W (Proc.devRef .tc r) :=
  after_of_writes_sub chunk3 W chunk3_writes h

set_option maxRecDepth 8192 in
/-- Every operation of chunk 4 touches TensorCore buffers only. -/
theorem chunk4_sub : (chunk4 : List (HloOp τ sig (Elt F))).Forall fun op => op.bufs ⊆ tcRefs τ sig := by
  simp only [chunk4, List.Forall, nullary_bufs_sub, unary_bufs_sub, binary_bufs_sub, ternary_bufs_sub, reshape_bufs_sub,
    nary_bufs_sub, and_self]

set_option maxRecDepth 8192 in
/-- Every operation of chunk 4 writes a buffer of `written4`. -/
theorem chunk4_writes : (chunk4 : List (HloOp τ sig (Elt F))).Forall
    fun op => op.writes ⊆ (written4.map (Proc.devRef (τ := τ) .tc)).toFinset := by
  simp only [chunk4, List.Forall, nullary_writes, unary_writes, binary_writes, ternary_writes, reshape_writes, nary_writes,
    Finset.singleton_subset_iff, List.mem_toFinset]
  repeat' apply And.intro
  all_goals exact List.mem_map_of_mem (by decide)

/-- A buffer chunk 4 does not write has, after it, the contents it had before. -/
theorem keep4 (W : Valuation τ sig (Elt F)) (r : Ref sig .tc) (h : r ∉ written4) :
    after chunk4 W (Proc.devRef .tc r) = W (Proc.devRef .tc r) :=
  after_of_writes_sub chunk4 W chunk4_writes h

set_option maxRecDepth 8192 in
/-- Every operation of chunk 5 touches TensorCore buffers only. -/
theorem chunk5_sub : (chunk5 : List (HloOp τ sig (Elt F))).Forall fun op => op.bufs ⊆ tcRefs τ sig := by
  simp only [chunk5, List.Forall, nullary_bufs_sub, unary_bufs_sub, binary_bufs_sub, ternary_bufs_sub, reshape_bufs_sub,
    nary_bufs_sub, and_self]

set_option maxRecDepth 8192 in
/-- Every operation of chunk 5 writes a buffer of `written5`. -/
theorem chunk5_writes : (chunk5 : List (HloOp τ sig (Elt F))).Forall
    fun op => op.writes ⊆ (written5.map (Proc.devRef (τ := τ) .tc)).toFinset := by
  simp only [chunk5, List.Forall, nullary_writes, unary_writes, binary_writes, ternary_writes, reshape_writes, nary_writes,
    Finset.singleton_subset_iff, List.mem_toFinset]
  repeat' apply And.intro
  all_goals exact List.mem_map_of_mem (by decide)

/-- A buffer chunk 5 does not write has, after it, the contents it had before. -/
theorem keep5 (W : Valuation τ sig (Elt F)) (r : Ref sig .tc) (h : r ∉ written5) :
    after chunk5 W (Proc.devRef .tc r) = W (Proc.devRef .tc r) :=
  after_of_writes_sub chunk5 W chunk5_writes h

set_option maxRecDepth 8192 in
/-- Every operation of chunk 6 touches TensorCore buffers only. -/
theorem chunk6_sub : (chunk6 : List (HloOp τ sig (Elt F))).Forall fun op => op.bufs ⊆ tcRefs τ sig := by
  simp only [chunk6, List.Forall, nullary_bufs_sub, unary_bufs_sub, binary_bufs_sub, ternary_bufs_sub, reshape_bufs_sub,
    nary_bufs_sub, and_self]

set_option maxRecDepth 8192 in
/-- Every operation of chunk 6 writes a buffer of `written6`. -/
theorem chunk6_writes : (chunk6 : List (HloOp τ sig (Elt F))).Forall
    fun op => op.writes ⊆ (written6.map (Proc.devRef (τ := τ) .tc)).toFinset := by
  simp only [chunk6, List.Forall, nullary_writes, unary_writes, binary_writes, ternary_writes, reshape_writes, nary_writes,
    Finset.singleton_subset_iff, List.mem_toFinset]
  repeat' apply And.intro
  all_goals exact List.mem_map_of_mem (by decide)

/-- A buffer chunk 6 does not write has, after it, the contents it had before. -/
theorem keep6 (W : Valuation τ sig (Elt F)) (r : Ref sig .tc) (h : r ∉ written6) :
    after chunk6 W (Proc.devRef .tc r) = W (Proc.devRef .tc r) :=
  after_of_writes_sub chunk6 W chunk6_writes h

set_option maxRecDepth 8192 in
/-- Every operation of chunk 7 touches TensorCore buffers only. -/
theorem chunk7_sub : (chunk7 : List (HloOp τ sig (Elt F))).Forall fun op => op.bufs ⊆ tcRefs τ sig := by
  simp only [chunk7, List.Forall, nullary_bufs_sub, unary_bufs_sub, binary_bufs_sub, ternary_bufs_sub, reshape_bufs_sub,
    nary_bufs_sub, and_self]

set_option maxRecDepth 8192 in
/-- Every operation of chunk 7 writes a buffer of `written7`. -/
theorem chunk7_writes : (chunk7 : List (HloOp τ sig (Elt F))).Forall
    fun op => op.writes ⊆ (written7.map (Proc.devRef (τ := τ) .tc)).toFinset := by
  simp only [chunk7, List.Forall, nullary_writes, unary_writes, binary_writes, ternary_writes, reshape_writes, nary_writes,
    Finset.singleton_subset_iff, List.mem_toFinset]
  repeat' apply And.intro
  all_goals exact List.mem_map_of_mem (by decide)

/-- A buffer chunk 7 does not write has, after it, the contents it had before. -/
theorem keep7 (W : Valuation τ sig (Elt F)) (r : Ref sig .tc) (h : r ∉ written7) :
    after chunk7 W (Proc.devRef .tc r) = W (Proc.devRef .tc r) :=
  after_of_writes_sub chunk7 W chunk7_writes h

set_option maxRecDepth 8192 in
/-- Every operation of chunk 8 touches TensorCore buffers only. -/
theorem chunk8_sub : (chunk8 : List (HloOp τ sig (Elt F))).Forall fun op => op.bufs ⊆ tcRefs τ sig := by
  simp only [chunk8, List.Forall, nullary_bufs_sub, unary_bufs_sub, binary_bufs_sub, ternary_bufs_sub, reshape_bufs_sub,
    nary_bufs_sub, and_self]

set_option maxRecDepth 8192 in
/-- Every operation of chunk 8 writes a buffer of `written8`. -/
theorem chunk8_writes : (chunk8 : List (HloOp τ sig (Elt F))).Forall
    fun op => op.writes ⊆ (written8.map (Proc.devRef (τ := τ) .tc)).toFinset := by
  simp only [chunk8, List.Forall, nullary_writes, unary_writes, binary_writes, ternary_writes, reshape_writes, nary_writes,
    Finset.singleton_subset_iff, List.mem_toFinset]
  repeat' apply And.intro
  all_goals exact List.mem_map_of_mem (by decide)

/-- A buffer chunk 8 does not write has, after it, the contents it had before. -/
theorem keep8 (W : Valuation τ sig (Elt F)) (r : Ref sig .tc) (h : r ∉ written8) :
    after chunk8 W (Proc.devRef .tc r) = W (Proc.devRef .tc r) :=
  after_of_writes_sub chunk8 W chunk8_writes h

set_option maxRecDepth 8192 in
/-- Window 0 of the printed program is the run of its operations. -/
theorem main_part0_eq (c : Dev nD) : main_part0 (F := F) c = seq window0 := rfl

set_option maxRecDepth 8192 in
/-- Window 1 of the printed program is the run of its operations. -/
theorem main_part1_eq (c : Dev nD) : main_part1 (F := F) c = seq window1 := rfl

set_option maxRecDepth 8192 in
/-- Window 2 of the printed program is the run of its operations. -/
theorem main_part2_eq (c : Dev nD) : main_part2 (F := F) c = seq window2 := rfl

set_option maxRecDepth 8192 in
/-- Window 3 of the printed program is the run of its operations. -/
theorem main_part3_eq (c : Dev nD) : main_part3 (F := F) c = seq window3 := rfl

/-- @main is the run of all the operations in order: its four windows one after the other, each the run of its chunks. -/
theorem main_eq (c : Dev nD) : main (F := F) c = seq all := by
  have h : main (F := F) c
      = (main_part0 c >>= fun _ => main_part1 c >>= fun _ => main_part2 c >>= fun _ => main_part3 c) := rfl
  rw [h, main_part0_eq, main_part1_eq, main_part2_eq, main_part3_eq]
  simp only [all, window0, window1, window2, window3, seq_append, bind_assoc]

/-- The program scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem all_sub : (all : List (HloOp τ sig (Elt F))).Forall fun op => op.bufs ⊆ tcRefs τ sig :=
  forall_append chunk0_sub (forall_append chunk1_sub (forall_append chunk2_sub (forall_append chunk3_sub
    (forall_append chunk4_sub (forall_append chunk5_sub (forall_append chunk6_sub (forall_append chunk7_sub chunk8_sub)))))))

/-- The contents after all the operations are those after the nine chunks in turn. -/
theorem after_all (V : Valuation τ sig (Elt F)) :
    after all V = after chunk8 (after chunk7 (after chunk6 (after chunk5 (after chunk4 (after chunk3 (after chunk2
      (after chunk1 (after chunk0 V)))))))) := by
  simp only [all, StableHlo.after_append]

end Cert.ReferenceIdeal.Seq

end
-- ==== Proof.RefTerms.lean ====
import proofs.«103363_j66211215835310_1_alg».proof.Proof.Gen.ReferenceIdeal

noncomputable section

namespace Cert.ReferenceIdeal.Terms

open Cert.ReferenceIdeal Cert.ReferenceIdeal.Gen Idealize.ShloMosaic Idealize.ShloMosaic.TcCoe Idealize.SL.Sem

variable {F : FTy → Type} [FloatOps F]

/-- The points' first coordinates (the program's `%1`). -/
def xs (a : (⟨S3x2000000, .f32⟩ : BufTy).Contents (Elt F)) : (⟨S2000000, .f32⟩ : BufTy).Contents (Elt F) :=
  shapeCast S2000000 (extractStridedSlice S1x2000000 ![0, 0] a slices_S3x2000000_S1x2000000_0_0) shapeCasts_S1x2000000_S2000000

/-- The points' second coordinates (the program's `%3`). -/
def ys (a : (⟨S3x2000000, .f32⟩ : BufTy).Contents (Elt F)) : (⟨S2000000, .f32⟩ : BufTy).Contents (Elt F) :=
  shapeCast S2000000 (extractStridedSlice S1x2000000 ![1, 0] a slices_S3x2000000_S1x2000000_1_0) shapeCasts_S1x2000000_S2000000

/-- The points' third coordinates (the program's `%5`). -/
def zs (a : (⟨S3x2000000, .f32⟩ : BufTy).Contents (Elt F)) : (⟨S2000000, .f32⟩ : BufTy).Contents (Elt F) :=
  shapeCast S2000000 (extractStridedSlice S1x2000000 ![2, 0] a slices_S3x2000000_S1x2000000_2_0) shapeCasts_S1x2000000_S2000000

/-- The points' squared lengths (the program's `%10`). -/
def dsqs (a : (⟨S3x2000000, .f32⟩ : BufTy).Contents (Elt F)) : (⟨S2000000, .f32⟩ : BufTy).Contents (Elt F) :=
  (addf : (⟨S2000000, .f32⟩ : BufTy).Contents (Elt F) → (⟨S2000000, .f32⟩ : BufTy).Contents (Elt F) → (⟨S2000000, .f32⟩ : BufTy).Contents (Elt F)) ((addf : (⟨S2000000, .f32⟩ : BufTy).Contents (Elt F) → (⟨S2000000, .f32⟩ : BufTy).Contents (Elt F) → (⟨S2000000, .f32⟩ : BufTy).Contents (Elt F)) ((mulf : (⟨S2000000, .f32⟩ : BufTy).Contents (Elt F) → (⟨S2000000, .f32⟩ : BufTy).Contents (Elt F) → (⟨S2000000, .f32⟩ : BufTy).Contents (Elt F)) (xs a) (xs a)) ((mulf : (⟨S2000000, .f32⟩ : BufTy).Contents (Elt F) → (⟨S2000000, .f32⟩ : BufTy).Contents (Elt F) → (⟨S2000000, .f32⟩ : BufTy).Contents (Elt F)) (ys a) (ys a))) ((mulf : (⟨S2000000, .f32⟩ : BufTy).Contents (Elt F) → (⟨S2000000, .f32⟩ : BufTy).Contents (Elt F) → (⟨S2000000, .f32⟩ : BufTy).Contents (Elt F)) (zs a) (zs a))

/-- Harmonic 0 (the program's `%11`). -/
def row0 (a : (⟨S3x2000000, .f32⟩ : BufTy).Contents (Elt F)) : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (constant S_ .f32 0x3E906EBB#32)

/-- Harmonic 1 (the program's `%13`). -/
def row1 (a : (⟨S3x2000000, .f32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) ((broadcastInDim S2000000 ![] bcast_S_S2000000 : (⟨S_, .f32⟩ : BufTy).Contents (Elt F) → (⟨S2000000, .f32⟩ : BufTy).Contents (Elt F)) (constant S_ .f32 0xBEFA2A1C#32)) (ys a)

/-- Harmonic 2 (the program's `%15`). -/
def row2 (a : (⟨S3x2000000, .f32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) ((broadcastInDim S2000000 ![] bcast_S_S2000000 : (⟨S_, .f32⟩ : BufTy).Contents (Elt F) → (⟨S2000000, .f32⟩ : BufTy).Contents (Elt F)) (constant S_ .f32 0x3EFA2A1C#32)) (zs a)

/-- Harmonic 3 (the program's `%17`). -/
def row3 (a : (⟨S3x2000000, .f32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) ((broadcastInDim S2000000 ![] bcast_S_S2000000 : (⟨S_, .f32⟩ : BufTy).Contents (Elt F) → (⟨S2000000, .f32⟩ : BufTy).Contents (Elt F)) (constant S_ .f32 0xBEFA2A1C#32)) (xs a)

/-- Harmonic 4 (the program's `%20`). -/
def row4 (a : (⟨S3x2000000, .f32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) ((mulf : (⟨S2000000, .f32⟩ : BufTy).Contents (Elt F) → (⟨S2000000, .f32⟩ : BufTy).Contents (Elt F) → (⟨S2000000, .f32⟩ : BufTy).Contents (Elt F)) ((broadcastInDim S2000000 ![] bcast_S_S2000000 : (⟨S_, .f32⟩ : BufTy).Contents (Elt F) → (⟨S2000000, .f32⟩ : BufTy).Contents (Elt F)) (constant S_ .f32 0x3F8BD8A1#32)) (xs a)) (ys a)

/-- Harmonic 5 (the program's `%23`). -/
def row5 (a : (⟨S3x2000000, .f32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) ((mulf : (⟨S2000000, .f32⟩ : BufTy).Contents (Elt F) → (⟨S2000000, .f32⟩ : BufTy).Contents (Elt F) → (⟨S2000000, .f32⟩ : BufTy).Contents (Elt F)) ((broadcastInDim S2000000 ![] bcast_S_S2000000 : (⟨S_, .f32⟩ : BufTy).Contents (Elt F) → (⟨S2000000, .f32⟩ : BufTy).Contents (Elt F)) (constant S_ .f32 0xBF8BD8A1#32)) (ys a)) (zs a)

/-- Harmonic 6 before its coefficient: 3 z z - d (the program's `%27`). -/
def row6core (a : (⟨S3x2000000, .f32⟩ : BufTy).Contents (Elt F)) : (⟨S2000000, .f32⟩ : BufTy).Contents (Elt F) :=
  (subf : (⟨S2000000, .f32⟩ : BufTy).Contents (Elt F) → (⟨S2000000, .f32⟩ : BufTy).Contents (Elt F) → (⟨S2000000, .f32⟩ : BufTy).Contents (Elt F)) ((mulf : (⟨S2000000, .f32⟩ : BufTy).Contents (Elt F) → (⟨S2000000, .f32⟩ : BufTy).Contents (Elt F) → (⟨S2000000, .f32⟩ : BufTy).Contents (Elt F)) ((mulf : (⟨S2000000, .f32⟩ : BufTy).Contents (Elt F) → (⟨S2000000, .f32⟩ : BufTy).Contents (Elt F) → (⟨S2000000, .f32⟩ : BufTy).Contents (Elt F)) ((broadcastInDim S2000000 ![] bcast_S_S2000000 : (⟨S_, .f32⟩ : BufTy).Contents (Elt F) → (⟨S2000000, .f32⟩ : BufTy).Contents (Elt F)) (constant S_ .f32 0x40400000#32)) (zs a)) (zs a)) (dsqs a)

/-- Harmonic 6 (the program's `%29`). -/
def row6 (a : (⟨S3x2000000, .f32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) ((broadcastInDim S2000000 ![] bcast_S_S2000000 : (⟨S_, .f32⟩ : BufTy).Contents (Elt F) → (⟨S2000000, .f32⟩ : BufTy).Contents (Elt F)) (constant S_ .f32 0x3EA17B01#32)) (row6core a)

/-- Harmonic 7 (the program's `%32`). -/
def row7 (a : (⟨S3x2000000, .f32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) ((mulf : (⟨S2000000, .f32⟩ : BufTy).Contents (Elt F) → (⟨S2000000, .f32⟩ : BufTy).Contents (Elt F) → (⟨S2000000, .f32⟩ : BufTy).Contents (Elt F)) ((broadcastInDim S2000000 ![] bcast_S_S2000000 : (⟨S_, .f32⟩ : BufTy).Contents (Elt F) → (⟨S2000000, .f32⟩ : BufTy).Contents (Elt F)) (constant S_ .f32 0xBF8BD8A1#32)) (xs a)) (zs a)

/-- Harmonic 8 (the program's `%37`). -/
def row8 (a : (⟨S3x2000000, .f32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) ((broadcastInDim S2000000 ![] bcast_S_S2000000 : (⟨S_, .f32⟩ : BufTy).Contents (Elt F) → (⟨S2000000, .f32⟩ : BufTy).Contents (Elt F)) (constant S_ .f32 0x3F0BD8A1#32)) ((subf : (⟨S2000000, .f32⟩ : BufTy).Contents (Elt F) → (⟨S2000000, .f32⟩ : BufTy).Contents (Elt F) → (⟨S2000000, .f32⟩ : BufTy).Contents (Elt F)) ((mulf : (⟨S2000000, .f32⟩ : BufTy).Contents (Elt F) → (⟨S2000000, .f32⟩ : BufTy).Contents (Elt F) → (⟨S2000000, .f32⟩ : BufTy).Contents (Elt F)) (xs a) (xs a)) ((mulf : (⟨S2000000, .f32⟩ : BufTy).Contents (Elt F) → (⟨S2000000, .f32⟩ : BufTy).Contents (Elt F) → (⟨S2000000, .f32⟩ : BufTy).Contents (Elt F)) (ys a) (ys a)))

/-- Harmonics 0 to 8, one a row (the program's `%47`). -/
def deg2 (a : (⟨S3x2000000, .f32⟩ : BufTy).Contents (Elt F)) : (⟨S9x2000000, .f32⟩ : BufTy).Contents (Elt F) :=
  concatenate S9x2000000 0 [⟨S1x2000000, ((broadcastInDim S1x2000000 ![1] bcast_S2000000_S1x2000000_1 : (⟨S2000000, .f32⟩ : BufTy).Contents (Elt F) → (⟨S1x2000000, .f32⟩ : BufTy).Contents (Elt F)) (row0 a))⟩, ⟨S1x2000000, ((broadcastInDim S1x2000000 ![1] bcast_S2000000_S1x2000000_1 : (⟨S2000000, .f32⟩ : BufTy).Contents (Elt F) → (⟨S1x2000000, .f32⟩ : BufTy).Contents (Elt F)) (row1 a))⟩, ⟨S1x2000000, ((broadcastInDim S1x2000000 ![1] bcast_S2000000_S1x2000000_1 : (⟨S2000000, .f32⟩ : BufTy).Contents (Elt F) → (⟨S1x2000000, .f32⟩ : BufTy).Contents (Elt F)) (row2 a))⟩, ⟨S1x2000000, ((broadcastInDim S1x2000000 ![1] bcast_S2000000_S1x2000000_1 : (⟨S2000000, .f32⟩ : BufTy).Contents (Elt F) → (⟨S1x2000000, .f32⟩ : BufTy).Contents (Elt F)) (row3 a))⟩, ⟨S1x2000000, ((broadcastInDim S1x2000000 ![1] bcast_S2000000_S1x2000000_1 : (⟨S2000000, .f32⟩ : BufTy).Contents (Elt F) → (⟨S1x2000000, .f32⟩ : BufTy).Contents (Elt F)) (row4 a))⟩, ⟨S1x2000000, ((broadcastInDim S1x2000000 ![1] bcast_S2000000_S1x2000000_1 : (⟨S2000000, .f32⟩ : BufTy).Contents (Elt F) → (⟨S1x2000000, .f32⟩ : BufTy).Contents (Elt F)) (row5 a))⟩, ⟨S1x2000000, ((broadcastInDim S1x2000000 ![1] bcast_S2000000_S1x2000000_1 : (⟨S2000000, .f32⟩ : BufTy).Contents (Elt F) → (⟨S1x2000000, .f32⟩ : BufTy).Contents (Elt F)) (row6 a))⟩, ⟨S1x2000000, ((broadcastInDim S1x2000000 ![1] bcast_S2000000_S1x2000000_1 : (⟨S2000000, .f32⟩ : BufTy).Contents (Elt F) → (⟨S1x2000000, .f32⟩ : BufTy).Contents (Elt F)) (row7 a))⟩, ⟨S1x2000000, ((broadcastInDim S1x2000000 ![1] bcast_S2000000_S1x2000000_1 : (⟨S2000000, .f32⟩ : BufTy).Contents (Elt F) → (⟨S1x2000000, .f32⟩ : BufTy).Contents (Elt F)) (row8 a))⟩] concatenates_S1x2000000_S1x2000000_S1x2000000_S1x2000000_S1x2000000_S1x2000000_S1x2000000_S1x2000000_S1x2000000_S9x2000000_d0

/-- Row 8 of deg2: the degree-2 harmonic of highest order (the program's `%49`). -/
def top2 (a : (⟨S3x2000000, .f32⟩ : BufTy).Contents (Elt F)) : (⟨S2000000, .f32⟩ : BufTy).Contents (Elt F) :=
  shapeCast S2000000 (extractStridedSlice S1x2000000 ![8, 0] (deg2 a) slices_S9x2000000_S1x2000000_8_0) shapeCasts_S1x2000000_S2000000

/-- Row 4 of deg2: the degree-2 harmonic of lowest order (the program's `%51`). -/
def bot2 (a : (⟨S3x2000000, .f32⟩ : BufTy).Contents (Elt F)) : (⟨S2000000, .f32⟩ : BufTy).Contents (Elt F) :=
  shapeCast S2000000 (extractStridedSlice S1x2000000 ![4, 0] (deg2 a) slices_S9x2000000_S1x2000000_4_0) shapeCasts_S1x2000000_S2000000

/-- Harmonic 9, as one row (the program's `%57`). -/
def piece9 (a : (⟨S3x2000000, .f32⟩ : BufTy).Contents (Elt F)) : (⟨S1x2000000, .f32⟩ : BufTy).Contents (Elt F) :=
  (broadcastInDim S1x2000000 ![1] bcast_S2000000_S1x2000000_1 : (⟨S2000000, .f32⟩ : BufTy).Contents (Elt F) → (⟨S1x2000000, .f32⟩ : BufTy).Contents (Elt F)) ((mulf : (⟨S2000000, .f32⟩ : BufTy).Contents (Elt F) → (⟨S2000000, .f32⟩ : BufTy).Contents (Elt F) → (⟨S2000000, .f32⟩ : BufTy).Contents (Elt F)) ((broadcastInDim S2000000 ![] bcast_S_S2000000 : (⟨S_, .f32⟩ : BufTy).Contents (Elt F) → (⟨S2000000, .f32⟩ : BufTy).Contents (Elt F)) (constant S_ .f32 0xBF8A417C#32)) ((addf : (⟨S2000000, .f32⟩ : BufTy).Contents (Elt F) → (⟨S2000000, .f32⟩ : BufTy).Contents (Elt F) → (⟨S2000000, .f32⟩ : BufTy).Contents (Elt F)) ((mulf : (⟨S2000000, .f32⟩ : BufTy).Contents (Elt F) → (⟨S2000000, .f32⟩ : BufTy).Contents (Elt F) → (⟨S2000000, .f32⟩ : BufTy).Contents (Elt F)) (xs a) (bot2 a)) ((mulf : (⟨S2000000, .f32⟩ : BufTy).Contents (Elt F) → (⟨S2000000, .f32⟩ : BufTy).Contents (Elt F) → (⟨S2000000, .f32⟩ : BufTy).Contents (Elt F)) (ys a) (top2 a))))

/-- Harmonic 10, as one row (the program's `%61`). -/
def piece10 (a : (⟨S3x2000000, .f32⟩ : BufTy).Contents (Elt F)) : (⟨S1x2000000, .f32⟩ : BufTy).Contents (Elt F) :=
  (broadcastInDim S1x2000000 ![1] bcast_S2000000_S1x2000000_1 : (⟨S2000000, .f32⟩ : BufTy).Contents (Elt F) → (⟨S1x2000000, .f32⟩ : BufTy).Contents (Elt F)) ((mulf : (⟨S2000000, .f32⟩ : BufTy).Contents (Elt F) → (⟨S2000000, .f32⟩ : BufTy).Contents (Elt F) → (⟨S2000000, .f32⟩ : BufTy).Contents (Elt F)) ((mulf : (⟨S2000000, .f32⟩ : BufTy).Contents (Elt F) → (⟨S2000000, .f32⟩ : BufTy).Contents (Elt F) → (⟨S2000000, .f32⟩ : BufTy).Contents (Elt F)) ((broadcastInDim S2000000 ![] bcast_S_S2000000 : (⟨S_, .f32⟩ : BufTy).Contents (Elt F) → (⟨S2000000, .f32⟩ : BufTy).Contents (Elt F)) (constant S_ .f32 0x402953FD#32)) (zs a)) (bot2 a))

/-- Harmonic 11 before its outer coefficient (the program's `%80`). -/
def core11 (a : (⟨S3x2000000, .f32⟩ : BufTy).Contents (Elt F)) : (⟨S1x2000000, .f32⟩ : BufTy).Contents (Elt F) :=
  (addf : (⟨S1x2000000, .f32⟩ : BufTy).Contents (Elt F) → (⟨S1x2000000, .f32⟩ : BufTy).Contents (Elt F) → (⟨S1x2000000, .f32⟩ : BufTy).Contents (Elt F)) ((mulf : (⟨S1x2000000, .f32⟩ : BufTy).Contents (Elt F) → (⟨S1x2000000, .f32⟩ : BufTy).Contents (Elt F) → (⟨S1x2000000, .f32⟩ : BufTy).Contents (Elt F)) ((broadcastInDim S1x2000000 ![1] bcast_S2000000_S1x2000000_1 : (⟨S2000000, .f32⟩ : BufTy).Contents (Elt F) → (⟨S1x2000000, .f32⟩ : BufTy).Contents (Elt F)) (zs a)) (Host.gather gather_S9x2000000_S1x1_S1x2000000_1_0_n_n_0_1_12000000 (deg2 a) ((broadcastInDim S1x1 ![0] bcast_S1_S1x1_0 : (⟨S1, .i32⟩ : BufTy).Contents (Elt F) → (⟨S1x1, .i32⟩ : BufTy).Contents (Elt F)) ((select : (⟨S1, .i1⟩ : BufTy).Contents (Elt F) → (⟨S1, .i32⟩ : BufTy).Contents (Elt F) → (⟨S1, .i32⟩ : BufTy).Contents (Elt F) → (⟨S1, .i32⟩ : BufTy).Contents (Elt F)) (constantI S1 1 0#1) ((addi : (⟨S1, .i32⟩ : BufTy).Contents (Elt F) → (⟨S1, .i32⟩ : BufTy).Contents (Elt F) → (⟨S1, .i32⟩ : BufTy).Contents (Elt F)) (constantI S1 32 5#32) ((broadcastInDim S1 ![] bcast_S_S1 : (⟨S_, .i32⟩ : BufTy).Contents (Elt F) → (⟨S1, .i32⟩ : BufTy).Contents (Elt F)) (constantI S_ 32 9#32))) (constantI S1 32 5#32))))) ((mulf : (⟨S1x2000000, .f32⟩ : BufTy).Contents (Elt F) → (⟨S1x2000000, .f32⟩ : BufTy).Contents (Elt F) → (⟨S1x2000000, .f32⟩ : BufTy).Contents (Elt F)) ((broadcastInDim S1x2000000 ![0, 1] bcast_S1x1_S1x2000000_0_1 : (⟨S1x1, .f32⟩ : BufTy).Contents (Elt F) → (⟨S1x2000000, .f32⟩ : BufTy).Contents (Elt F)) ((broadcastInDim S1x1 ![0] bcast_S1_S1x1_0 : (⟨S1, .f32⟩ : BufTy).Contents (Elt F) → (⟨S1x1, .f32⟩ : BufTy).Contents (Elt F)) (constant S1 .f32 0xBEE4F92E#32))) ((mulf : (⟨S1x2000000, .f32⟩ : BufTy).Contents (Elt F) → (⟨S1x2000000, .f32⟩ : BufTy).Contents (Elt F) → (⟨S1x2000000, .f32⟩ : BufTy).Contents (Elt F)) ((broadcastInDim S1x2000000 ![1] bcast_S2000000_S1x2000000_1 : (⟨S2000000, .f32⟩ : BufTy).Contents (Elt F) → (⟨S1x2000000, .f32⟩ : BufTy).Contents (Elt F)) (dsqs a)) (Host.gather gather_S9x2000000_S1x1_S1x2000000_1_0_n_n_0_1_12000000 (deg2 a) ((broadcastInDim S1x1 ![0] bcast_S1_S1x1_0 : (⟨S1, .i32⟩ : BufTy).Contents (Elt F) → (⟨S1x1, .i32⟩ : BufTy).Contents (Elt F)) ((select : (⟨S1, .i1⟩ : BufTy).Contents (Elt F) → (⟨S1, .i32⟩ : BufTy).Contents (Elt F) → (⟨S1, .i32⟩ : BufTy).Contents (Elt F) → (⟨S1, .i32⟩ : BufTy).Contents (Elt F)) (constantI S1 1 0#1) ((addi : (⟨S1, .i32⟩ : BufTy).Contents (Elt F) → (⟨S1, .i32⟩ : BufTy).Contents (Elt F) → (⟨S1, .i32⟩ : BufTy).Contents (Elt F)) (constantI S1 32 1#32) ((broadcastInDim S1 ![] bcast_S_S1 : (⟨S_, .i32⟩ : BufTy).Contents (Elt F) → (⟨S1, .i32⟩ : BufTy).Contents (Elt F)) (constantI S_ 32 9#32))) (constantI S1 32 1#32))))))

/-- Harmonic 11's outer coefficient along the row (the program's `%81`). -/
def coef11 (a : (⟨S3x2000000, .f32⟩ : BufTy).Contents (Elt F)) : (⟨S1x2000000, .f32⟩ : BufTy).Contents (Elt F) :=
  (broadcastInDim S1x2000000 ![0, 1] bcast_S1x1_S1x2000000_0_1 : (⟨S1x1, .f32⟩ : BufTy).Contents (Elt F) → (⟨S1x2000000, .f32⟩ : BufTy).Contents (Elt F)) ((broadcastInDim S1x1 ![0] bcast_S1_S1x1_0 : (⟨S1, .f32⟩ : BufTy).Contents (Elt F) → (⟨S1x1, .f32⟩ : BufTy).Contents (Elt F)) (constant S1 .f32 0x4005DD98#32))

/-- Harmonic 11, as one row (the program's `%82`). -/
def piece11 (a : (⟨S3x2000000, .f32⟩ : BufTy).Contents (Elt F)) : (⟨S1x2000000, .f32⟩ : BufTy).Contents (Elt F) :=
  (mulf : (⟨S1x2000000, .f32⟩ : BufTy).Contents (Elt F) → (⟨S1x2000000, .f32⟩ : BufTy).Contents (Elt F) → (⟨S1x2000000, .f32⟩ : BufTy).Contents (Elt F)) (coef11 a) (core11 a)

/-- Harmonics 12 and 13, two rows (the program's `%105`). -/
def piece12 (a : (⟨S3x2000000, .f32⟩ : BufTy).Contents (Elt F)) : (⟨S2x2000000, .f32⟩ : BufTy).Contents (Elt F) :=
  (mulf : (⟨S2x2000000, .f32⟩ : BufTy).Contents (Elt F) → (⟨S2x2000000, .f32⟩ : BufTy).Contents (Elt F) → (⟨S2x2000000, .f32⟩ : BufTy).Contents (Elt F)) ((broadcastInDim S2x2000000 ![0, 1] bcast_S2x1_S2x2000000_0_1 : (⟨S2x1, .f32⟩ : BufTy).Contents (Elt F) → (⟨S2x2000000, .f32⟩ : BufTy).Contents (Elt F)) ((broadcastInDim S2x1 ![0] bcast_S2_S2x1_0 : (⟨S2, .f32⟩ : BufTy).Contents (Elt F) → (⟨S2x1, .f32⟩ : BufTy).Contents (Elt F)) (fun i => FloatOps.ofBits .f32 (lit0 (S2.rowMajor i))))) ((addf : (⟨S2x2000000, .f32⟩ : BufTy).Contents (Elt F) → (⟨S2x2000000, .f32⟩ : BufTy).Contents (Elt F) → (⟨S2x2000000, .f32⟩ : BufTy).Contents (Elt F)) ((mulf : (⟨S2x2000000, .f32⟩ : BufTy).Contents (Elt F) → (⟨S2x2000000, .f32⟩ : BufTy).Contents (Elt F) → (⟨S2x2000000, .f32⟩ : BufTy).Contents (Elt F)) ((broadcastInDim S2x2000000 ![0, 1] bcast_S1x2000000_S2x2000000_0_1 : (⟨S1x2000000, .f32⟩ : BufTy).Contents (Elt F) → (⟨S2x2000000, .f32⟩ : BufTy).Contents (Elt F)) ((broadcastInDim S1x2000000 ![1] bcast_S2000000_S1x2000000_1 : (⟨S2000000, .f32⟩ : BufTy).Contents (Elt F) → (⟨S1x2000000, .f32⟩ : BufTy).Contents (Elt F)) (zs a))) (Host.gather gather_S9x2000000_S2x1_S2x2000000_1_0_n_n_0_1_12000000 (deg2 a) ((broadcastInDim S2x1 ![0] bcast_S2_S2x1_0 : (⟨S2, .i32⟩ : BufTy).Contents (Elt F) → (⟨S2x1, .i32⟩ : BufTy).Contents (Elt F)) ((select : (⟨S2, .i1⟩ : BufTy).Contents (Elt F) → (⟨S2, .i32⟩ : BufTy).Contents (Elt F) → (⟨S2, .i32⟩ : BufTy).Contents (Elt F) → (⟨S2, .i32⟩ : BufTy).Contents (Elt F)) (constantI S2 1 0#1) ((addi : (⟨S2, .i32⟩ : BufTy).Contents (Elt F) → (⟨S2, .i32⟩ : BufTy).Contents (Elt F) → (⟨S2, .i32⟩ : BufTy).Contents (Elt F)) (fun i => lit2 (S2.rowMajor i)) ((broadcastInDim S2 ![] bcast_S_S2 : (⟨S_, .i32⟩ : BufTy).Contents (Elt F) → (⟨S2, .i32⟩ : BufTy).Contents (Elt F)) (constantI S_ 32 9#32))) (fun i => lit2 (S2.rowMajor i)))))) ((mulf : (⟨S2x2000000, .f32⟩ : BufTy).Contents (Elt F) → (⟨S2x2000000, .f32⟩ : BufTy).Contents (Elt F) → (⟨S2x2000000, .f32⟩ : BufTy).Contents (Elt F)) ((broadcastInDim S2x2000000 ![0, 1] bcast_S2x1_S2x2000000_0_1 : (⟨S2x1, .f32⟩ : BufTy).Contents (Elt F) → (⟨S2x2000000, .f32⟩ : BufTy).Contents (Elt F)) ((broadcastInDim S2x1 ![0] bcast_S2_S2x1_0 : (⟨S2, .f32⟩ : BufTy).Contents (Elt F) → (⟨S2x1, .f32⟩ : BufTy).Contents (Elt F)) (fun i => FloatOps.ofBits .f32 (lit1 (S2.rowMajor i))))) ((mulf : (⟨S2x2000000, .f32⟩ : BufTy).Contents (Elt F) → (⟨S2x2000000, .f32⟩ : BufTy).Contents (Elt F) → (⟨S2x2000000, .f32⟩ : BufTy).Contents (Elt F)) ((broadcastInDim S2x2000000 ![0, 1] bcast_S1x2000000_S2x2000000_0_1 : (⟨S1x2000000, .f32⟩ : BufTy).Contents (Elt F) → (⟨S2x2000000, .f32⟩ : BufTy).Contents (Elt F)) ((broadcastInDim S1x2000000 ![1] bcast_S2000000_S1x2000000_1 : (⟨S2000000, .f32⟩ : BufTy).Contents (Elt F) → (⟨S1x2000000, .f32⟩ : BufTy).Contents (Elt F)) (dsqs a))) (Host.gather gather_S9x2000000_S2x1_S2x2000000_1_0_n_n_0_1_12000000 (deg2 a) ((broadcastInDim S2x1 ![0] bcast_S2_S2x1_0 : (⟨S2, .i32⟩ : BufTy).Contents (Elt F) → (⟨S2x1, .i32⟩ : BufTy).Contents (Elt F)) ((select : (⟨S2, .i1⟩ : BufTy).Contents (Elt F) → (⟨S2, .i32⟩ : BufTy).Contents (Elt F) → (⟨S2, .i32⟩ : BufTy).Contents (Elt F) → (⟨S2, .i32⟩ : BufTy).Contents (Elt F)) (constantI S2 1 0#1) ((addi : (⟨S2, .i32⟩ : BufTy).Contents (Elt F) → (⟨S2, .i32⟩ : BufTy).Contents (Elt F) → (⟨S2, .i32⟩ : BufTy).Contents (Elt F)) (fun i => lit3 (S2.rowMajor i)) ((broadcastInDim S2 ![] bcast_S_S2 : (⟨S_, .i32⟩ : BufTy).Contents (Elt F) → (⟨S2, .i32⟩ : BufTy).Contents (Elt F)) (constantI S_ 32 9#32))) (fun i => lit3 (S2.rowMajor i))))))))

/-- Harmonic 14, as one row (the program's `%109`). -/
def piece14 (a : (⟨S3x2000000, .f32⟩ : BufTy).Contents (Elt F)) : (⟨S1x2000000, .f32⟩ : BufTy).Contents (Elt F) :=
  (broadcastInDim S1x2000000 ![1] bcast_S2000000_S1x2000000_1 : (⟨S2000000, .f32⟩ : BufTy).Contents (Elt F) → (⟨S1x2000000, .f32⟩ : BufTy).Contents (Elt F)) ((mulf : (⟨S2000000, .f32⟩ : BufTy).Contents (Elt F) → (⟨S2000000, .f32⟩ : BufTy).Contents (Elt F) → (⟨S2000000, .f32⟩ : BufTy).Contents (Elt F)) ((mulf : (⟨S2000000, .f32⟩ : BufTy).Contents (Elt F) → (⟨S2000000, .f32⟩ : BufTy).Contents (Elt F) → (⟨S2000000, .f32⟩ : BufTy).Contents (Elt F)) ((broadcastInDim S2000000 ![] bcast_S_S2000000 : (⟨S_, .f32⟩ : BufTy).Contents (Elt F) → (⟨S2000000, .f32⟩ : BufTy).Contents (Elt F)) (constant S_ .f32 0x402953FD#32)) (zs a)) (top2 a))

/-- Harmonic 15, as one row (the program's `%115`). -/
def piece15 (a : (⟨S3x2000000, .f32⟩ : BufTy).Contents (Elt F)) : (⟨S1x2000000, .f32⟩ : BufTy).Contents (Elt F) :=
  (broadcastInDim S1x2000000 ![1] bcast_S2000000_S1x2000000_1 : (⟨S2000000, .f32⟩ : BufTy).Contents (Elt F) → (⟨S1x2000000, .f32⟩ : BufTy).Contents (Elt F)) ((mulf : (⟨S2000000, .f32⟩ : BufTy).Contents (Elt F) → (⟨S2000000, .f32⟩ : BufTy).Contents (Elt F) → (⟨S2000000, .f32⟩ : BufTy).Contents (Elt F)) ((broadcastInDim S2000000 ![] bcast_S_S2000000 : (⟨S_, .f32⟩ : BufTy).Contents (Elt F) → (⟨S2000000, .f32⟩ : BufTy).Contents (Elt F)) (constant S_ .f32 0xBF8A417C#32)) ((subf : (⟨S2000000, .f32⟩ : BufTy).Contents (Elt F) → (⟨S2000000, .f32⟩ : BufTy).Contents (Elt F) → (⟨S2000000, .f32⟩ : BufTy).Contents (Elt F)) ((mulf : (⟨S2000000, .f32⟩ : BufTy).Contents (Elt F) → (⟨S2000000, .f32⟩ : BufTy).Contents (Elt F) → (⟨S2000000, .f32⟩ : BufTy).Contents (Elt F)) (xs a) (top2 a)) ((mulf : (⟨S2000000, .f32⟩ : BufTy).Contents (Elt F) → (⟨S2000000, .f32⟩ : BufTy).Contents (Elt F) → (⟨S2000000, .f32⟩ : BufTy).Contents (Elt F)) (ys a) (bot2 a))))

/-- Harmonics 0 to 15, one a row (the program's `%116`). -/
def deg3 (a : (⟨S3x2000000, .f32⟩ : BufTy).Contents (Elt F)) : (⟨S16x2000000, .f32⟩ : BufTy).Contents (Elt F) :=
  concatenate S16x2000000 0 [⟨S9x2000000, (deg2 a)⟩, ⟨S1x2000000, (piece9 a)⟩, ⟨S1x2000000, (piece10 a)⟩, ⟨S1x2000000, (piece11 a)⟩, ⟨S2x2000000, (piece12 a)⟩, ⟨S1x2000000, (piece14 a)⟩, ⟨S1x2000000, (piece15 a)⟩] concatenates_S9x2000000_S1x2000000_S1x2000000_S1x2000000_S2x2000000_S1x2000000_S1x2000000_S16x2000000_d0

/-- Row 15 of deg3: the degree-3 harmonic of highest order (the program's `%118`). -/
def top3 (a : (⟨S3x2000000, .f32⟩ : BufTy).Contents (Elt F)) : (⟨S2000000, .f32⟩ : BufTy).Contents (Elt F) :=
  shapeCast S2000000 (extractStridedSlice S1x2000000 ![15, 0] (deg3 a) slices_S16x2000000_S1x2000000_15_0) shapeCasts_S1x2000000_S2000000

/-- Row 9 of deg3: the degree-3 harmonic of lowest order (the program's `%120`). -/
def bot3 (a : (⟨S3x2000000, .f32⟩ : BufTy).Contents (Elt F)) : (⟨S2000000, .f32⟩ : BufTy).Contents (Elt F) :=
  shapeCast S2000000 (extractStridedSlice S1x2000000 ![9, 0] (deg3 a) slices_S16x2000000_S1x2000000_9_0) shapeCasts_S1x2000000_S2000000

/-- Harmonic 16, as one row (the program's `%126`). -/
def piece16 (a : (⟨S3x2000000, .f32⟩ : BufTy).Contents (Elt F)) : (⟨S1x2000000, .f32⟩ : BufTy).Contents (Elt F) :=
  (broadcastInDim S1x2000000 ![1] bcast_S2000000_S1x2000000_1 : (⟨S2000000, .f32⟩ : BufTy).Contents (Elt F) → (⟨S1x2000000, .f32⟩ : BufTy).Contents (Elt F)) ((mulf : (⟨S2000000, .f32⟩ : BufTy).Contents (Elt F) → (⟨S2000000, .f32⟩ : BufTy).Contents (Elt F) → (⟨S2000000, .f32⟩ : BufTy).Contents (Elt F)) ((broadcastInDim S2000000 ![] bcast_S_S2000000 : (⟨S_, .f32⟩ : BufTy).Contents (Elt F) → (⟨S2000000, .f32⟩ : BufTy).Contents (Elt F)) (constant S_ .f32 0xBF87C3B6#32)) ((addf : (⟨S2000000, .f32⟩ : BufTy).Contents (Elt F) → (⟨S2000000, .f32⟩ : BufTy).Contents (Elt F) → (⟨S2000000, .f32⟩ : BufTy).Contents (Elt F)) ((mulf : (⟨S2000000, .f32⟩ : BufTy).Contents (Elt F) → (⟨S2000000, .f32⟩ : BufTy).Contents (Elt F) → (⟨S2000000, .f32⟩ : BufTy).Contents (Elt F)) (xs a) (bot3 a)) ((mulf : (⟨S2000000, .f32⟩ : BufTy).Contents (Elt F) → (⟨S2000000, .f32⟩ : BufTy).Contents (Elt F) → (⟨S2000000, .f32⟩ : BufTy).Contents (Elt F)) (ys a) (top3 a))))

/-- Harmonic 17, as one row (the program's `%130`). -/
def piece17 (a : (⟨S3x2000000, .f32⟩ : BufTy).Contents (Elt F)) : (⟨S1x2000000, .f32⟩ : BufTy).Contents (Elt F) :=
  (broadcastInDim S1x2000000 ![1] bcast_S2000000_S1x2000000_1 : (⟨S2000000, .f32⟩ : BufTy).Contents (Elt F) → (⟨S1x2000000, .f32⟩ : BufTy).Contents (Elt F)) ((mulf : (⟨S2000000, .f32⟩ : BufTy).Contents (Elt F) → (⟨S2000000, .f32⟩ : BufTy).Contents (Elt F) → (⟨S2000000, .f32⟩ : BufTy).Contents (Elt F)) ((mulf : (⟨S2000000, .f32⟩ : BufTy).Contents (Elt F) → (⟨S2000000, .f32⟩ : BufTy).Contents (Elt F) → (⟨S2000000, .f32⟩ : BufTy).Contents (Elt F)) ((broadcastInDim S2000000 ![] bcast_S_S2000000 : (⟨S_, .f32⟩ : BufTy).Contents (Elt F) → (⟨S2000000, .f32⟩ : BufTy).Contents (Elt F)) (constant S_ .f32 0x40400000#32)) (zs a)) (bot3 a))

/-- The outer coefficients of harmonics 18 and 19, a column (the program's `%131`). -/
def outer18 (a : (⟨S3x2000000, .f32⟩ : BufTy).Contents (Elt F)) : (⟨S2x1, .f32⟩ : BufTy).Contents (Elt F) :=
  (broadcastInDim S2x1 ![0] bcast_S2_S2x1_0 : (⟨S2, .f32⟩ : BufTy).Contents (Elt F) → (⟨S2x1, .f32⟩ : BufTy).Contents (Elt F)) (fun i => FloatOps.ofBits .f32 (lit4 (S2.rowMajor i)))

/-- The inner coefficients of harmonics 18 and 19, a column (the program's `%132`). -/
def inner18 (a : (⟨S3x2000000, .f32⟩ : BufTy).Contents (Elt F)) : (⟨S2x1, .f32⟩ : BufTy).Contents (Elt F) :=
  (broadcastInDim S2x1 ![0] bcast_S2_S2x1_0 : (⟨S2, .f32⟩ : BufTy).Contents (Elt F) → (⟨S2x1, .f32⟩ : BufTy).Contents (Elt F)) (fun i => FloatOps.ofBits .f32 (lit5 (S2.rowMajor i)))

/-- The row numbers 10 and 11 with the row count 16 added (the wrap of a negative row number, unused) (the program's `%134`). -/
def shifted18 (a : (⟨S3x2000000, .f32⟩ : BufTy).Contents (Elt F)) : (⟨S2, .i32⟩ : BufTy).Contents (Elt F) :=
  (addi : (⟨S2, .i32⟩ : BufTy).Contents (Elt F) → (⟨S2, .i32⟩ : BufTy).Contents (Elt F) → (⟨S2, .i32⟩ : BufTy).Contents (Elt F)) (fun i => lit6 (S2.rowMajor i)) ((broadcastInDim S2 ![] bcast_S_S2 : (⟨S_, .i32⟩ : BufTy).Contents (Elt F) → (⟨S2, .i32⟩ : BufTy).Contents (Elt F)) (constantI S_ 32 16#32))

/-- Harmonics 18 and 19, two rows (the program's `%153`). -/
def piece18 (a : (⟨S3x2000000, .f32⟩ : BufTy).Contents (Elt F)) : (⟨S2x2000000, .f32⟩ : BufTy).Contents (Elt F) :=
  (mulf : (⟨S2x2000000, .f32⟩ : BufTy).Contents (Elt F) → (⟨S2x2000000, .f32⟩ : BufTy).Contents (Elt F) → (⟨S2x2000000, .f32⟩ : BufTy).Contents (Elt F)) ((broadcastInDim S2x2000000 ![0, 1] bcast_S2x1_S2x2000000_0_1 : (⟨S2x1, .f32⟩ : BufTy).Contents (Elt F) → (⟨S2x2000000, .f32⟩ : BufTy).Contents (Elt F)) (outer18 a)) ((addf : (⟨S2x2000000, .f32⟩ : BufTy).Contents (Elt F) → (⟨S2x2000000, .f32⟩ : BufTy).Contents (Elt F) → (⟨S2x2000000, .f32⟩ : BufTy).Contents (Elt F)) ((mulf : (⟨S2x2000000, .f32⟩ : BufTy).Contents (Elt F) → (⟨S2x2000000, .f32⟩ : BufTy).Contents (Elt F) → (⟨S2x2000000, .f32⟩ : BufTy).Contents (Elt F)) ((broadcastInDim S2x2000000 ![0, 1] bcast_S1x2000000_S2x2000000_0_1 : (⟨S1x2000000, .f32⟩ : BufTy).Contents (Elt F) → (⟨S2x2000000, .f32⟩ : BufTy).Contents (Elt F)) ((broadcastInDim S1x2000000 ![1] bcast_S2000000_S1x2000000_1 : (⟨S2000000, .f32⟩ : BufTy).Contents (Elt F) → (⟨S1x2000000, .f32⟩ : BufTy).Contents (Elt F)) (zs a))) (Host.gather gather_S16x2000000_S2x1_S2x2000000_1_0_n_n_0_1_12000000 (deg3 a) ((broadcastInDim S2x1 ![0] bcast_S2_S2x1_0 : (⟨S2, .i32⟩ : BufTy).Contents (Elt F) → (⟨S2x1, .i32⟩ : BufTy).Contents (Elt F)) ((select : (⟨S2, .i1⟩ : BufTy).Contents (Elt F) → (⟨S2, .i32⟩ : BufTy).Contents (Elt F) → (⟨S2, .i32⟩ : BufTy).Contents (Elt F) → (⟨S2, .i32⟩ : BufTy).Contents (Elt F)) (constantI S2 1 0#1) (shifted18 a) (fun i => lit6 (S2.rowMajor i)))))) ((mulf : (⟨S2x2000000, .f32⟩ : BufTy).Contents (Elt F) → (⟨S2x2000000, .f32⟩ : BufTy).Contents (Elt F) → (⟨S2x2000000, .f32⟩ : BufTy).Contents (Elt F)) ((broadcastInDim S2x2000000 ![0, 1] bcast_S2x1_S2x2000000_0_1 : (⟨S2x1, .f32⟩ : BufTy).Contents (Elt F) → (⟨S2x2000000, .f32⟩ : BufTy).Contents (Elt F)) (inner18 a)) ((mulf : (⟨S2x2000000, .f32⟩ : BufTy).Contents (Elt F) → (⟨S2x2000000, .f32⟩ : BufTy).Contents (Elt F) → (⟨S2x2000000, .f32⟩ : BufTy).Contents (Elt F)) ((broadcastInDim S2x2000000 ![0, 1] bcast_S1x2000000_S2x2000000_0_1 : (⟨S1x2000000, .f32⟩ : BufTy).Contents (Elt F) → (⟨S2x2000000, .f32⟩ : BufTy).Contents (Elt F)) ((broadcastInDim S1x2000000 ![1] bcast_S2000000_S1x2000000_1 : (⟨S2000000, .f32⟩ : BufTy).Contents (Elt F) → (⟨S1x2000000, .f32⟩ : BufTy).Contents (Elt F)) (dsqs a))) (Host.gather gather_S16x2000000_S2x1_S2x2000000_1_0_n_n_0_1_12000000 (deg3 a) ((broadcastInDim S2x1 ![0] bcast_S2_S2x1_0 : (⟨S2, .i32⟩ : BufTy).Contents (Elt F) → (⟨S2x1, .i32⟩ : BufTy).Contents (Elt F)) ((select : (⟨S2, .i1⟩ : BufTy).Contents (Elt F) → (⟨S2, .i32⟩ : BufTy).Contents (Elt F) → (⟨S2, .i32⟩ : BufTy).Contents (Elt F) → (⟨S2, .i32⟩ : BufTy).Contents (Elt F)) (constantI S2 1 0#1) ((addi : (⟨S2, .i32⟩ : BufTy).Contents (Elt F) → (⟨S2, .i32⟩ : BufTy).Contents (Elt F) → (⟨S2, .i32⟩ : BufTy).Contents (Elt F)) (fun i => lit7 (S2.rowMajor i)) ((broadcastInDim S2 ![] bcast_S_S2 : (⟨S_, .i32⟩ : BufTy).Contents (Elt F) → (⟨S2, .i32⟩ : BufTy).Contents (Elt F)) (constantI S_ 32 16#32))) (fun i => lit7 (S2.rowMajor i))))))))

/-- Harmonics 20 to 22, three rows (the program's `%176`). -/
def piece20 (a : (⟨S3x2000000, .f32⟩ : BufTy).Contents (Elt F)) : (⟨S3x2000000, .f32⟩ : BufTy).Contents (Elt F) :=
  (mulf : (⟨S3x2000000, .f32⟩ : BufTy).Contents (Elt F) → (⟨S3x2000000, .f32⟩ : BufTy).Contents (Elt F) → (⟨S3x2000000, .f32⟩ : BufTy).Contents (Elt F)) ((broadcastInDim S3x2000000 ![0, 1] bcast_S3x1_S3x2000000_0_1 : (⟨S3x1, .f32⟩ : BufTy).Contents (Elt F) → (⟨S3x2000000, .f32⟩ : BufTy).Contents (Elt F)) ((broadcastInDim S3x1 ![0] bcast_S3_S3x1_0 : (⟨S3, .f32⟩ : BufTy).Contents (Elt F) → (⟨S3x1, .f32⟩ : BufTy).Contents (Elt F)) (fun i => FloatOps.ofBits .f32 (lit8 (S3.rowMajor i))))) ((addf : (⟨S3x2000000, .f32⟩ : BufTy).Contents (Elt F) → (⟨S3x2000000, .f32⟩ : BufTy).Contents (Elt F) → (⟨S3x2000000, .f32⟩ : BufTy).Contents (Elt F)) ((mulf : (⟨S3x2000000, .f32⟩ : BufTy).Contents (Elt F) → (⟨S3x2000000, .f32⟩ : BufTy).Contents (Elt F) → (⟨S3x2000000, .f32⟩ : BufTy).Contents (Elt F)) ((broadcastInDim S3x2000000 ![0, 1] bcast_S1x2000000_S3x2000000_0_1 : (⟨S1x2000000, .f32⟩ : BufTy).Contents (Elt F) → (⟨S3x2000000, .f32⟩ : BufTy).Contents (Elt F)) ((broadcastInDim S1x2000000 ![1] bcast_S2000000_S1x2000000_1 : (⟨S2000000, .f32⟩ : BufTy).Contents (Elt F) → (⟨S1x2000000, .f32⟩ : BufTy).Contents (Elt F)) (zs a))) (Host.gather gather_S16x2000000_S3x1_S3x2000000_1_0_n_n_0_1_12000000 (deg3 a) ((broadcastInDim S3x1 ![0] bcast_S3_S3x1_0 : (⟨S3, .i32⟩ : BufTy).Contents (Elt F) → (⟨S3x1, .i32⟩ : BufTy).Contents (Elt F)) ((select : (⟨S3, .i1⟩ : BufTy).Contents (Elt F) → (⟨S3, .i32⟩ : BufTy).Contents (Elt F) → (⟨S3, .i32⟩ : BufTy).Contents (Elt F) → (⟨S3, .i32⟩ : BufTy).Contents (Elt F)) (constantI S3 1 0#1) ((addi : (⟨S3, .i32⟩ : BufTy).Contents (Elt F) → (⟨S3, .i32⟩ : BufTy).Contents (Elt F) → (⟨S3, .i32⟩ : BufTy).Contents (Elt F)) (fun i => lit10 (S3.rowMajor i)) ((broadcastInDim S3 ![] bcast_S_S3 : (⟨S_, .i32⟩ : BufTy).Contents (Elt F) → (⟨S3, .i32⟩ : BufTy).Contents (Elt F)) (constantI S_ 32 16#32))) (fun i => lit10 (S3.rowMajor i)))))) ((mulf : (⟨S3x2000000, .f32⟩ : BufTy).Contents (Elt F) → (⟨S3x2000000, .f32⟩ : BufTy).Contents (Elt F) → (⟨S3x2000000, .f32⟩ : BufTy).Contents (Elt F)) ((broadcastInDim S3x2000000 ![0, 1] bcast_S3x1_S3x2000000_0_1 : (⟨S3x1, .f32⟩ : BufTy).Contents (Elt F) → (⟨S3x2000000, .f32⟩ : BufTy).Contents (Elt F)) ((broadcastInDim S3x1 ![0] bcast_S3_S3x1_0 : (⟨S3, .f32⟩ : BufTy).Contents (Elt F) → (⟨S3x1, .f32⟩ : BufTy).Contents (Elt F)) (fun i => FloatOps.ofBits .f32 (lit9 (S3.rowMajor i))))) ((mulf : (⟨S3x2000000, .f32⟩ : BufTy).Contents (Elt F) → (⟨S3x2000000, .f32⟩ : BufTy).Contents (Elt F) → (⟨S3x2000000, .f32⟩ : BufTy).Contents (Elt F)) ((broadcastInDim S3x2000000 ![0, 1] bcast_S1x2000000_S3x2000000_0_1 : (⟨S1x2000000, .f32⟩ : BufTy).Contents (Elt F) → (⟨S3x2000000, .f32⟩ : BufTy).Contents (Elt F)) ((broadcastInDim S1x2000000 ![1] bcast_S2000000_S1x2000000_1 : (⟨S2000000, .f32⟩ : BufTy).Contents (Elt F) → (⟨S1x2000000, .f32⟩ : BufTy).Contents (Elt F)) (dsqs a))) (Host.gather gather_S16x2000000_S3x1_S3x2000000_1_0_n_n_0_1_12000000 (deg3 a) ((broadcastInDim S3x1 ![0] bcast_S3_S3x1_0 : (⟨S3, .i32⟩ : BufTy).Contents (Elt F) → (⟨S3x1, .i32⟩ : BufTy).Contents (Elt F)) ((select : (⟨S3, .i1⟩ : BufTy).Contents (Elt F) → (⟨S3, .i32⟩ : BufTy).Contents (Elt F) → (⟨S3, .i32⟩ : BufTy).Contents (Elt F) → (⟨S3, .i32⟩ : BufTy).Contents (Elt F)) (constantI S3 1 0#1) ((addi : (⟨S3, .i32⟩ : BufTy).Contents (Elt F) → (⟨S3, .i32⟩ : BufTy).Contents (Elt F) → (⟨S3, .i32⟩ : BufTy).Contents (Elt F)) (fun i => lit11 (S3.rowMajor i)) ((broadcastInDim S3 ![] bcast_S_S3 : (⟨S_, .i32⟩ : BufTy).Contents (Elt F) → (⟨S3, .i32⟩ : BufTy).Contents (Elt F)) (constantI S_ 32 16#32))) (fun i => lit11 (S3.rowMajor i))))))))

/-- Harmonic 23, as one row (the program's `%180`). -/
def piece23 (a : (⟨S3x2000000, .f32⟩ : BufTy).Contents (Elt F)) : (⟨S1x2000000, .f32⟩ : BufTy).Contents (Elt F) :=
  (broadcastInDim S1x2000000 ![1] bcast_S2000000_S1x2000000_1 : (⟨S2000000, .f32⟩ : BufTy).Contents (Elt F) → (⟨S1x2000000, .f32⟩ : BufTy).Contents (Elt F)) ((mulf : (⟨S2000000, .f32⟩ : BufTy).Contents (Elt F) → (⟨S2000000, .f32⟩ : BufTy).Contents (Elt F) → (⟨S2000000, .f32⟩ : BufTy).Contents (Elt F)) ((mulf : (⟨S2000000, .f32⟩ : BufTy).Contents (Elt F) → (⟨S2000000, .f32⟩ : BufTy).Contents (Elt F) → (⟨S2000000, .f32⟩ : BufTy).Contents (Elt F)) ((broadcastInDim S2000000 ![] bcast_S_S2000000 : (⟨S_, .f32⟩ : BufTy).Contents (Elt F) → (⟨S2000000, .f32⟩ : BufTy).Contents (Elt F)) (constant S_ .f32 0x40400000#32)) (zs a)) (top3 a))

/-- Harmonic 24, as one row (the program's `%186`). -/
def piece24 (a : (⟨S3x2000000, .f32⟩ : BufTy).Contents (Elt F)) : (⟨S1x2000000, .f32⟩ : BufTy).Contents (Elt F) :=
  (broadcastInDim S1x2000000 ![1] bcast_S2000000_S1x2000000_1 : (⟨S2000000, .f32⟩ : BufTy).Contents (Elt F) → (⟨S1x2000000, .f32⟩ : BufTy).Contents (Elt F)) ((mulf : (⟨S2000000, .f32⟩ : BufTy).Contents (Elt F) → (⟨S2000000, .f32⟩ : BufTy).Contents (Elt F) → (⟨S2000000, .f32⟩ : BufTy).Contents (Elt F)) ((broadcastInDim S2000000 ![] bcast_S_S2000000 : (⟨S_, .f32⟩ : BufTy).Contents (Elt F) → (⟨S2000000, .f32⟩ : BufTy).Contents (Elt F)) (constant S_ .f32 0xBF87C3B6#32)) ((subf : (⟨S2000000, .f32⟩ : BufTy).Contents (Elt F) → (⟨S2000000, .f32⟩ : BufTy).Contents (Elt F) → (⟨S2000000, .f32⟩ : BufTy).Contents (Elt F)) ((mulf : (⟨S2000000, .f32⟩ : BufTy).Contents (Elt F) → (⟨S2000000, .f32⟩ : BufTy).Contents (Elt F) → (⟨S2000000, .f32⟩ : BufTy).Contents (Elt F)) (xs a) (top3 a)) ((mulf : (⟨S2000000, .f32⟩ : BufTy).Contents (Elt F) → (⟨S2000000, .f32⟩ : BufTy).Contents (Elt F) → (⟨S2000000, .f32⟩ : BufTy).Contents (Elt F)) (ys a) (bot3 a))))

/-- Harmonics 0 to 24, one a row: the result (the program's `%187`). -/
def deg4 (a : (⟨S3x2000000, .f32⟩ : BufTy).Contents (Elt F)) : (⟨S25x2000000, .f32⟩ : BufTy).Contents (Elt F) :=
  concatenate S25x2000000 0 [⟨S16x2000000, (deg3 a)⟩, ⟨S1x2000000, (piece16 a)⟩, ⟨S1x2000000, (piece17 a)⟩, ⟨S2x2000000, (piece18 a)⟩, ⟨S3x2000000, (piece20 a)⟩, ⟨S1x2000000, (piece23 a)⟩, ⟨S1x2000000, (piece24 a)⟩] concatenates_S16x2000000_S1x2000000_S1x2000000_S2x2000000_S3x2000000_S1x2000000_S1x2000000_S25x2000000_d0

end Cert.ReferenceIdeal.Terms

end
-- ==== Proof.LibKnown.lean ====
/-
  A straight line of host operations in single-assignment form, known piece by piece.

  When every buffer is written once, a fact "this buffer holds these contents" that is true at some point of the
  line stays true to its end: no later operation writes the buffer. So what is known can be kept as a LIST of
  (buffer, contents) pairs that only grows; a stretch of operations is described by what it adds to the list, given
  what the list already holds.
-/
import Idealize.ShloMosaic.Lib.StableHlo.Run

namespace Cert.HostLine

open Idealize.ShloMosaic Idealize.ShloMosaic.StableHlo

variable {τ : Topo} {sig : RefSig} {Val : EltTy → Type}

/-- A TensorCore buffer together with contents of its type. -/
structure Known (τ : Topo) (sig : RefSig) (Val : EltTy → Type) where
  buf : Ref sig .tc
  val : (Proc.devRef (τ := τ) .tc buf : DevRef τ sig).ty.Contents Val

/-- The contents `W` have every listed buffer at its listed contents. -/
def Holds (W : Valuation τ sig Val) (L : List (Known τ sig Val)) : Prop :=
  ∀ k ∈ L, W (Proc.devRef .tc k.buf) = k.val

theorem Holds.nil (W : Valuation τ sig Val) : Holds W [] := fun _ h => nomatch h

theorem Holds.cons {W : Valuation τ sig Val} {k : Known τ sig Val} {L : List (Known τ sig Val)}
    (hk : W (Proc.devRef .tc k.buf) = k.val) (hL : Holds W L) : Holds W (k :: L) := fun k' h => by
  rcases List.mem_cons.mp h with rfl | h
  · exact hk
  · exact hL k' h

theorem Holds.append {W : Valuation τ sig Val} {L₁ L₂ : List (Known τ sig Val)}
    (h₁ : Holds W L₁) (h₂ : Holds W L₂) : Holds W (L₁ ++ L₂) := fun k h =>
  (List.mem_append.mp h).elim (h₁ k) (h₂ k)

/-- Reading one listed fact. -/
theorem Holds.at {W : Valuation τ sig Val} {L : List (Known τ sig Val)} (h : Holds W L) (b : Ref sig .tc)
    (v : (Proc.devRef (τ := τ) .tc b : DevRef τ sig).ty.Contents Val) (hm : (⟨b, v⟩ : Known τ sig Val) ∈ L) :
    W (Proc.devRef .tc b) = v := h ⟨b, v⟩ hm

/-- What is known survives any operations that write none of the listed buffers: `Wr` lists every buffer they write. -/
theorem Holds.after {W : Valuation τ sig Val} {L : List (Known τ sig Val)} (h : Holds W L)
    (ops : List (HloOp τ sig Val)) (Wr : List (Ref sig .tc))
    (hW : ops.Forall fun op => op.writes ⊆ (Wr.map (Proc.devRef (τ := τ) .tc)).toFinset)
    (hL : ∀ k ∈ L, k.buf ∉ Wr) : Holds (after ops W) L := fun k hk =>
  (after_of_writes_sub ops W hW (hL k hk)).trans (h k hk)

end Cert.HostLine
-- ==== Proof.RefKnown.lean ====
import proofs.«103363_j66211215835310_1_alg».proof.Proof.RefSeq
import proofs.«103363_j66211215835310_1_alg».proof.Proof.RefTerms
import proofs.«103363_j66211215835310_1_alg».proof.Proof.LibKnown

noncomputable section

namespace Cert.ReferenceIdeal.Line

open Cert.ReferenceIdeal Cert.ReferenceIdeal.Gen Cert.ReferenceIdeal.Terms Cert.HostLine Idealize.ShloMosaic Idealize.ShloMosaic.TcCoe Idealize.SL.Sem

variable {F : FTy → Type} [FloatOps F]

/-- The buffers chunk 0 (operations 1 to 60) writes that a later chunk reads, with their contents. -/
def known0 (a : (⟨S3x2000000, .f32⟩ : BufTy).Contents (Elt F)) : List (Known τ sig (Elt F)) :=
  [ ⟨main_cst, (constant S1 .f32 0x4005DD98#32 : (⟨S1, .f32⟩ : BufTy).Contents (Elt F))⟩,
    ⟨main_cst_0, (constant S1 .f32 0xBEE4F92E#32 : (⟨S1, .f32⟩ : BufTy).Contents (Elt F))⟩,
    ⟨main_c, (constantI S1 32 5#32 : (⟨S1, .i32⟩ : BufTy).Contents (Elt F))⟩,
    ⟨main_c_1, (constantI S1 1 0#1 : (⟨S1, .i1⟩ : BufTy).Contents (Elt F))⟩,
    ⟨main_c_2, (constantI S1 32 1#32 : (⟨S1, .i32⟩ : BufTy).Contents (Elt F))⟩,
    ⟨main_c_3, (constantI S1 1 0#1 : (⟨S1, .i1⟩ : BufTy).Contents (Elt F))⟩,
    ⟨main_cst_4, (fun i => FloatOps.ofBits .f32 (lit0 (S2.rowMajor i)) : (⟨S2, .f32⟩ : BufTy).Contents (Elt F))⟩,
    ⟨main_cst_5, (fun i => FloatOps.ofBits .f32 (lit1 (S2.rowMajor i)) : (⟨S2, .f32⟩ : BufTy).Contents (Elt F))⟩,
    ⟨main_c_6, (fun i => lit2 (S2.rowMajor i) : (⟨S2, .i32⟩ : BufTy).Contents (Elt F))⟩,
    ⟨main_c_7, (constantI S2 1 0#1 : (⟨S2, .i1⟩ : BufTy).Contents (Elt F))⟩,
    ⟨main_c_8, (fun i => lit3 (S2.rowMajor i) : (⟨S2, .i32⟩ : BufTy).Contents (Elt F))⟩,
    ⟨main_c_9, (constantI S2 1 0#1 : (⟨S2, .i1⟩ : BufTy).Contents (Elt F))⟩,
    ⟨main_cst_10, (fun i => FloatOps.ofBits .f32 (lit4 (S2.rowMajor i)) : (⟨S2, .f32⟩ : BufTy).Contents (Elt F))⟩,
    ⟨main_cst_11, (fun i => FloatOps.ofBits .f32 (lit5 (S2.rowMajor i)) : (⟨S2, .f32⟩ : BufTy).Contents (Elt F))⟩,
    ⟨main_c_12, (fun i => lit6 (S2.rowMajor i) : (⟨S2, .i32⟩ : BufTy).Contents (Elt F))⟩,
    ⟨main_c_13, (constantI S2 1 0#1 : (⟨S2, .i1⟩ : BufTy).Contents (Elt F))⟩,
    ⟨main_c_14, (fun i => lit7 (S2.rowMajor i) : (⟨S2, .i32⟩ : BufTy).Contents (Elt F))⟩,
    ⟨main_c_15, (constantI S2 1 0#1 : (⟨S2, .i1⟩ : BufTy).Contents (Elt F))⟩,
    ⟨main_cst_16, (fun i => FloatOps.ofBits .f32 (lit8 (S3.rowMajor i)) : (⟨S3, .f32⟩ : BufTy).Contents (Elt F))⟩,
    ⟨main_cst_17, (fun i => FloatOps.ofBits .f32 (lit9 (S3.rowMajor i)) : (⟨S3, .f32⟩ : BufTy).Contents (Elt F))⟩,
    ⟨main_c_18, (fun i => lit10 (S3.rowMajor i) : (⟨S3, .i32⟩ : BufTy).Contents (Elt F))⟩,
    ⟨main_c_19, (constantI S3 1 0#1 : (⟨S3, .i1⟩ : BufTy).Contents (Elt F))⟩,
    ⟨main_c_20, (fun i => lit11 (S3.rowMajor i) : (⟨S3, .i32⟩ : BufTy).Contents (Elt F))⟩,
    ⟨main_c_21, (constantI S3 1 0#1 : (⟨S3, .i1⟩ : BufTy).Contents (Elt F))⟩,
    ⟨main_v1, xs a⟩,
    ⟨main_v3, ys a⟩,
    ⟨main_v5, zs a⟩,
    ⟨main_v10, dsqs a⟩,
    ⟨main_v11, row0 a⟩,
    ⟨main_v13, row1 a⟩,
    ⟨main_v15, row2 a⟩,
    ⟨main_v17, row3 a⟩,
    ⟨main_v20, row4 a⟩,
    ⟨main_v23, row5 a⟩,
    ⟨main_v27, row6core a⟩,
    ⟨main_cst_29, (constant S_ .f32 0x3EA17B01#32 : (⟨S_, .f32⟩ : BufTy).Contents (Elt F))⟩ ]

/-- The buffers chunk 1 (operations 61 to 81) writes that a later chunk reads, with their contents. -/
def known1 (a : (⟨S3x2000000, .f32⟩ : BufTy).Contents (Elt F)) : List (Known τ sig (Elt F)) :=
  [ ⟨main_v38, ((broadcastInDim S1x2000000 ![1] bcast_S2000000_S1x2000000_1 : (⟨S2000000, .f32⟩ : BufTy).Contents (Elt F) → (⟨S1x2000000, .f32⟩ : BufTy).Contents (Elt F)) (row0 a) : (⟨S1x2000000, .f32⟩ : BufTy).Contents (Elt F))⟩,
    ⟨main_v39, ((broadcastInDim S1x2000000 ![1] bcast_S2000000_S1x2000000_1 : (⟨S2000000, .f32⟩ : BufTy).Contents (Elt F) → (⟨S1x2000000, .f32⟩ : BufTy).Contents (Elt F)) (row1 a) : (⟨S1x2000000, .f32⟩ : BufTy).Contents (Elt F))⟩,
    ⟨main_v40, ((broadcastInDim S1x2000000 ![1] bcast_S2000000_S1x2000000_1 : (⟨S2000000, .f32⟩ : BufTy).Contents (Elt F) → (⟨S1x2000000, .f32⟩ : BufTy).Contents (Elt F)) (row2 a) : (⟨S1x2000000, .f32⟩ : BufTy).Contents (Elt F))⟩,
    ⟨main_v41, ((broadcastInDim S1x2000000 ![1] bcast_S2000000_S1x2000000_1 : (⟨S2000000, .f32⟩ : BufTy).Contents (Elt F) → (⟨S1x2000000, .f32⟩ : BufTy).Contents (Elt F)) (row3 a) : (⟨S1x2000000, .f32⟩ : BufTy).Contents (Elt F))⟩,
    ⟨main_v42, ((broadcastInDim S1x2000000 ![1] bcast_S2000000_S1x2000000_1 : (⟨S2000000, .f32⟩ : BufTy).Contents (Elt F) → (⟨S1x2000000, .f32⟩ : BufTy).Contents (Elt F)) (row4 a) : (⟨S1x2000000, .f32⟩ : BufTy).Contents (Elt F))⟩,
    ⟨main_v43, ((broadcastInDim S1x2000000 ![1] bcast_S2000000_S1x2000000_1 : (⟨S2000000, .f32⟩ : BufTy).Contents (Elt F) → (⟨S1x2000000, .f32⟩ : BufTy).Contents (Elt F)) (row5 a) : (⟨S1x2000000, .f32⟩ : BufTy).Contents (Elt F))⟩,
    ⟨main_v44, ((broadcastInDim S1x2000000 ![1] bcast_S2000000_S1x2000000_1 : (⟨S2000000, .f32⟩ : BufTy).Contents (Elt F) → (⟨S1x2000000, .f32⟩ : BufTy).Contents (Elt F)) (row6 a) : (⟨S1x2000000, .f32⟩ : BufTy).Contents (Elt F))⟩,
    ⟨main_v45, ((broadcastInDim S1x2000000 ![1] bcast_S2000000_S1x2000000_1 : (⟨S2000000, .f32⟩ : BufTy).Contents (Elt F) → (⟨S1x2000000, .f32⟩ : BufTy).Contents (Elt F)) (row7 a) : (⟨S1x2000000, .f32⟩ : BufTy).Contents (Elt F))⟩,
    ⟨main_v46, ((broadcastInDim S1x2000000 ![1] bcast_S2000000_S1x2000000_1 : (⟨S2000000, .f32⟩ : BufTy).Contents (Elt F) → (⟨S1x2000000, .f32⟩ : BufTy).Contents (Elt F)) (row8 a) : (⟨S1x2000000, .f32⟩ : BufTy).Contents (Elt F))⟩ ]

/-- The buffers chunk 2 (operations 82 to 82) writes that a later chunk reads, with their contents. -/
def known2 (a : (⟨S3x2000000, .f32⟩ : BufTy).Contents (Elt F)) : List (Known τ sig (Elt F)) :=
  [ ⟨main_v47, deg2 a⟩ ]

/-- The buffers chunk 3 (operations 83 to 120) writes that a later chunk reads, with their contents. -/
def known3 (a : (⟨S3x2000000, .f32⟩ : BufTy).Contents (Elt F)) : List (Known τ sig (Elt F)) :=
  [ ⟨main_v49, top2 a⟩,
    ⟨main_v51, bot2 a⟩,
    ⟨main_v57, piece9 a⟩,
    ⟨main_v61, piece10 a⟩,
    ⟨main_v80, core11 a⟩,
    ⟨main_v81, coef11 a⟩ ]

/-- The buffers chunk 4 (operations 121 to 158) writes that a later chunk reads, with their contents. -/
def known4 (a : (⟨S3x2000000, .f32⟩ : BufTy).Contents (Elt F)) : List (Known τ sig (Elt F)) :=
  [ ⟨main_v82, piece11 a⟩,
    ⟨main_v105, piece12 a⟩,
    ⟨main_v109, piece14 a⟩,
    ⟨main_v115, piece15 a⟩ ]

/-- The buffers chunk 5 (operations 159 to 159) writes that a later chunk reads, with their contents. -/
def known5 (a : (⟨S3x2000000, .f32⟩ : BufTy).Contents (Elt F)) : List (Known τ sig (Elt F)) :=
  [ ⟨main_v116, deg3 a⟩ ]

/-- The buffers chunk 6 (operations 160 to 180) writes that a later chunk reads, with their contents. -/
def known6 (a : (⟨S3x2000000, .f32⟩ : BufTy).Contents (Elt F)) : List (Known τ sig (Elt F)) :=
  [ ⟨main_v118, top3 a⟩,
    ⟨main_v120, bot3 a⟩,
    ⟨main_v126, piece16 a⟩,
    ⟨main_v130, piece17 a⟩,
    ⟨main_v131, outer18 a⟩,
    ⟨main_v132, inner18 a⟩,
    ⟨main_v134, shifted18 a⟩ ]

/-- The buffers chunk 7 (operations 181 to 237) writes that a later chunk reads, with their contents. -/
def known7 (a : (⟨S3x2000000, .f32⟩ : BufTy).Contents (Elt F)) : List (Known τ sig (Elt F)) :=
  [ ⟨main_v153, piece18 a⟩,
    ⟨main_v176, piece20 a⟩,
    ⟨main_v180, piece23 a⟩,
    ⟨main_v186, piece24 a⟩ ]

/-- The buffers chunk 8 (operations 238 to 238) writes that a later chunk reads — here @main's result, with their contents. -/
def known8 (a : (⟨S3x2000000, .f32⟩ : BufTy).Contents (Elt F)) : List (Known τ sig (Elt F)) :=
  [ ⟨main_v187, deg4 a⟩ ]

/-- Everything listed up to and including each chunk. -/
def upto0 (a : (⟨S3x2000000, .f32⟩ : BufTy).Contents (Elt F)) : List (Known τ sig (Elt F)) := known0 a
def upto1 (a : (⟨S3x2000000, .f32⟩ : BufTy).Contents (Elt F)) : List (Known τ sig (Elt F)) := known1 a ++ upto0 a
def upto2 (a : (⟨S3x2000000, .f32⟩ : BufTy).Contents (Elt F)) : List (Known τ sig (Elt F)) := known2 a ++ upto1 a
def upto3 (a : (⟨S3x2000000, .f32⟩ : BufTy).Contents (Elt F)) : List (Known τ sig (Elt F)) := known3 a ++ upto2 a
def upto4 (a : (⟨S3x2000000, .f32⟩ : BufTy).Contents (Elt F)) : List (Known τ sig (Elt F)) := known4 a ++ upto3 a
def upto5 (a : (⟨S3x2000000, .f32⟩ : BufTy).Contents (Elt F)) : List (Known τ sig (Elt F)) := known5 a ++ upto4 a
def upto6 (a : (⟨S3x2000000, .f32⟩ : BufTy).Contents (Elt F)) : List (Known τ sig (Elt F)) := known6 a ++ upto5 a
def upto7 (a : (⟨S3x2000000, .f32⟩ : BufTy).Contents (Elt F)) : List (Known τ sig (Elt F)) := known7 a ++ upto6 a
def upto8 (a : (⟨S3x2000000, .f32⟩ : BufTy).Contents (Elt F)) : List (Known τ sig (Elt F)) := known8 a ++ upto7 a

end Cert.ReferenceIdeal.Line

end
-- ==== Proof.RefStep0.lean ====
/-
  Chunk 0 of the reference's operations (the first 60): the constants the program states first, the three coordinate
  rows of the argument, the squared lengths, and the harmonics 0 to 5 (harmonic 6 before its coefficient).
-/
import proofs.«103363_j66211215835310_1_alg».proof.Proof.RefKnown

noncomputable section

namespace Cert.ReferenceIdeal.Line

open Cert.ReferenceIdeal Cert.ReferenceIdeal.Gen Cert.ReferenceIdeal.Ops Cert.ReferenceIdeal.Seq Cert.ReferenceIdeal.Terms Cert.HostLine Idealize.ShloMosaic Idealize.ShloMosaic.TcCoe Idealize.SL.Sem Idealize.ShloMosaic.StableHlo

variable {F : FTy → Type} [FloatOps F]

set_option maxRecDepth 8192 in
set_option maxHeartbeats 4000000 in
/-- From any launch contents `V`, chunk 0 leaves its constants and the first values of the argument array `V main_arg0`. -/
theorem step0 (V : Valuation τ sig (Elt F)) :
    Holds (after chunk0 V) (upto0 (V (Proc.devRef .tc main_arg0))) := by
  unfold upto0 known0
  repeat' (first | exact Holds.nil _ | refine Holds.cons ?_ ?_)
  all_goals (try dsimp only)
  all_goals ((simp only [chunk0]; after_results_simp) <;> rfl)

end Cert.ReferenceIdeal.Line

end
-- ==== Proof.RefStep1.lean ====
/-
  Chunk 1 of the reference's operations (21 elementwise operations): from the coordinate rows, the squared lengths and
  the harmonics 0 to 5 it finishes harmonics 6, 7 and 8 and lays each of the nine harmonics out as one row.
-/
import proofs.«103363_j66211215835310_1_alg».proof.Proof.RefKnown

noncomputable section

namespace Cert.ReferenceIdeal.Line

open Cert.ReferenceIdeal Cert.ReferenceIdeal.Gen Cert.ReferenceIdeal.Ops Cert.ReferenceIdeal.Seq Cert.ReferenceIdeal.Terms Cert.HostLine Idealize.ShloMosaic Idealize.ShloMosaic.TcCoe Idealize.SL.Sem Idealize.ShloMosaic.StableHlo

variable {F : FTy → Type} [FloatOps F]

set_option maxRecDepth 8192 in
set_option maxHeartbeats 4000000 in
/-- From contents holding what chunk 0 left, chunk 1 leaves the nine harmonics of degree at most 2 as rows. -/
theorem new1 (W : Valuation τ sig (Elt F)) (a : (⟨S3x2000000, .f32⟩ : BufTy).Contents (Elt F)) (h : Holds W (upto0 a)) :
    Holds (after chunk1 W) (known1 a) := by
  simp only [Holds, upto0, known0, List.forall_mem_cons, List.forall_mem_append, List.not_mem_nil, IsEmpty.forall_iff, implies_true, and_true] at h
  unfold known1
  repeat' (first | exact Holds.nil _ | refine Holds.cons ?_ ?_)
  all_goals (try dsimp only)
  all_goals ((simp only [chunk1]; after_results_simp; simp only [h]) <;> rfl)

/-- After chunk 1 everything listed so far holds: what it adds, and what was known before (it writes none of those buffers). -/
theorem step1 (W : Valuation τ sig (Elt F)) (a : (⟨S3x2000000, .f32⟩ : BufTy).Contents (Elt F)) (h : Holds W (upto0 a)) :
    Holds (after chunk1 W) (upto1 a) :=
  Holds.append (new1 W a h) (h.after chunk1 written1 chunk1_writes (by
      simp only [upto0, known0, List.forall_mem_cons, List.forall_mem_append, List.not_mem_nil, IsEmpty.forall_iff, implies_true, and_true]
      repeat' apply And.intro
      all_goals decide))

end Cert.ReferenceIdeal.Line

end
-- ==== Proof.RefStep2.lean ====
/-
  Chunk 2 of the reference's operations: the one concatenation that stacks the nine rows of degree at most 2.
-/
import proofs.«103363_j66211215835310_1_alg».proof.Proof.RefKnown

noncomputable section

namespace Cert.ReferenceIdeal.Line

open Cert.ReferenceIdeal Cert.ReferenceIdeal.Gen Cert.ReferenceIdeal.Ops Cert.ReferenceIdeal.Seq Cert.ReferenceIdeal.Terms Cert.HostLine Idealize.ShloMosaic Idealize.ShloMosaic.TcCoe Idealize.SL.Sem Idealize.ShloMosaic.StableHlo

variable {F : FTy → Type} [FloatOps F]

set_option maxRecDepth 8192 in
/-- From contents holding the nine rows, the concatenation leaves `deg2 a`. -/
theorem new2 (W : Valuation τ sig (Elt F)) (a : (⟨S3x2000000, .f32⟩ : BufTy).Contents (Elt F)) (h : Holds W (upto1 a)) :
    Holds (after chunk2 W) (known2 a) := by
  simp only [Holds, upto1, upto0, known1, known0, List.forall_mem_cons, List.forall_mem_append, List.not_mem_nil, IsEmpty.forall_iff, implies_true, and_true] at h
  unfold known2
  refine Holds.cons ?_ (Holds.nil _)
  try dsimp only
  simp only [chunk2, after_cons, after_nil]
  rw [nary_result]
  show concatenate S9x2000000 0 [⟨S1x2000000, W (Proc.devRef .tc main_v38)⟩,
      ⟨S1x2000000, W (Proc.devRef .tc main_v39)⟩,
      ⟨S1x2000000, W (Proc.devRef .tc main_v40)⟩,
      ⟨S1x2000000, W (Proc.devRef .tc main_v41)⟩,
      ⟨S1x2000000, W (Proc.devRef .tc main_v42)⟩,
      ⟨S1x2000000, W (Proc.devRef .tc main_v43)⟩,
      ⟨S1x2000000, W (Proc.devRef .tc main_v44)⟩,
      ⟨S1x2000000, W (Proc.devRef .tc main_v45)⟩,
      ⟨S1x2000000, W (Proc.devRef .tc main_v46)⟩] _ = _
  obtain ⟨⟨e0, e1, e2, e3, e4, e5, e6, e7, e8⟩, -⟩ := h
  rw [e0, e1, e2, e3, e4, e5, e6, e7, e8]
  rfl

/-- After chunk 2 everything listed so far holds: what it adds, and what was known before (it writes none of those buffers). -/
theorem step2 (W : Valuation τ sig (Elt F)) (a : (⟨S3x2000000, .f32⟩ : BufTy).Contents (Elt F)) (h : Holds W (upto1 a)) :
    Holds (after chunk2 W) (upto2 a) :=
  Holds.append (new2 W a h) (h.after chunk2 written2 chunk2_writes (by
      simp only [upto1, upto0, known1, known0, List.forall_mem_cons, List.forall_mem_append, List.not_mem_nil, IsEmpty.forall_iff, implies_true, and_true]
      repeat' apply And.intro
      all_goals decide))

end Cert.ReferenceIdeal.Line

end
-- ==== Proof.RefStep3.lean ====
/-
  Chunk 3 of the reference's operations (38 operations): the top and bottom rows of the degree-2 block, harmonics 9 and 10,
  and harmonic 11 up to its outer coefficient — two gathers of the block at one constant row each.
-/
import proofs.«103363_j66211215835310_1_alg».proof.Proof.RefKnown

noncomputable section

namespace Cert.ReferenceIdeal.Line

open Cert.ReferenceIdeal Cert.ReferenceIdeal.Gen Cert.ReferenceIdeal.Ops Cert.ReferenceIdeal.Seq Cert.ReferenceIdeal.Terms Cert.HostLine Idealize.ShloMosaic Idealize.ShloMosaic.TcCoe Idealize.SL.Sem Idealize.ShloMosaic.StableHlo

variable {F : FTy → Type} [FloatOps F]

set_option maxRecDepth 8192 in
set_option maxHeartbeats 4000000 in
/-- From contents holding the degree-2 block and the earlier values, chunk 3 leaves the first pieces of degree 3. -/
theorem new3 (W : Valuation τ sig (Elt F)) (a : (⟨S3x2000000, .f32⟩ : BufTy).Contents (Elt F)) (h : Holds W (upto2 a)) :
    Holds (after chunk3 W) (known3 a) := by
  simp only [Holds, upto2, upto1, upto0, known2, known1, known0, List.forall_mem_cons, List.forall_mem_append, List.not_mem_nil, IsEmpty.forall_iff, implies_true, and_true] at h
  unfold known3
  repeat' (first | exact Holds.nil _ | refine Holds.cons ?_ ?_)
  all_goals (try dsimp only)
  all_goals ((simp only [chunk3]; after_results_simp; simp only [h]) <;> rfl)

/-- After chunk 3 everything listed so far holds: what it adds, and what was known before (it writes none of those buffers). -/
theorem step3 (W : Valuation τ sig (Elt F)) (a : (⟨S3x2000000, .f32⟩ : BufTy).Contents (Elt F)) (h : Holds W (upto2 a)) :
    Holds (after chunk3 W) (upto3 a) :=
  Holds.append (new3 W a h) (h.after chunk3 written3 chunk3_writes (by
      simp only [upto2, upto1, upto0, known2, known1, known0, List.forall_mem_cons, List.forall_mem_append, List.not_mem_nil, IsEmpty.forall_iff, implies_true, and_true]
      repeat' apply And.intro
      all_goals decide))

end Cert.ReferenceIdeal.Line

end
-- ==== Proof.RefStep4.lean ====
/-
  Chunk 4 of the reference's operations (38 operations): harmonic 11, harmonics 12 and 13 (two gathers of the degree-2 block
  at two constant rows each, with coefficient columns from literal tables), and harmonics 14 and 15.
-/
import proofs.«103363_j66211215835310_1_alg».proof.Proof.RefKnown

noncomputable section

namespace Cert.ReferenceIdeal.Line

open Cert.ReferenceIdeal Cert.ReferenceIdeal.Gen Cert.ReferenceIdeal.Ops Cert.ReferenceIdeal.Seq Cert.ReferenceIdeal.Terms Cert.HostLine Idealize.ShloMosaic Idealize.ShloMosaic.TcCoe Idealize.SL.Sem Idealize.ShloMosaic.StableHlo

variable {F : FTy → Type} [FloatOps F]

set_option maxRecDepth 8192 in
set_option maxHeartbeats 4000000 in
/-- From contents holding the degree-2 block, its top and bottom rows and harmonic 11's two factors, chunk 4 leaves harmonics 11 to 15. -/
theorem new4 (W : Valuation τ sig (Elt F)) (a : (⟨S3x2000000, .f32⟩ : BufTy).Contents (Elt F)) (h : Holds W (upto3 a)) :
    Holds (after chunk4 W) (known4 a) := by
  simp only [Holds, upto3, upto2, upto1, upto0, known3, known2, known1, known0, List.forall_mem_cons, List.forall_mem_append, List.not_mem_nil, IsEmpty.forall_iff, implies_true, and_true] at h
  unfold known4
  repeat' (first | exact Holds.nil _ | refine Holds.cons ?_ ?_)
  all_goals (try dsimp only)
  all_goals ((simp only [chunk4]; after_results_simp; simp only [h]) <;> rfl)

/-- After chunk 4 everything listed so far holds: what it adds, and what was known before (it writes none of those buffers). -/
theorem step4 (W : Valuation τ sig (Elt F)) (a : (⟨S3x2000000, .f32⟩ : BufTy).Contents (Elt F)) (h : Holds W (upto3 a)) :
    Holds (after chunk4 W) (upto4 a) :=
  Holds.append (new4 W a h) (h.after chunk4 written4 chunk4_writes (by
      simp only [upto3, upto2, upto1, upto0, known3, known2, known1, known0, List.forall_mem_cons, List.forall_mem_append, List.not_mem_nil, IsEmpty.forall_iff, implies_true, and_true]
      repeat' apply And.intro
      all_goals decide))

end Cert.ReferenceIdeal.Line

end
-- ==== Proof.RefStep5.lean ====
/-
  Chunk 5 of the reference's operations: the concatenation of the degree-2 block with the six pieces of degree 3.
-/
import proofs.«103363_j66211215835310_1_alg».proof.Proof.RefKnown

noncomputable section

namespace Cert.ReferenceIdeal.Line

open Cert.ReferenceIdeal Cert.ReferenceIdeal.Gen Cert.ReferenceIdeal.Ops Cert.ReferenceIdeal.Seq Cert.ReferenceIdeal.Terms Cert.HostLine Idealize.ShloMosaic Idealize.ShloMosaic.TcCoe Idealize.SL.Sem Idealize.ShloMosaic.StableHlo

variable {F : FTy → Type} [FloatOps F]

set_option maxRecDepth 8192 in
/-- From contents holding the block and the pieces, the concatenation leaves `deg3 a`. -/
theorem new5 (W : Valuation τ sig (Elt F)) (a : (⟨S3x2000000, .f32⟩ : BufTy).Contents (Elt F)) (h : Holds W (upto4 a)) :
    Holds (after chunk5 W) (known5 a) := by
  simp only [Holds, upto4, upto3, upto2, upto1, upto0, known4, known3, known2, known1, known0, List.forall_mem_cons, List.forall_mem_append, List.not_mem_nil, IsEmpty.forall_iff, implies_true, and_true] at h
  unfold known5
  refine Holds.cons ?_ (Holds.nil _)
  try dsimp only
  simp only [chunk5, after_cons, after_nil]
  rw [nary_result]
  show concatenate S16x2000000 0 [⟨S9x2000000, W (Proc.devRef .tc main_v47)⟩,
      ⟨S1x2000000, W (Proc.devRef .tc main_v57)⟩,
      ⟨S1x2000000, W (Proc.devRef .tc main_v61)⟩,
      ⟨S1x2000000, W (Proc.devRef .tc main_v82)⟩,
      ⟨S2x2000000, W (Proc.devRef .tc main_v105)⟩,
      ⟨S1x2000000, W (Proc.devRef .tc main_v109)⟩,
      ⟨S1x2000000, W (Proc.devRef .tc main_v115)⟩] _ = _
  obtain ⟨⟨e82, e105, e109, e115⟩, ⟨-, -, e57, e61, -, -⟩, e47, -⟩ := h
  rw [e47, e57, e61, e82, e105, e109, e115]
  rfl

/-- After chunk 5 everything listed so far holds: what it adds, and what was known before (it writes none of those buffers). -/
theorem step5 (W : Valuation τ sig (Elt F)) (a : (⟨S3x2000000, .f32⟩ : BufTy).Contents (Elt F)) (h : Holds W (upto4 a)) :
    Holds (after chunk5 W) (upto5 a) :=
  Holds.append (new5 W a h) (h.after chunk5 written5 chunk5_writes (by
      simp only [upto4, upto3, upto2, upto1, upto0, known4, known3, known2, known1, known0, List.forall_mem_cons, List.forall_mem_append, List.not_mem_nil, IsEmpty.forall_iff, implies_true, and_true]
      repeat' apply And.intro
      all_goals decide))

end Cert.ReferenceIdeal.Line

end
-- ==== Proof.RefStep6.lean ====
/-
  Chunk 6 of the reference's operations (21 operations): the top and bottom rows of the degree-3 block, harmonics 16 and 17,
  and the coefficient columns and shifted row numbers of harmonics 18 and 19.
-/
import proofs.«103363_j66211215835310_1_alg».proof.Proof.RefKnown

noncomputable section

namespace Cert.ReferenceIdeal.Line

open Cert.ReferenceIdeal Cert.ReferenceIdeal.Gen Cert.ReferenceIdeal.Ops Cert.ReferenceIdeal.Seq Cert.ReferenceIdeal.Terms Cert.HostLine Idealize.ShloMosaic Idealize.ShloMosaic.TcCoe Idealize.SL.Sem Idealize.ShloMosaic.StableHlo

variable {F : FTy → Type} [FloatOps F]

set_option maxRecDepth 8192 in
set_option maxHeartbeats 4000000 in
/-- From contents holding the degree-3 block and the earlier values, chunk 6 leaves the first pieces of degree 4. -/
theorem new6 (W : Valuation τ sig (Elt F)) (a : (⟨S3x2000000, .f32⟩ : BufTy).Contents (Elt F)) (h : Holds W (upto5 a)) :
    Holds (after chunk6 W) (known6 a) := by
  simp only [Holds, upto5, upto4, upto3, upto2, upto1, upto0, known5, known4, known3, known2, known1, known0, List.forall_mem_cons, List.forall_mem_append, List.not_mem_nil, IsEmpty.forall_iff, implies_true, and_true] at h
  unfold known6
  repeat' (first | exact Holds.nil _ | refine Holds.cons ?_ ?_)
  all_goals (try dsimp only)
  all_goals ((simp only [chunk6]; after_results_simp; simp only [h]) <;> rfl)

/-- After chunk 6 everything listed so far holds: what it adds, and what was known before (it writes none of those buffers). -/
theorem step6 (W : Valuation τ sig (Elt F)) (a : (⟨S3x2000000, .f32⟩ : BufTy).Contents (Elt F)) (h : Holds W (upto5 a)) :
    Holds (after chunk6 W) (upto6 a) :=
  Holds.append (new6 W a h) (h.after chunk6 written6 chunk6_writes (by
      simp only [upto5, upto4, upto3, upto2, upto1, upto0, known5, known4, known3, known2, known1, known0, List.forall_mem_cons, List.forall_mem_append, List.not_mem_nil, IsEmpty.forall_iff, implies_true, and_true]
      repeat' apply And.intro
      all_goals decide))

end Cert.ReferenceIdeal.Line

end
-- ==== Proof.RefStep7.lean ====
/-
  Chunk 7 of the reference's operations (57 operations): harmonics 18 and 19, harmonics 20 to 22 (four gathers of the
  degree-3 block at constant rows), and harmonics 23 and 24.
-/
import proofs.«103363_j66211215835310_1_alg».proof.Proof.RefKnown

noncomputable section

namespace Cert.ReferenceIdeal.Line

open Cert.ReferenceIdeal Cert.ReferenceIdeal.Gen Cert.ReferenceIdeal.Ops Cert.ReferenceIdeal.Seq Cert.ReferenceIdeal.Terms Cert.HostLine Idealize.ShloMosaic Idealize.ShloMosaic.TcCoe Idealize.SL.Sem Idealize.ShloMosaic.StableHlo

variable {F : FTy → Type} [FloatOps F]

set_option maxRecDepth 8192 in
set_option maxHeartbeats 4000000 in
/-- From contents holding the degree-3 block, its top and bottom rows and the earlier values, chunk 7 leaves harmonics 18 to 24. -/
theorem new7 (W : Valuation τ sig (Elt F)) (a : (⟨S3x2000000, .f32⟩ : BufTy).Contents (Elt F)) (h : Holds W (upto6 a)) :
    Holds (after chunk7 W) (known7 a) := by
  simp only [Holds, upto6, upto5, upto4, upto3, upto2, upto1, upto0, known6, known5, known4, known3, known2, known1, known0, List.forall_mem_cons, List.forall_mem_append, List.not_mem_nil, IsEmpty.forall_iff, implies_true, and_true] at h
  unfold known7
  repeat' (first | exact Holds.nil _ | refine Holds.cons ?_ ?_)
  all_goals (try dsimp only)
  all_goals ((simp only [chunk7]; after_results_simp; simp only [h]) <;> rfl)

/-- After chunk 7 everything listed so far holds: what it adds, and what was known before (it writes none of those buffers). -/
theorem step7 (W : Valuation τ sig (Elt F)) (a : (⟨S3x2000000, .f32⟩ : BufTy).Contents (Elt F)) (h : Holds W (upto6 a)) :
    Holds (after chunk7 W) (upto7 a) :=
  Holds.append (new7 W a h) (h.after chunk7 written7 chunk7_writes (by
      simp only [upto6, upto5, upto4, upto3, upto2, upto1, upto0, known6, known5, known4, known3, known2, known1, known0, List.forall_mem_cons, List.forall_mem_append, List.not_mem_nil, IsEmpty.forall_iff, implies_true, and_true]
      repeat' apply And.intro
      all_goals decide))

end Cert.ReferenceIdeal.Line

end
-- ==== Proof.RefStep8.lean ====
/-
  Chunk 8 of the reference's operations: the last concatenation, of the degree-3 block with the six pieces of degree 4.
-/
import proofs.«103363_j66211215835310_1_alg».proof.Proof.RefKnown

noncomputable section

namespace Cert.ReferenceIdeal.Line

open Cert.ReferenceIdeal Cert.ReferenceIdeal.Gen Cert.ReferenceIdeal.Ops Cert.ReferenceIdeal.Seq Cert.ReferenceIdeal.Terms Cert.HostLine Idealize.ShloMosaic Idealize.ShloMosaic.TcCoe Idealize.SL.Sem Idealize.ShloMosaic.StableHlo

variable {F : FTy → Type} [FloatOps F]

set_option maxRecDepth 8192 in
/-- From contents holding the block and the pieces, the concatenation leaves `deg4 a`, the program's result. -/
theorem new8 (W : Valuation τ sig (Elt F)) (a : (⟨S3x2000000, .f32⟩ : BufTy).Contents (Elt F)) (h : Holds W (upto7 a)) :
    Holds (after chunk8 W) (known8 a) := by
  simp only [Holds, upto7, upto6, upto5, upto4, upto3, upto2, upto1, upto0, known7, known6, known5, known4, known3, known2, known1, known0, List.forall_mem_cons, List.forall_mem_append, List.not_mem_nil, IsEmpty.forall_iff, implies_true, and_true] at h
  unfold known8
  refine Holds.cons ?_ (Holds.nil _)
  try dsimp only
  simp only [chunk8, after_cons, after_nil]
  rw [nary_result]
  show concatenate S25x2000000 0 [⟨S16x2000000, W (Proc.devRef .tc main_v116)⟩,
      ⟨S1x2000000, W (Proc.devRef .tc main_v126)⟩,
      ⟨S1x2000000, W (Proc.devRef .tc main_v130)⟩,
      ⟨S2x2000000, W (Proc.devRef .tc main_v153)⟩,
      ⟨S3x2000000, W (Proc.devRef .tc main_v176)⟩,
      ⟨S1x2000000, W (Proc.devRef .tc main_v180)⟩,
      ⟨S1x2000000, W (Proc.devRef .tc main_v186)⟩] _ = _
  obtain ⟨⟨e153, e176, e180, e186⟩, ⟨-, -, e126, e130, -, -, -⟩, e116, -⟩ := h
  rw [e116, e126, e130, e153, e176, e180, e186]
  rfl

/-- After chunk 8 everything listed so far holds: what it adds, and what was known before (it writes none of those buffers). -/
theorem step8 (W : Valuation τ sig (Elt F)) (a : (⟨S3x2000000, .f32⟩ : BufTy).Contents (Elt F)) (h : Holds W (upto7 a)) :
    Holds (after chunk8 W) (upto8 a) :=
  Holds.append (new8 W a h) (h.after chunk8 written8 chunk8_writes (by
      simp only [upto7, upto6, upto5, upto4, upto3, upto2, upto1, upto0, known7, known6, known5, known4, known3, known2, known1, known0, List.forall_mem_cons, List.forall_mem_append, List.not_mem_nil, IsEmpty.forall_iff, implies_true, and_true]
      repeat' apply And.intro
      all_goals decide))

end Cert.ReferenceIdeal.Line

end
-- ==== Proof.RefRun.lean ====
/-
  The reference program's run, read back: from any launch memory every weakly fair execution of @main ends with the
  result buffer holding `Terms.deg4` of the argument array — the 25 rows of harmonics in the program's own operations —
  and the argument array as it was.
-/
import proofs.«103363_j66211215835310_1_alg».proof.Proof.RefStep0
import proofs.«103363_j66211215835310_1_alg».proof.Proof.RefStep1
import proofs.«103363_j66211215835310_1_alg».proof.Proof.RefStep2
import proofs.«103363_j66211215835310_1_alg».proof.Proof.RefStep3
import proofs.«103363_j66211215835310_1_alg».proof.Proof.RefStep4
import proofs.«103363_j66211215835310_1_alg».proof.Proof.RefStep5
import proofs.«103363_j66211215835310_1_alg».proof.Proof.RefStep6
import proofs.«103363_j66211215835310_1_alg».proof.Proof.RefStep7
import proofs.«103363_j66211215835310_1_alg».proof.Proof.RefStep8

noncomputable section

namespace Cert.ReferenceIdeal.Run

open Cert.ReferenceIdeal Cert.ReferenceIdeal.Gen Cert.ReferenceIdeal.Ops Cert.ReferenceIdeal.Seq Cert.ReferenceIdeal.Terms Cert.ReferenceIdeal.Line Cert.HostLine Idealize.ShloMosaic Idealize.ShloMosaic.TcCoe Idealize.SL.Sem Idealize.ShloMosaic.StableHlo

variable {F : FTy → Type} [FloatOps F]

/-- After all the operations the result buffer holds `deg4` of the argument array's launch contents. -/
theorem result_eq (V : Valuation τ sig (Elt F)) :
    after all V (Proc.devRef .tc main_v187) = deg4 (V (Proc.devRef .tc main_arg0)) := by
  rw [after_all]
  exact (step8 _ _ (step7 _ _ (step6 _ _ (step5 _ _ (step4 _ _ (step3 _ _ (step2 _ _ (step1 _ _ (step0 V)))))))))
    ⟨main_v187, deg4 (V (Proc.devRef .tc main_arg0))⟩ (List.mem_append_left _ List.mem_cons_self)

/-- No operation writes the argument array. -/
theorem arg_kept (V : Valuation τ sig (Elt F)) :
    after all V (Proc.devRef .tc main_arg0) = V (Proc.devRef .tc main_arg0) := by
  rw [after_all, keep8 _ main_arg0 (by decide), keep7 _ main_arg0 (by decide), keep6 _ main_arg0 (by decide),
    keep5 _ main_arg0 (by decide), keep4 _ main_arg0 (by decide), keep3 _ main_arg0 (by decide), keep2 _ main_arg0 (by decide),
    keep1 _ main_arg0 (by decide), keep0 _ main_arg0 (by decide)]

set_option maxRecDepth 8192 in
/-- Every weakly fair execution of @main terminates with the result at `deg4` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v187) = deg4 (m ((c.tc : Thread nD τ).loc main_arg0))
      ∧ r.2.mem ((c.tc : Thread nD τ).loc main_arg0) = m ((c.tc : Thread nD τ).loc main_arg0) :=
  (θ_run defs _ _).mono (fun _ h c => ⟨(h c main_v187).trans (result_eq (launchContents m c)),
      (h c main_arg0).trans (arg_kept (launchContents m c))⟩)
    (run_seq scopedRefs_eq scopedSems_eq defs main (fun _ => all) main_eq (fun _ => all_sub) m ρ)

end Cert.ReferenceIdeal.Run

end
-- ==== Proof.LibLayout.lean ====
/-
  General lemmas the library lacks: three `broadcast_in_dim` forms of a matrix built from a vector or a column, and a
  concatenation of matrices along their rows, each read at an index given by coordinates.

  Lib/Pipeline/Value.lean reads a `broadcast_in_dim` and a concatenation at an index `j` as the operand at an index the
  caller names, and asks for the coordinates' arithmetic; here that obligation is discharged for indices written
  `ix1 …` / `ix2 …` (Lib/ValueIdx.lean), in the style of Lib/ValueLayout.lean:
  • a vector `[n]` laid as the one row of `[1, n]` (dims `[1]`): at `(u, j)` the vector at `j`;
  • a vector `[k]` laid as the one column of `[k, 1]` (dims `[0]`): at `(r, u)` the vector at `r`;
  • a column `[k, 1]` repeated across `n` columns (dims `[0, 1]`): at `(r, t)` the column at `(r, 0)`;
  • matrices of one width stacked by rows: at `(p, j)`, piece `k` at `(i, j)`, where `p` is `i` past the rows of the
    pieces before it.
-/
import Idealize.ShloMosaic.Lib.Pipeline.Value
import Idealize.ShloMosaic.Lib.ValueIdx

namespace Idealize.ShloMosaic.ValueIdx

open Idealize.ShloMosaic

variable {α : Type}

/-- A vector `[n]` laid as the one row of a `[1, n]` matrix reads, at `(u, j)`, the vector at `j`. -/
theorem broadcastInDim_asRow_apply {n : ℕ} (h : (⟨1, ![n]⟩ : Shape).BroadcastsInDim ⟨2, ![1, n]⟩ ![1])
    (v : (⟨1, ![n]⟩ : Shape).Idx → α) (u : Fin 1) (j : Fin n) :
    broadcastInDim ⟨2, ![1, n]⟩ ![1] h v (ix2 u j) = v (ix1 j) := by
  refine broadcastInDim_apply ![1] h v (ix2 u j) (ix1 j) fun ax => ?_
  match ax with
  | ⟨0, _⟩ =>
    show j.val = if n = 1 then 0 else j.val
    split
    · have := j.isLt; omega
    · rfl

/-- A vector `[k]` laid as the one column of a `[k, 1]` matrix reads, at `(r, u)`, the vector at `r`. -/
theorem broadcastInDim_asCol_apply {k : ℕ} (h : (⟨1, ![k]⟩ : Shape).BroadcastsInDim ⟨2, ![k, 1]⟩ ![0])
    (v : (⟨1, ![k]⟩ : Shape).Idx → α) (r : Fin k) (u : Fin 1) :
    broadcastInDim ⟨2, ![k, 1]⟩ ![0] h v (ix2 r u) = v (ix1 r) := by
  refine broadcastInDim_apply ![0] h v (ix2 r u) (ix1 r) fun ax => ?_
  match ax with
  | ⟨0, _⟩ =>
    show r.val = if k = 1 then 0 else r.val
    split
    · have := r.isLt; omega
    · rfl

/-- A column `[k, 1]` repeated across `n` columns reads, at `(r, t)`, the column at `(r, 0)`. -/
theorem broadcastInDim_oneCol_apply {k n : ℕ} (h : (⟨2, ![k, 1]⟩ : Shape).BroadcastsInDim ⟨2, ![k, n]⟩ ![0, 1])
    (y : (⟨2, ![k, 1]⟩ : Shape).Idx → α) (r : Fin k) (t : Fin n) :
    broadcastInDim ⟨2, ![k, n]⟩ ![0, 1] h y (ix2 r t) = y (ix2 r (0 : Fin 1)) := by
  refine broadcastInDim_apply ![0, 1] h y (ix2 r t) (ix2 r (0 : Fin 1)) fun ax => ?_
  match ax with
  | ⟨0, _⟩ =>
    show r.val = if k = 1 then 0 else r.val
    split
    · have := r.isLt; omega
    · rfl
  | ⟨1, _⟩ =>
    show (0 : ℕ) = if (1 : ℕ) = 1 then 0 else t.val
    rw [if_pos rfl]

/-- Matrices of one width `n` stacked by rows, read at `(p, j)`: piece `k`, of `m` rows, at `(i, j)`, where `pre` is the
    number of rows of the pieces before it and `p = pre + i`. -/
theorem concatenate_rows_apply {M n : ℕ} (xs : List ((s : Shape) × (s.Idx → α)))
    (h : Shape.Concatenates (xs.map (·.1)) ⟨2, ![M, n]⟩ 0) (k : ℕ) (hk : k < xs.length) (m : ℕ)
    (x₁ : (⟨2, ![m, n]⟩ : Shape).Idx → α) (hxk : xs[k] = ⟨⟨2, ![m, n]⟩, x₁⟩) (pre : ℕ)
    (hpre : (((xs.take k).map (·.1)).map fun s =>
      if h : s.rank = (⟨2, ![M, n]⟩ : Shape).rank then s.size ((0 : Fin (⟨2, ![M, n]⟩ : Shape).rank).cast h.symm) else 0).sum = pre)
    (p : Fin M) (i : Fin m) (j : Fin n) (ha : pre + i.val = p.val) :
    concatenate ⟨2, ![M, n]⟩ 0 xs h (ix2 p j) = x₁ (ix2 i j) :=
  concatenate_apply_piece 0 xs h (ix2 p j) k hk ⟨2, ![m, n]⟩ x₁ hxk rfl pre hpre (ix2 i j)
    (fun b hb => by
      match b with
      | ⟨0, _⟩ => exact absurd rfl hb
      | ⟨1, _⟩ => rfl) ha

end Idealize.ShloMosaic.ValueIdx
-- ==== Proof.RefDeg2.lean ====
/-
  The reference's harmonics of degree 0, 1 and 2, read at an index: over the extended reals, entry `j` of each coordinate
  vector is the entry of the argument's row, entry `j` of each row vector `rowK a` is harmonic `K` of the point whose
  coordinates are column `j` of the argument's three rows, and entry `(k, j)` of their stack `deg2 a` is harmonic `k`.
  Every step reads a layout operation (a row cut, a cast that drops the unit axis, a scalar spread over a vector, a
  vector laid as a row, rows stacked) at an index; the arithmetic is then the specification's, grouping for grouping.
-/
import proofs.«103363_j66211215835310_1_alg».proof.Proof.RefTerms
import proofs.«103363_j66211215835310_1_alg».proof.Proof.Spec
import proofs.«103363_j66211215835310_1_alg».proof.Proof.LibLayout
import Idealize.ShloMosaic.Lib.ValueIdx
import Idealize.ShloMosaic.Lib.Pipeline.Value
import Idealize.ShloMosaic.Lib.ValueLayout

noncomputable section

namespace Cert.ReferenceIdeal.Read

open Cert.ReferenceIdeal Cert.ReferenceIdeal.Gen Cert.ReferenceIdeal.Terms Cert.Harmonics Idealize.ShloMosaic Idealize.ShloMosaic.TcCoe Idealize.SL.Sem Idealize.ShloMosaic.ValueIdx

/-! ## The coordinate vectors -/

/-- Entry `j` of the first coordinates is row 0 of the argument at column `j`. -/
theorem xs_apply (a : FVec Ideal S3x2000000 .f32) (j : Fin 2000000) : xs (F := Ideal) a (ix1 j) = a (ix2 (0 : Fin 3) j) := by
  unfold xs
  rw [shapeCast_1a_a_apply]
  exact slice2_axis0_apply 0 a _ (0 : Fin 1) j (0 : Fin 3) rfl

/-- Entry `j` of the second coordinates is row 1 of the argument at column `j`. -/
theorem ys_apply (a : FVec Ideal S3x2000000 .f32) (j : Fin 2000000) : ys (F := Ideal) a (ix1 j) = a (ix2 (1 : Fin 3) j) := by
  unfold ys
  rw [shapeCast_1a_a_apply]
  exact slice2_axis0_apply 1 a _ (0 : Fin 1) j (1 : Fin 3) rfl

/-- Entry `j` of the third coordinates is row 2 of the argument at column `j`. -/
theorem zs_apply (a : FVec Ideal S3x2000000 .f32) (j : Fin 2000000) : zs (F := Ideal) a (ix1 j) = a (ix2 (2 : Fin 3) j) := by
  unfold zs
  rw [shapeCast_1a_a_apply]
  exact slice2_axis0_apply 2 a _ (0 : Fin 1) j (2 : Fin 3) rfl

/-- Entry `j` of the squared lengths is the squared length of point `j`. -/
theorem dsqs_apply (a : FVec Ideal S3x2000000 .f32) (j : Fin 2000000) :
    dsqs (F := Ideal) a (ix1 j) = dsq (a (ix2 (0 : Fin 3) j)) (a (ix2 (1 : Fin 3) j)) (a (ix2 (2 : Fin 3) j)) := by
  show xs (F := Ideal) a (ix1 j) * xs (F := Ideal) a (ix1 j) + ys (F := Ideal) a (ix1 j) * ys (F := Ideal) a (ix1 j) + zs (F := Ideal) a (ix1 j) * zs (F := Ideal) a (ix1 j) = _
  rw [xs_apply, ys_apply, zs_apply]
  rfl

/-! ## The nine row vectors -/

/-- Row 0 of the table is harmonic 0. -/
theorem row0_apply (a : FVec Ideal S3x2000000 .f32) (j : Fin 2000000) :
    row0 (F := Ideal) a (ix1 j) = h0 (a (ix2 (0 : Fin 3) j)) (a (ix2 (1 : Fin 3) j)) (a (ix2 (2 : Fin 3) j)) := by
  show Ideal.ofBits .f32 0x3E906EBB#32 = _
  rfl

/-- Row 1 of the table is harmonic 1. -/
theorem row1_apply (a : FVec Ideal S3x2000000 .f32) (j : Fin 2000000) :
    row1 (F := Ideal) a (ix1 j) = h1 (a (ix2 (0 : Fin 3) j)) (a (ix2 (1 : Fin 3) j)) (a (ix2 (2 : Fin 3) j)) := by
  show Ideal.ofBits .f32 0xBEFA2A1C#32 * ys (F := Ideal) a (ix1 j) = _
  rw [ys_apply]
  rfl

/-- Row 2 of the table is harmonic 2. -/
theorem row2_apply (a : FVec Ideal S3x2000000 .f32) (j : Fin 2000000) :
    row2 (F := Ideal) a (ix1 j) = h2 (a (ix2 (0 : Fin 3) j)) (a (ix2 (1 : Fin 3) j)) (a (ix2 (2 : Fin 3) j)) := by
  show Ideal.ofBits .f32 0x3EFA2A1C#32 * zs (F := Ideal) a (ix1 j) = _
  rw [zs_apply]
  rfl

/-- Row 3 of the table is harmonic 3. -/
theorem row3_apply (a : FVec Ideal S3x2000000 .f32) (j : Fin 2000000) :
    row3 (F := Ideal) a (ix1 j) = h3 (a (ix2 (0 : Fin 3) j)) (a (ix2 (1 : Fin 3) j)) (a (ix2 (2 : Fin 3) j)) := by
  show Ideal.ofBits .f32 0xBEFA2A1C#32 * xs (F := Ideal) a (ix1 j) = _
  rw [xs_apply]
  rfl

/-- Row 4 of the table is harmonic 4. -/
theorem row4_apply (a : FVec Ideal S3x2000000 .f32) (j : Fin 2000000) :
    row4 (F := Ideal) a (ix1 j) = h4 (a (ix2 (0 : Fin 3) j)) (a (ix2 (1 : Fin 3) j)) (a (ix2 (2 : Fin 3) j)) := by
  show Ideal.ofBits .f32 0x3F8BD8A1#32 * xs (F := Ideal) a (ix1 j) * ys (F := Ideal) a (ix1 j) = _
  rw [xs_apply, ys_apply]
  rfl

/-- Row 5 of the table is harmonic 5. -/
theorem row5_apply (a : FVec Ideal S3x2000000 .f32) (j : Fin 2000000) :
    row5 (F := Ideal) a (ix1 j) = h5 (a (ix2 (0 : Fin 3) j)) (a (ix2 (1 : Fin 3) j)) (a (ix2 (2 : Fin 3) j)) := by
  show Ideal.ofBits .f32 0xBF8BD8A1#32 * ys (F := Ideal) a (ix1 j) * zs (F := Ideal) a (ix1 j) = _
  rw [ys_apply, zs_apply]
  rfl

/-- Row 6 of the table is harmonic 6. -/
theorem row6_apply (a : FVec Ideal S3x2000000 .f32) (j : Fin 2000000) :
    row6 (F := Ideal) a (ix1 j) = h6 (a (ix2 (0 : Fin 3) j)) (a (ix2 (1 : Fin 3) j)) (a (ix2 (2 : Fin 3) j)) := by
  show Ideal.ofBits .f32 0x3EA17B01#32 * (Ideal.ofBits .f32 0x40400000#32 * zs (F := Ideal) a (ix1 j) * zs (F := Ideal) a (ix1 j) - dsqs (F := Ideal) a (ix1 j)) = _
  rw [zs_apply, dsqs_apply]
  rfl

/-- Row 7 of the table is harmonic 7. -/
theorem row7_apply (a : FVec Ideal S3x2000000 .f32) (j : Fin 2000000) :
    row7 (F := Ideal) a (ix1 j) = h7 (a (ix2 (0 : Fin 3) j)) (a (ix2 (1 : Fin 3) j)) (a (ix2 (2 : Fin 3) j)) := by
  show Ideal.ofBits .f32 0xBF8BD8A1#32 * xs (F := Ideal) a (ix1 j) * zs (F := Ideal) a (ix1 j) = _
  rw [xs_apply, zs_apply]
  rfl

/-- Row 8 of the table is harmonic 8. -/
theorem row8_apply (a : FVec Ideal S3x2000000 .f32) (j : Fin 2000000) :
    row8 (F := Ideal) a (ix1 j) = h8 (a (ix2 (0 : Fin 3) j)) (a (ix2 (1 : Fin 3) j)) (a (ix2 (2 : Fin 3) j)) := by
  show Ideal.ofBits .f32 0x3F0BD8A1#32 * (xs (F := Ideal) a (ix1 j) * xs (F := Ideal) a (ix1 j) - ys (F := Ideal) a (ix1 j) * ys (F := Ideal) a (ix1 j)) = _
  rw [xs_apply, ys_apply]
  rfl

/-! ## Their stack -/

/-- Row 0 of the stack is harmonic 0. -/
theorem deg2_apply_0 (a : FVec Ideal S3x2000000 .f32) (j : Fin 2000000) :
    deg2 (F := Ideal) a (ix2 (0 : Fin 9) j) = h0 (a (ix2 (0 : Fin 3) j)) (a (ix2 (1 : Fin 3) j)) (a (ix2 (2 : Fin 3) j)) := by
  unfold deg2
  refine (concatenate_rows_apply _ _ 0 (by simp) 1 _ rfl 0 rfl (0 : Fin 9) (0 : Fin 1) j rfl).trans ?_
  rw [broadcastInDim_asRow_apply, row0_apply]

/-- Row 1 of the stack is harmonic 1. -/
theorem deg2_apply_1 (a : FVec Ideal S3x2000000 .f32) (j : Fin 2000000) :
    deg2 (F := Ideal) a (ix2 (1 : Fin 9) j) = h1 (a (ix2 (0 : Fin 3) j)) (a (ix2 (1 : Fin 3) j)) (a (ix2 (2 : Fin 3) j)) := by
  unfold deg2
  refine (concatenate_rows_apply _ _ 1 (by simp) 1 _ rfl 1 rfl (1 : Fin 9) (0 : Fin 1) j rfl).trans ?_
  rw [broadcastInDim_asRow_apply, row1_apply]

/-- Row 2 of the stack is harmonic 2. -/
theorem deg2_apply_2 (a : FVec Ideal S3x2000000 .f32) (j : Fin 2000000) :
    deg2 (F := Ideal) a (ix2 (2 : Fin 9) j) = h2 (a (ix2 (0 : Fin 3) j)) (a (ix2 (1 : Fin 3) j)) (a (ix2 (2 : Fin 3) j)) := by
  unfold deg2
  refine (concatenate_rows_apply _ _ 2 (by simp) 1 _ rfl 2 rfl (2 : Fin 9) (0 : Fin 1) j rfl).trans ?_
  rw [broadcastInDim_asRow_apply, row2_apply]

/-- Row 3 of the stack is harmonic 3. -/
theorem deg2_apply_3 (a : FVec Ideal S3x2000000 .f32) (j : Fin 2000000) :
    deg2 (F := Ideal) a (ix2 (3 : Fin 9) j) = h3 (a (ix2 (0 : Fin 3) j)) (a (ix2 (1 : Fin 3) j)) (a (ix2 (2 : Fin 3) j)) := by
  unfold deg2
  refine (concatenate_rows_apply _ _ 3 (by simp) 1 _ rfl 3 rfl (3 : Fin 9) (0 : Fin 1) j rfl).trans ?_
  rw [broadcastInDim_asRow_apply, row3_apply]

/-- Row 4 of the stack is harmonic 4. -/
theorem deg2_apply_4 (a : FVec Ideal S3x2000000 .f32) (j : Fin 2000000) :
    deg2 (F := Ideal) a (ix2 (4 : Fin 9) j) = h4 (a (ix2 (0 : Fin 3) j)) (a (ix2 (1 : Fin 3) j)) (a (ix2 (2 : Fin 3) j)) := by
  unfold deg2
  refine (concatenate_rows_apply _ _ 4 (by simp) 1 _ rfl 4 rfl (4 : Fin 9) (0 : Fin 1) j rfl).trans ?_
  rw [broadcastInDim_asRow_apply, row4_apply]

/-- Row 5 of the stack is harmonic 5. -/
theorem deg2_apply_5 (a : FVec Ideal S3x2000000 .f32) (j : Fin 2000000) :
    deg2 (F := Ideal) a (ix2 (5 : Fin 9) j) = h5 (a (ix2 (0 : Fin 3) j)) (a (ix2 (1 : Fin 3) j)) (a (ix2 (2 : Fin 3) j)) := by
  unfold deg2
  refine (concatenate_rows_apply _ _ 5 (by simp) 1 _ rfl 5 rfl (5 : Fin 9) (0 : Fin 1) j rfl).trans ?_
  rw [broadcastInDim_asRow_apply, row5_apply]

/-- Row 6 of the stack is harmonic 6. -/
theorem deg2_apply_6 (a : FVec Ideal S3x2000000 .f32) (j : Fin 2000000) :
    deg2 (F := Ideal) a (ix2 (6 : Fin 9) j) = h6 (a (ix2 (0 : Fin 3) j)) (a (ix2 (1 : Fin 3) j)) (a (ix2 (2 : Fin 3) j)) := by
  unfold deg2
  refine (concatenate_rows_apply _ _ 6 (by simp) 1 _ rfl 6 rfl (6 : Fin 9) (0 : Fin 1) j rfl).trans ?_
  rw [broadcastInDim_asRow_apply, row6_apply]

/-- Row 7 of the stack is harmonic 7. -/
theorem deg2_apply_7 (a : FVec Ideal S3x2000000 .f32) (j : Fin 2000000) :
    deg2 (F := Ideal) a (ix2 (7 : Fin 9) j) = h7 (a (ix2 (0 : Fin 3) j)) (a (ix2 (1 : Fin 3) j)) (a (ix2 (2 : Fin 3) j)) := by
  unfold deg2
  refine (concatenate_rows_apply _ _ 7 (by simp) 1 _ rfl 7 rfl (7 : Fin 9) (0 : Fin 1) j rfl).trans ?_
  rw [broadcastInDim_asRow_apply, row7_apply]

/-- Row 8 of the stack is harmonic 8. -/
theorem deg2_apply_8 (a : FVec Ideal S3x2000000 .f32) (j : Fin 2000000) :
    deg2 (F := Ideal) a (ix2 (8 : Fin 9) j) = h8 (a (ix2 (0 : Fin 3) j)) (a (ix2 (1 : Fin 3) j)) (a (ix2 (2 : Fin 3) j)) := by
  unfold deg2
  refine (concatenate_rows_apply _ _ 8 (by simp) 1 _ rfl 8 rfl (8 : Fin 9) (0 : Fin 1) j rfl).trans ?_
  rw [broadcastInDim_asRow_apply, row8_apply]

/-- Entry `(k, j)` of the stack is harmonic `k` of point `j`. -/
theorem deg2_apply (a : FVec Ideal S3x2000000 .f32) (k : Fin 9) (j : Fin 2000000) :
    deg2 (F := Ideal) a (ix2 k j)
      = harm ⟨k.val, by omega⟩ (a (ix2 (0 : Fin 3) j)) (a (ix2 (1 : Fin 3) j)) (a (ix2 (2 : Fin 3) j)) := by
  match k with
  | ⟨0, _⟩ => exact deg2_apply_0 a j
  | ⟨1, _⟩ => exact deg2_apply_1 a j
  | ⟨2, _⟩ => exact deg2_apply_2 a j
  | ⟨3, _⟩ => exact deg2_apply_3 a j
  | ⟨4, _⟩ => exact deg2_apply_4 a j
  | ⟨5, _⟩ => exact deg2_apply_5 a j
  | ⟨6, _⟩ => exact deg2_apply_6 a j
  | ⟨7, _⟩ => exact deg2_apply_7 a j
  | ⟨8, _⟩ => exact deg2_apply_8 a j

/-! ## The stack's highest and lowest rows of degree 2 -/

/-- Entry `j` of the highest-order row of degree 2 is harmonic 8. -/
theorem top2_apply (a : FVec Ideal S3x2000000 .f32) (j : Fin 2000000) :
    top2 (F := Ideal) a (ix1 j) = h8 (a (ix2 (0 : Fin 3) j)) (a (ix2 (1 : Fin 3) j)) (a (ix2 (2 : Fin 3) j)) := by
  unfold top2
  rw [shapeCast_1a_a_apply]
  exact (slice2_axis0_apply 8 (deg2 (F := Ideal) a) _ (0 : Fin 1) j (8 : Fin 9) rfl).trans (deg2_apply_8 a j)

/-- Entry `j` of the lowest-order row of degree 2 is harmonic 4. -/
theorem bot2_apply (a : FVec Ideal S3x2000000 .f32) (j : Fin 2000000) :
    bot2 (F := Ideal) a (ix1 j) = h4 (a (ix2 (0 : Fin 3) j)) (a (ix2 (1 : Fin 3) j)) (a (ix2 (2 : Fin 3) j)) := by
  unfold bot2
  rw [shapeCast_1a_a_apply]
  exact (slice2_axis0_apply 4 (deg2 (F := Ideal) a) _ (0 : Fin 1) j (4 : Fin 9) rfl).trans (deg2_apply_4 a j)

end Cert.ReferenceIdeal.Read

end
-- ==== Proof.LibGather.lean ====
/-
  A general lemma the library lacks: `stablehlo.gather` of WHOLE ROWS of a matrix.

  What `x[idx, :]` of a matrix `x : [N, C]` at a column of row numbers `idx : [R, 1]` lowers to: a gather with offset_dims
  `[1]`, collapsed_slice_dims `[0]`, start_index_map `[0]`, index_vector_dim `1` and slice_sizes `[1, C]`. Result element
  `(r, q)` is the operand at `(k, q)`, where the row `k` is the start index `idx[r, 0]` read as a signed integer and clamped
  into `[0, N − 1]`, as the gather clamps every start index so that its slice fits.
-/
import Idealize.ShloMosaic.Lib.ValueIdx

noncomputable section

namespace Idealize.ShloMosaic.ValueIdx

open Idealize.ShloMosaic

section Rows
variable {α : Type}

/-- The dimension numbers of a gather of whole rows: operand `[N, C]`, start indices `[R, 1]`, result `[R, C]`; the
    conditions `wf` are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The operand's ROW read by result index `(r, q)`: the axis is collapsed, so it carries no offset, and the start index
    map names it, so its start is the start index `idx[r, 0]` read signed and clamped into `[0, N − 1]`. -/
theorem rowDims_operandIdx_row {N R C w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (q : Fin C) :
    ((rowDims N R C wf).operandIdx (ix2 r q) idx (0 : Fin 2)).val = min (idx (ix2 r (0 : Fin 1))).toInt.toNat (N - 1) := by
  show (rowDims N R C wf).start (ix2 r q) idx 0 + (rowDims N R C wf).batchCoord (ix2 r q) 0
      + (rowDims N R C wf).offCoord (ix2 r q) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N R C wf).startIndexMap from List.mem_singleton.mpr rfl)]
  have hsi : (rowDims N R C wf).siIdx (ix2 r q) ⟨List.idxOf (0 : Fin 2) (rowDims N R C wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- The operand's COLUMN read by result index `(r, q)`: the start index map does not name the axis, so its start is `0`,
    and it is the one offset axis, so its offset is the result's column `q`. -/
theorem rowDims_operandIdx_col {N R C w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (q : Fin C) :
    ((rowDims N R C wf).operandIdx (ix2 r q) idx (1 : Fin 2)).val = q.val := by
  show (rowDims N R C wf).start (ix2 r q) idx 1 + (rowDims N R C wf).batchCoord (ix2 r q) 1
      + (rowDims N R C wf).offCoord (ix2 r q) 1 = _
  have h10 : (1 : Fin 2) ≠ 0 := by decide
  rw [GatherDims.batchCoord_eq_zero _ _ _ List.not_mem_nil]
  simp only [Nat.add_zero]
  unfold GatherDims.start
  rw [dif_neg (show ¬ (1 : Fin 2) ∈ (rowDims N R C wf).startIndexMap from fun h => h10 (List.mem_singleton.mp h)),
    Nat.zero_add]
  unfold GatherDims.offCoord
  rw [dif_pos (show (1 : Fin 2) ∈ (rowDims N R C wf).sKept from
    (GatherDims.mem_sKept _ _).mpr ⟨fun h => h10 (List.mem_singleton.mp h), List.not_mem_nil⟩)]
  rfl

/-- THE ROW GATHER READ AT `(r, q)`: the operand at `(k, q)`, the row `k` being the start index `idx[r, 0]` read signed
    and clamped into `[0, N − 1]` (the caller names `k` and owes that equation). -/
theorem gather_rows_apply {N R C w : Nat}
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (q : Fin C) (k : Fin N)
    (hk : k.val = min (idx (ix2 r (0 : Fin 1))).toInt.toNat (N - 1)) :
    Host.gather (rowDims N R C wf) x idx (ix2 r q) = x (ix2 k q) := by
  unfold Host.gather
  congr 1
  funext a
  refine Fin.ext ?_
  match a with
  | ⟨0, _⟩ => exact (rowDims_operandIdx_row wf idx r q).trans hk.symm
  | ⟨1, _⟩ => exact rowDims_operandIdx_col wf idx r q

end Rows

end Idealize.ShloMosaic.ValueIdx

end
-- ==== Proof.RefDeg3.lean ====
/-
  The reference's harmonics of degree 3, read at an index: each piece of one, two or three rows is, at `(r, j)`, the
  harmonic of its row at the point whose coordinates are column `j` of the argument's three rows, and so is the stack
  `deg3 a` of the degree ≤ 2 stack and these pieces. The inner orders read earlier harmonics through a gather of whole
  rows of the earlier stack at a literal column of row numbers (the column is chosen by a mask that is nowhere set, so it
  is the literal one, and the row numbers are in range, so the clamp leaves them as they are); their coefficients are a
  literal column repeated across the row.
-/
import proofs.«103363_j66211215835310_1_alg».proof.Proof.RefDeg2
import proofs.«103363_j66211215835310_1_alg».proof.Proof.LibGather
import proofs.«103363_j66211215835310_1_alg».proof.Proof.LibLayout
import Idealize.ShloMosaic.Lib.KernelVsHost

noncomputable section

namespace Cert.ReferenceIdeal.Read

open Cert.ReferenceIdeal Cert.ReferenceIdeal.Gen Cert.ReferenceIdeal.Terms Cert.Harmonics Idealize.ShloMosaic Idealize.ShloMosaic.TcCoe Idealize.SL.Sem Idealize.ShloMosaic.ValueIdx

/-! ## A column of row numbers chosen by a mask that is nowhere set -/

/-- A vector of words laid as a column, the vector chosen between two by a mask that is nowhere set, reads at `(r, u)` the
    second vector at `r`. -/
theorem asCol_select_zero_apply {k w : ℕ} (h : (⟨1, ![k]⟩ : Shape).BroadcastsInDim ⟨2, ![k, 1]⟩ ![0])
    (A B : IVec ⟨1, ![k]⟩ w) (r : Fin k) (u : Fin 1) :
    broadcastInDim ⟨2, ![k, 1]⟩ ![0] h (select (constantI ⟨1, ![k]⟩ 1 0#1) A B) (ix2 r u) = B (ix1 r) := by
  rw [broadcastInDim_asCol_apply]
  exact select_zero _ _

/-! ## The two gathers of rows of the degree ≤ 2 stack -/

/-- One row of the nine-row stack gathered at a `[1, 1]` column of row numbers. -/
theorem gather9_1_apply (x : FVec Ideal S9x2000000 .f32) (idx : IVec S1x1 32) (r : Fin 1) (q : Fin 2000000) (k : Fin 9)
    (hk : k.val = min (idx (ix2 r (0 : Fin 1))).toInt.toNat (9 - 1)) :
    Host.gather gather_S9x2000000_S1x1_S1x2000000_1_0_n_n_0_1_12000000 x idx (ix2 r q) = x (ix2 k q) :=
  gather_rows_apply gather_S9x2000000_S1x1_S1x2000000_1_0_n_n_0_1_12000000_wf x idx r q k hk

/-- Two rows of the nine-row stack gathered at a `[2, 1]` column of row numbers. -/
theorem gather9_2_apply (x : FVec Ideal S9x2000000 .f32) (idx : IVec S2x1 32) (r : Fin 2) (q : Fin 2000000) (k : Fin 9)
    (hk : k.val = min (idx (ix2 r (0 : Fin 1))).toInt.toNat (9 - 1)) :
    Host.gather gather_S9x2000000_S2x1_S2x2000000_1_0_n_n_0_1_12000000 x idx (ix2 r q) = x (ix2 k q) :=
  gather_rows_apply gather_S9x2000000_S2x1_S2x2000000_1_0_n_n_0_1_12000000_wf x idx r q k hk

/-! ## The pieces of degree 3 -/

/-- The piece of order −3 is harmonic 9. -/
theorem piece9_apply (a : FVec Ideal S3x2000000 .f32) (j : Fin 2000000) :
    piece9 (F := Ideal) a (ix2 (0 : Fin 1) j) = h9 (a (ix2 (0 : Fin 3) j)) (a (ix2 (1 : Fin 3) j)) (a (ix2 (2 : Fin 3) j)) := by
  unfold piece9
  rw [broadcastInDim_asRow_apply]
  show Ideal.ofBits .f32 0xBF8A417C#32 * (xs (F := Ideal) a (ix1 j) * bot2 (F := Ideal) a (ix1 j) + ys (F := Ideal) a (ix1 j) * top2 (F := Ideal) a (ix1 j)) = _
  rw [xs_apply, ys_apply, bot2_apply, top2_apply]
  rfl

/-- The piece of order −2 is harmonic 10. -/
theorem piece10_apply (a : FVec Ideal S3x2000000 .f32) (j : Fin 2000000) :
    piece10 (F := Ideal) a (ix2 (0 : Fin 1) j) = h10 (a (ix2 (0 : Fin 3) j)) (a (ix2 (1 : Fin 3) j)) (a (ix2 (2 : Fin 3) j)) := by
  unfold piece10
  rw [broadcastInDim_asRow_apply]
  show Ideal.ofBits .f32 0x402953FD#32 * zs (F := Ideal) a (ix1 j) * bot2 (F := Ideal) a (ix1 j) = _
  rw [zs_apply, bot2_apply]
  rfl

/-- The piece of order −1 is harmonic 11: it reads rows 5 and 1 of the degree ≤ 2 stack. -/
theorem piece11_apply (a : FVec Ideal S3x2000000 .f32) (j : Fin 2000000) :
    piece11 (F := Ideal) a (ix2 (0 : Fin 1) j) = h11 (a (ix2 (0 : Fin 3) j)) (a (ix2 (1 : Fin 3) j)) (a (ix2 (2 : Fin 3) j)) := by
  unfold piece11 coef11 core11
  simp only [mulf_apply, addf_apply]
  repeat rw [broadcastInDim_oneCol_apply]
  repeat rw [broadcastInDim_oneRow_apply]
  repeat rw [broadcastInDim_asCol_apply]
  repeat rw [broadcastInDim_asRow_apply]
  rw [gather9_1_apply _ _ (0 : Fin 1) j (5 : Fin 9), gather9_1_apply _ _ (0 : Fin 1) j (1 : Fin 9),
    zs_apply, dsqs_apply, deg2_apply_5, deg2_apply_1]
  · rfl
  · rw [asCol_select_zero_apply]; decide
  · rw [asCol_select_zero_apply]; decide

/-- Row 0 of the piece of orders 0 and 1 is harmonic 12: it reads rows 6 and 2 of the degree ≤ 2 stack. -/
theorem piece12_apply_0 (a : FVec Ideal S3x2000000 .f32) (j : Fin 2000000) :
    piece12 (F := Ideal) a (ix2 (0 : Fin 2) j) = h12 (a (ix2 (0 : Fin 3) j)) (a (ix2 (1 : Fin 3) j)) (a (ix2 (2 : Fin 3) j)) := by
  unfold piece12
  simp only [mulf_apply, addf_apply]
  repeat rw [broadcastInDim_oneCol_apply]
  repeat rw [broadcastInDim_oneRow_apply]
  repeat rw [broadcastInDim_asCol_apply]
  repeat rw [broadcastInDim_asRow_apply]
  rw [gather9_2_apply _ _ (0 : Fin 2) j (6 : Fin 9), gather9_2_apply _ _ (0 : Fin 2) j (2 : Fin 9),
    zs_apply, dsqs_apply, deg2_apply_6, deg2_apply_2]
  · rfl
  · rw [asCol_select_zero_apply]; decide
  · rw [asCol_select_zero_apply]; decide

/-- Row 1 of the piece of orders 0 and 1 is harmonic 13: it reads rows 7 and 3 of the degree ≤ 2 stack. -/
theorem piece12_apply_1 (a : FVec Ideal S3x2000000 .f32) (j : Fin 2000000) :
    piece12 (F := Ideal) a (ix2 (1 : Fin 2) j) = h13 (a (ix2 (0 : Fin 3) j)) (a (ix2 (1 : Fin 3) j)) (a (ix2 (2 : Fin 3) j)) := by
  unfold piece12
  simp only [mulf_apply, addf_apply]
  repeat rw [broadcastInDim_oneCol_apply]
  repeat rw [broadcastInDim_oneRow_apply]
  repeat rw [broadcastInDim_asCol_apply]
  repeat rw [broadcastInDim_asRow_apply]
  rw [gather9_2_apply _ _ (1 : Fin 2) j (7 : Fin 9), gather9_2_apply _ _ (1 : Fin 2) j (3 : Fin 9),
    zs_apply, dsqs_apply, deg2_apply_7, deg2_apply_3]
  · rfl
  · rw [asCol_select_zero_apply]; decide
  · rw [asCol_select_zero_apply]; decide

/-- The piece of order 2 is harmonic 14. -/
theorem piece14_apply (a : FVec Ideal S3x2000000 .f32) (j : Fin 2000000) :
    piece14 (F := Ideal) a (ix2 (0 : Fin 1) j) = h14 (a (ix2 (0 : Fin 3) j)) (a (ix2 (1 : Fin 3) j)) (a (ix2 (2 : Fin 3) j)) := by
  unfold piece14
  rw [broadcastInDim_asRow_apply]
  show Ideal.ofBits .f32 0x402953FD#32 * zs (F := Ideal) a (ix1 j) * top2 (F := Ideal) a (ix1 j) = _
  rw [zs_apply, top2_apply]
  rfl

/-- The piece of order 3 is harmonic 15. -/
theorem piece15_apply (a : FVec Ideal S3x2000000 .f32) (j : Fin 2000000) :
    piece15 (F := Ideal) a (ix2 (0 : Fin 1) j) = h15 (a (ix2 (0 : Fin 3) j)) (a (ix2 (1 : Fin 3) j)) (a (ix2 (2 : Fin 3) j)) := by
  unfold piece15
  rw [broadcastInDim_asRow_apply]
  show Ideal.ofBits .f32 0xBF8A417C#32 * (xs (F := Ideal) a (ix1 j) * top2 (F := Ideal) a (ix1 j) - ys (F := Ideal) a (ix1 j) * bot2 (F := Ideal) a (ix1 j)) = _
  rw [xs_apply, ys_apply, top2_apply, bot2_apply]
  rfl

/-! ## The stack of degree ≤ 3 -/

/-- Row 0 of the stack is harmonic 0. -/
theorem deg3_apply_0 (a : FVec Ideal S3x2000000 .f32) (j : Fin 2000000) :
    deg3 (F := Ideal) a (ix2 (0 : Fin 16) j) = h0 (a (ix2 (0 : Fin 3) j)) (a (ix2 (1 : Fin 3) j)) (a (ix2 (2 : Fin 3) j)) := by
  unfold deg3
  exact (concatenate_rows_apply _ _ 0 (by simp) 9 _ rfl 0 rfl (0 : Fin 16) (0 : Fin 9) j rfl).trans (deg2_apply_0 a j)

/-- Row 1 of the stack is harmonic 1. -/
theorem deg3_apply_1 (a : FVec Ideal S3x2000000 .f32) (j : Fin 2000000) :
    deg3 (F := Ideal) a (ix2 (1 : Fin 16) j) = h1 (a (ix2 (0 : Fin 3) j)) (a (ix2 (1 : Fin 3) j)) (a (ix2 (2 : Fin 3) j)) := by
  unfold deg3
  exact (concatenate_rows_apply _ _ 0 (by simp) 9 _ rfl 0 rfl (1 : Fin 16) (1 : Fin 9) j rfl).trans (deg2_apply_1 a j)

/-- Row 2 of the stack is harmonic 2. -/
theorem deg3_apply_2 (a : FVec Ideal S3x2000000 .f32) (j : Fin 2000000) :
    deg3 (F := Ideal) a (ix2 (2 : Fin 16) j) = h2 (a (ix2 (0 : Fin 3) j)) (a (ix2 (1 : Fin 3) j)) (a (ix2 (2 : Fin 3) j)) := by
  unfold deg3
  exact (concatenate_rows_apply _ _ 0 (by simp) 9 _ rfl 0 rfl (2 : Fin 16) (2 : Fin 9) j rfl).trans (deg2_apply_2 a j)

/-- Row 3 of the stack is harmonic 3. -/
theorem deg3_apply_3 (a : FVec Ideal S3x2000000 .f32) (j : Fin 2000000) :
    deg3 (F := Ideal) a (ix2 (3 : Fin 16) j) = h3 (a (ix2 (0 : Fin 3) j)) (a (ix2 (1 : Fin 3) j)) (a (ix2 (2 : Fin 3) j)) := by
  unfold deg3
  exact (concatenate_rows_apply _ _ 0 (by simp) 9 _ rfl 0 rfl (3 : Fin 16) (3 : Fin 9) j rfl).trans (deg2_apply_3 a j)

/-- Row 4 of the stack is harmonic 4. -/
theorem deg3_apply_4 (a : FVec Ideal S3x2000000 .f32) (j : Fin 2000000) :
    deg3 (F := Ideal) a (ix2 (4 : Fin 16) j) = h4 (a (ix2 (0 : Fin 3) j)) (a (ix2 (1 : Fin 3) j)) (a (ix2 (2 : Fin 3) j)) := by
  unfold deg3
  exact (concatenate_rows_apply _ _ 0 (by simp) 9 _ rfl 0 rfl (4 : Fin 16) (4 : Fin 9) j rfl).trans (deg2_apply_4 a j)

/-- Row 5 of the stack is harmonic 5. -/
theorem deg3_apply_5 (a : FVec Ideal S3x2000000 .f32) (j : Fin 2000000) :
    deg3 (F := Ideal) a (ix2 (5 : Fin 16) j) = h5 (a (ix2 (0 : Fin 3) j)) (a (ix2 (1 : Fin 3) j)) (a (ix2 (2 : Fin 3) j)) := by
  unfold deg3
  exact (concatenate_rows_apply _ _ 0 (by simp) 9 _ rfl 0 rfl (5 : Fin 16) (5 : Fin 9) j rfl).trans (deg2_apply_5 a j)

/-- Row 6 of the stack is harmonic 6. -/
theorem deg3_apply_6 (a : FVec Ideal S3x2000000 .f32) (j : Fin 2000000) :
    deg3 (F := Ideal) a (ix2 (6 : Fin 16) j) = h6 (a (ix2 (0 : Fin 3) j)) (a (ix2 (1 : Fin 3) j)) (a (ix2 (2 : Fin 3) j)) := by
  unfold deg3
  exact (concatenate_rows_apply _ _ 0 (by simp) 9 _ rfl 0 rfl (6 : Fin 16) (6 : Fin 9) j rfl).trans (deg2_apply_6 a j)

/-- Row 7 of the stack is harmonic 7. -/
theorem deg3_apply_7 (a : FVec Ideal S3x2000000 .f32) (j : Fin 2000000) :
    deg3 (F := Ideal) a (ix2 (7 : Fin 16) j) = h7 (a (ix2 (0 : Fin 3) j)) (a (ix2 (1 : Fin 3) j)) (a (ix2 (2 : Fin 3) j)) := by
  unfold deg3
  exact (concatenate_rows_apply _ _ 0 (by simp) 9 _ rfl 0 rfl (7 : Fin 16) (7 : Fin 9) j rfl).trans (deg2_apply_7 a j)

/-- Row 8 of the stack is harmonic 8. -/
theorem deg3_apply_8 (a : FVec Ideal S3x2000000 .f32) (j : Fin 2000000) :
    deg3 (F := Ideal) a (ix2 (8 : Fin 16) j) = h8 (a (ix2 (0 : Fin 3) j)) (a (ix2 (1 : Fin 3) j)) (a (ix2 (2 : Fin 3) j)) := by
  unfold deg3
  exact (concatenate_rows_apply _ _ 0 (by simp) 9 _ rfl 0 rfl (8 : Fin 16) (8 : Fin 9) j rfl).trans (deg2_apply_8 a j)

/-- Row 9 of the stack is harmonic 9. -/
theorem deg3_apply_9 (a : FVec Ideal S3x2000000 .f32) (j : Fin 2000000) :
    deg3 (F := Ideal) a (ix2 (9 : Fin 16) j) = h9 (a (ix2 (0 : Fin 3) j)) (a (ix2 (1 : Fin 3) j)) (a (ix2 (2 : Fin 3) j)) := by
  unfold deg3
  exact (concatenate_rows_apply _ _ 1 (by simp) 1 _ rfl 9 rfl (9 : Fin 16) (0 : Fin 1) j rfl).trans (piece9_apply a j)

/-- Row 10 of the stack is harmonic 10. -/
theorem deg3_apply_10 (a : FVec Ideal S3x2000000 .f32) (j : Fin 2000000) :
    deg3 (F := Ideal) a (ix2 (10 : Fin 16) j) = h10 (a (ix2 (0 : Fin 3) j)) (a (ix2 (1 : Fin 3) j)) (a (ix2 (2 : Fin 3) j)) := by
  unfold deg3
  exact (concatenate_rows_apply _ _ 2 (by simp) 1 _ rfl 10 rfl (10 : Fin 16) (0 : Fin 1) j rfl).trans (piece10_apply a j)

/-- Row 11 of the stack is harmonic 11. -/
theorem deg3_apply_11 (a : FVec Ideal S3x2000000 .f32) (j : Fin 2000000) :
    deg3 (F := Ideal) a (ix2 (11 : Fin 16) j) = h11 (a (ix2 (0 : Fin 3) j)) (a (ix2 (1 : Fin 3) j)) (a (ix2 (2 : Fin 3) j)) := by
  unfold deg3
  exact (concatenate_rows_apply _ _ 3 (by simp) 1 _ rfl 11 rfl (11 : Fin 16) (0 : Fin 1) j rfl).trans (piece11_apply a j)

/-- Row 12 of the stack is harmonic 12. -/
theorem deg3_apply_12 (a : FVec Ideal S3x2000000 .f32) (j : Fin 2000000) :
    deg3 (F := Ideal) a (ix2 (12 : Fin 16) j) = h12 (a (ix2 (0 : Fin 3) j)) (a (ix2 (1 : Fin 3) j)) (a (ix2 (2 : Fin 3) j)) := by
  unfold deg3
  exact (concatenate_rows_apply _ _ 4 (by simp) 2 _ rfl 12 rfl (12 : Fin 16) (0 : Fin 2) j rfl).trans (piece12_apply_0 a j)

/-- Row 13 of the stack is harmonic 13. -/
theorem deg3_apply_13 (a : FVec Ideal S3x2000000 .f32) (j : Fin 2000000) :
    deg3 (F := Ideal) a (ix2 (13 : Fin 16) j) = h13 (a (ix2 (0 : Fin 3) j)) (a (ix2 (1 : Fin 3) j)) (a (ix2 (2 : Fin 3) j)) := by
  unfold deg3
  exact (concatenate_rows_apply _ _ 4 (by simp) 2 _ rfl 12 rfl (13 : Fin 16) (1 : Fin 2) j rfl).trans (piece12_apply_1 a j)

/-- Row 14 of the stack is harmonic 14. -/
theorem deg3_apply_14 (a : FVec Ideal S3x2000000 .f32) (j : Fin 2000000) :
    deg3 (F := Ideal) a (ix2 (14 : Fin 16) j) = h14 (a (ix2 (0 : Fin 3) j)) (a (ix2 (1 : Fin 3) j)) (a (ix2 (2 : Fin 3) j)) := by
  unfold deg3
  exact (concatenate_rows_apply _ _ 5 (by simp) 1 _ rfl 14 rfl (14 : Fin 16) (0 : Fin 1) j rfl).trans (piece14_apply a j)

/-- Row 15 of the stack is harmonic 15. -/
theorem deg3_apply_15 (a : FVec Ideal S3x2000000 .f32) (j : Fin 2000000) :
    deg3 (F := Ideal) a (ix2 (15 : Fin 16) j) = h15 (a (ix2 (0 : Fin 3) j)) (a (ix2 (1 : Fin 3) j)) (a (ix2 (2 : Fin 3) j)) := by
  unfold deg3
  exact (concatenate_rows_apply _ _ 6 (by simp) 1 _ rfl 15 rfl (15 : Fin 16) (0 : Fin 1) j rfl).trans (piece15_apply a j)

/-- Entry `(k, j)` of the stack is harmonic `k` of point `j`. -/
theorem deg3_apply (a : FVec Ideal S3x2000000 .f32) (k : Fin 16) (j : Fin 2000000) :
    deg3 (F := Ideal) a (ix2 k j) = harm ⟨k.val, by omega⟩ (a (ix2 (0 : Fin 3) j)) (a (ix2 (1 : Fin 3) j)) (a (ix2 (2 : Fin 3) j)) := by
  match k with
  | ⟨0, _⟩ => exact deg3_apply_0 a j
  | ⟨1, _⟩ => exact deg3_apply_1 a j
  | ⟨2, _⟩ => exact deg3_apply_2 a j
  | ⟨3, _⟩ => exact deg3_apply_3 a j
  | ⟨4, _⟩ => exact deg3_apply_4 a j
  | ⟨5, _⟩ => exact deg3_apply_5 a j
  | ⟨6, _⟩ => exact deg3_apply_6 a j
  | ⟨7, _⟩ => exact deg3_apply_7 a j
  | ⟨8, _⟩ => exact deg3_apply_8 a j
  | ⟨9, _⟩ => exact deg3_apply_9 a j
  | ⟨10, _⟩ => exact deg3_apply_10 a j
  | ⟨11, _⟩ => exact deg3_apply_11 a j
  | ⟨12, _⟩ => exact deg3_apply_12 a j
  | ⟨13, _⟩ => exact deg3_apply_13 a j
  | ⟨14, _⟩ => exact deg3_apply_14 a j
  | ⟨15, _⟩ => exact deg3_apply_15 a j
  | ⟨n + 16, h⟩ => exact absurd h (by omega)

/-! ## The stack's highest and lowest rows of degree 3 -/

/-- Entry `j` of the highest-order row of degree 3 is harmonic 15. -/
theorem top3_apply (a : FVec Ideal S3x2000000 .f32) (j : Fin 2000000) :
    top3 (F := Ideal) a (ix1 j) = h15 (a (ix2 (0 : Fin 3) j)) (a (ix2 (1 : Fin 3) j)) (a (ix2 (2 : Fin 3) j)) := by
  unfold top3
  rw [shapeCast_1a_a_apply]
  exact (slice2_axis0_apply 15 (deg3 (F := Ideal) a) _ (0 : Fin 1) j (15 : Fin 16) rfl).trans (deg3_apply_15 a j)

/-- Entry `j` of the lowest-order row of degree 3 is harmonic 9. -/
theorem bot3_apply (a : FVec Ideal S3x2000000 .f32) (j : Fin 2000000) :
    bot3 (F := Ideal) a (ix1 j) = h9 (a (ix2 (0 : Fin 3) j)) (a (ix2 (1 : Fin 3) j)) (a (ix2 (2 : Fin 3) j)) := by
  unfold bot3
  rw [shapeCast_1a_a_apply]
  exact (slice2_axis0_apply 9 (deg3 (F := Ideal) a) _ (0 : Fin 1) j (9 : Fin 16) rfl).trans (deg3_apply_9 a j)

end Cert.ReferenceIdeal.Read

end
-- ==== Proof.RefDeg4.lean ====
/-
  The reference's harmonics of degree 4, read at an index: each piece of one, two or three rows is, at `(r, j)`, the
  harmonic of its row at the point whose coordinates are column `j` of the argument's three rows, and so is the stack
  `deg4 a` of the degree ≤ 3 stack and these pieces, which is the reference's result. The inner orders read rows of
  the degree ≤ 3 stack through a gather of whole rows at a literal column of row numbers, as one degree down.
-/
import proofs.«103363_j66211215835310_1_alg».proof.Proof.RefDeg3
import proofs.«103363_j66211215835310_1_alg».proof.Proof.LibGather
import proofs.«103363_j66211215835310_1_alg».proof.Proof.LibLayout
import Idealize.ShloMosaic.Lib.KernelVsHost

noncomputable section

namespace Cert.ReferenceIdeal.Read

open Cert.ReferenceIdeal Cert.ReferenceIdeal.Gen Cert.ReferenceIdeal.Terms Cert.Harmonics Idealize.ShloMosaic Idealize.ShloMosaic.TcCoe Idealize.SL.Sem Idealize.ShloMosaic.ValueIdx

/-! ## The two gathers of rows of the degree ≤ 3 stack -/

/-- Two rows of the sixteen-row stack gathered at a `[2, 1]` column of row numbers. -/
theorem gather16_2_apply (x : FVec Ideal S16x2000000 .f32) (idx : IVec S2x1 32) (r : Fin 2) (q : Fin 2000000) (k : Fin 16)
    (hk : k.val = min (idx (ix2 r (0 : Fin 1))).toInt.toNat (16 - 1)) :
    Host.gather gather_S16x2000000_S2x1_S2x2000000_1_0_n_n_0_1_12000000 x idx (ix2 r q) = x (ix2 k q) :=
  gather_rows_apply gather_S16x2000000_S2x1_S2x2000000_1_0_n_n_0_1_12000000_wf x idx r q k hk

/-- Three rows of the sixteen-row stack gathered at a `[3, 1]` column of row numbers. -/
theorem gather16_3_apply (x : FVec Ideal S16x2000000 .f32) (idx : IVec S3x1 32) (r : Fin 3) (q : Fin 2000000) (k : Fin 16)
    (hk : k.val = min (idx (ix2 r (0 : Fin 1))).toInt.toNat (16 - 1)) :
    Host.gather gather_S16x2000000_S3x1_S3x2000000_1_0_n_n_0_1_12000000 x idx (ix2 r q) = x (ix2 k q) :=
  gather_rows_apply gather_S16x2000000_S3x1_S3x2000000_1_0_n_n_0_1_12000000_wf x idx r q k hk

/-! ## The pieces of degree 4 -/

/-- The piece of order −4 is harmonic 16. -/
theorem piece16_apply (a : FVec Ideal S3x2000000 .f32) (j : Fin 2000000) :
    piece16 (F := Ideal) a (ix2 (0 : Fin 1) j) = h16 (a (ix2 (0 : Fin 3) j)) (a (ix2 (1 : Fin 3) j)) (a (ix2 (2 : Fin 3) j)) := by
  unfold piece16
  rw [broadcastInDim_asRow_apply]
  show Ideal.ofBits .f32 0xBF87C3B6#32 * (xs (F := Ideal) a (ix1 j) * bot3 (F := Ideal) a (ix1 j) + ys (F := Ideal) a (ix1 j) * top3 (F := Ideal) a (ix1 j)) = _
  rw [xs_apply, ys_apply, bot3_apply, top3_apply]
  rfl

/-- The piece of order −3 is harmonic 17. -/
theorem piece17_apply (a : FVec Ideal S3x2000000 .f32) (j : Fin 2000000) :
    piece17 (F := Ideal) a (ix2 (0 : Fin 1) j) = h17 (a (ix2 (0 : Fin 3) j)) (a (ix2 (1 : Fin 3) j)) (a (ix2 (2 : Fin 3) j)) := by
  unfold piece17
  rw [broadcastInDim_asRow_apply]
  show Ideal.ofBits .f32 0x40400000#32 * zs (F := Ideal) a (ix1 j) * bot3 (F := Ideal) a (ix1 j) = _
  rw [zs_apply, bot3_apply]
  rfl

/-- Row 0 of the piece of orders −2 and −1 is harmonic 18: it reads rows 10 and 4 of the degree ≤ 3 stack. -/
theorem piece18_apply_0 (a : FVec Ideal S3x2000000 .f32) (j : Fin 2000000) :
    piece18 (F := Ideal) a (ix2 (0 : Fin 2) j) = h18 (a (ix2 (0 : Fin 3) j)) (a (ix2 (1 : Fin 3) j)) (a (ix2 (2 : Fin 3) j)) := by
  unfold piece18 outer18 inner18
  simp only [mulf_apply, addf_apply]
  repeat rw [broadcastInDim_oneCol_apply]
  repeat rw [broadcastInDim_oneRow_apply]
  repeat rw [broadcastInDim_asCol_apply]
  repeat rw [broadcastInDim_asRow_apply]
  rw [gather16_2_apply _ _ (0 : Fin 2) j (10 : Fin 16), gather16_2_apply _ _ (0 : Fin 2) j (4 : Fin 16),
    zs_apply, dsqs_apply, deg3_apply_10, deg3_apply_4]
  · rfl
  · rw [asCol_select_zero_apply]; decide
  · rw [asCol_select_zero_apply]; decide

/-- Row 1 of the piece of orders −2 and −1 is harmonic 19: it reads rows 11 and 5 of the degree ≤ 3 stack. -/
theorem piece18_apply_1 (a : FVec Ideal S3x2000000 .f32) (j : Fin 2000000) :
    piece18 (F := Ideal) a (ix2 (1 : Fin 2) j) = h19 (a (ix2 (0 : Fin 3) j)) (a (ix2 (1 : Fin 3) j)) (a (ix2 (2 : Fin 3) j)) := by
  unfold piece18 outer18 inner18
  simp only [mulf_apply, addf_apply]
  repeat rw [broadcastInDim_oneCol_apply]
  repeat rw [broadcastInDim_oneRow_apply]
  repeat rw [broadcastInDim_asCol_apply]
  repeat rw [broadcastInDim_asRow_apply]
  rw [gather16_2_apply _ _ (1 : Fin 2) j (11 : Fin 16), gather16_2_apply _ _ (1 : Fin 2) j (5 : Fin 16),
    zs_apply, dsqs_apply, deg3_apply_11, deg3_apply_5]
  · rfl
  · rw [asCol_select_zero_apply]; decide
  · rw [asCol_select_zero_apply]; decide

/-- Row 0 of the piece of orders 0 to 2 is harmonic 20: it reads rows 12 and 6 of the degree ≤ 3 stack. -/
theorem piece20_apply_0 (a : FVec Ideal S3x2000000 .f32) (j : Fin 2000000) :
    piece20 (F := Ideal) a (ix2 (0 : Fin 3) j) = h20 (a (ix2 (0 : Fin 3) j)) (a (ix2 (1 : Fin 3) j)) (a (ix2 (2 : Fin 3) j)) := by
  unfold piece20
  simp only [mulf_apply, addf_apply]
  repeat rw [broadcastInDim_oneCol_apply]
  repeat rw [broadcastInDim_oneRow_apply]
  repeat rw [broadcastInDim_asCol_apply]
  repeat rw [broadcastInDim_asRow_apply]
  rw [gather16_3_apply _ _ (0 : Fin 3) j (12 : Fin 16), gather16_3_apply _ _ (0 : Fin 3) j (6 : Fin 16),
    zs_apply, dsqs_apply, deg3_apply_12, deg3_apply_6]
  · rfl
  · rw [asCol_select_zero_apply]; decide
  · rw [asCol_select_zero_apply]; decide

/-- Row 1 of the piece of orders 0 to 2 is harmonic 21: it reads rows 13 and 7 of the degree ≤ 3 stack. -/
theorem piece20_apply_1 (a : FVec Ideal S3x2000000 .f32) (j : Fin 2000000) :
    piece20 (F := Ideal) a (ix2 (1 : Fin 3) j) = h21 (a (ix2 (0 : Fin 3) j)) (a (ix2 (1 : Fin 3) j)) (a (ix2 (2 : Fin 3) j)) := by
  unfold piece20
  simp only [mulf_apply, addf_apply]
  repeat rw [broadcastInDim_oneCol_apply]
  repeat rw [broadcastInDim_oneRow_apply]
  repeat rw [broadcastInDim_asCol_apply]
  repeat rw [broadcastInDim_asRow_apply]
  rw [gather16_3_apply _ _ (1 : Fin 3) j (13 : Fin 16), gather16_3_apply _ _ (1 : Fin 3) j (7 : Fin 16),
    zs_apply, dsqs_apply, deg3_apply_13, deg3_apply_7]
  · rfl
  · rw [asCol_select_zero_apply]; decide
  · rw [asCol_select_zero_apply]; decide

/-- Row 2 of the piece of orders 0 to 2 is harmonic 22: it reads rows 14 and 8 of the degree ≤ 3 stack. -/
theorem piece20_apply_2 (a : FVec Ideal S3x2000000 .f32) (j : Fin 2000000) :
    piece20 (F := Ideal) a (ix2 (2 : Fin 3) j) = h22 (a (ix2 (0 : Fin 3) j)) (a (ix2 (1 : Fin 3) j)) (a (ix2 (2 : Fin 3) j)) := by
  unfold piece20
  simp only [mulf_apply, addf_apply]
  repeat rw [broadcastInDim_oneCol_apply]
  repeat rw [broadcastInDim_oneRow_apply]
  repeat rw [broadcastInDim_asCol_apply]
  repeat rw [broadcastInDim_asRow_apply]
  rw [gather16_3_apply _ _ (2 : Fin 3) j (14 : Fin 16), gather16_3_apply _ _ (2 : Fin 3) j (8 : Fin 16),
    zs_apply, dsqs_apply, deg3_apply_14, deg3_apply_8]
  · rfl
  · rw [asCol_select_zero_apply]; decide
  · rw [asCol_select_zero_apply]; decide

/-- The piece of order 3 is harmonic 23. -/
theorem piece23_apply (a : FVec Ideal S3x2000000 .f32) (j : Fin 2000000) :
    piece23 (F := Ideal) a (ix2 (0 : Fin 1) j) = h23 (a (ix2 (0 : Fin 3) j)) (a (ix2 (1 : Fin 3) j)) (a (ix2 (2 : Fin 3) j)) := by
  unfold piece23
  rw [broadcastInDim_asRow_apply]
  show Ideal.ofBits .f32 0x40400000#32 * zs (F := Ideal) a (ix1 j) * top3 (F := Ideal) a (ix1 j) = _
  rw [zs_apply, top3_apply]
  rfl

/-- The piece of order 4 is harmonic 24. -/
theorem piece24_apply (a : FVec Ideal S3x2000000 .f32) (j : Fin 2000000) :
    piece24 (F := Ideal) a (ix2 (0 : Fin 1) j) = h24 (a (ix2 (0 : Fin 3) j)) (a (ix2 (1 : Fin 3) j)) (a (ix2 (2 : Fin 3) j)) := by
  unfold piece24
  rw [broadcastInDim_asRow_apply]
  show Ideal.ofBits .f32 0xBF87C3B6#32 * (xs (F := Ideal) a (ix1 j) * top3 (F := Ideal) a (ix1 j) - ys (F := Ideal) a (ix1 j) * bot3 (F := Ideal) a (ix1 j)) = _
  rw [xs_apply, ys_apply, top3_apply, bot3_apply]
  rfl

/-! ## The stack of degree ≤ 4: the result -/

/-- Row 0 of the stack is harmonic 0. -/
theorem deg4_apply_0 (a : FVec Ideal S3x2000000 .f32) (j : Fin 2000000) :
    deg4 (F := Ideal) a (ix2 (0 : Fin 25) j) = h0 (a (ix2 (0 : Fin 3) j)) (a (ix2 (1 : Fin 3) j)) (a (ix2 (2 : Fin 3) j)) := by
  unfold deg4
  exact (concatenate_rows_apply _ _ 0 (by simp) 16 _ rfl 0 rfl (0 : Fin 25) (0 : Fin 16) j rfl).trans (deg3_apply_0 a j)

/-- Row 1 of the stack is harmonic 1. -/
theorem deg4_apply_1 (a : FVec Ideal S3x2000000 .f32) (j : Fin 2000000) :
    deg4 (F := Ideal) a (ix2 (1 : Fin 25) j) = h1 (a (ix2 (0 : Fin 3) j)) (a (ix2 (1 : Fin 3) j)) (a (ix2 (2 : Fin 3) j)) := by
  unfold deg4
  exact (concatenate_rows_apply _ _ 0 (by simp) 16 _ rfl 0 rfl (1 : Fin 25) (1 : Fin 16) j rfl).trans (deg3_apply_1 a j)

/-- Row 2 of the stack is harmonic 2. -/
theorem deg4_apply_2 (a : FVec Ideal S3x2000000 .f32) (j : Fin 2000000) :
    deg4 (F := Ideal) a (ix2 (2 : Fin 25) j) = h2 (a (ix2 (0 : Fin 3) j)) (a (ix2 (1 : Fin 3) j)) (a (ix2 (2 : Fin 3) j)) := by
  unfold deg4
  exact (concatenate_rows_apply _ _ 0 (by simp) 16 _ rfl 0 rfl (2 : Fin 25) (2 : Fin 16) j rfl).trans (deg3_apply_2 a j)

/-- Row 3 of the stack is harmonic 3. -/
theorem deg4_apply_3 (a : FVec Ideal S3x2000000 .f32) (j : Fin 2000000) :
    deg4 (F := Ideal) a (ix2 (3 : Fin 25) j) = h3 (a (ix2 (0 : Fin 3) j)) (a (ix2 (1 : Fin 3) j)) (a (ix2 (2 : Fin 3) j)) := by
  unfold deg4
  exact (concatenate_rows_apply _ _ 0 (by simp) 16 _ rfl 0 rfl (3 : Fin 25) (3 : Fin 16) j rfl).trans (deg3_apply_3 a j)

/-- Row 4 of the stack is harmonic 4. -/
theorem deg4_apply_4 (a : FVec Ideal S3x2000000 .f32) (j : Fin 2000000) :
    deg4 (F := Ideal) a (ix2 (4 : Fin 25) j) = h4 (a (ix2 (0 : Fin 3) j)) (a (ix2 (1 : Fin 3) j)) (a (ix2 (2 : Fin 3) j)) := by
  unfold deg4
  exact (concatenate_rows_apply _ _ 0 (by simp) 16 _ rfl 0 rfl (4 : Fin 25) (4 : Fin 16) j rfl).trans (deg3_apply_4 a j)

/-- Row 5 of the stack is harmonic 5. -/
theorem deg4_apply_5 (a : FVec Ideal S3x2000000 .f32) (j : Fin 2000000) :
    deg4 (F := Ideal) a (ix2 (5 : Fin 25) j) = h5 (a (ix2 (0 : Fin 3) j)) (a (ix2 (1 : Fin 3) j)) (a (ix2 (2 : Fin 3) j)) := by
  unfold deg4
  exact (concatenate_rows_apply _ _ 0 (by simp) 16 _ rfl 0 rfl (5 : Fin 25) (5 : Fin 16) j rfl).trans (deg3_apply_5 a j)

/-- Row 6 of the stack is harmonic 6. -/
theorem deg4_apply_6 (a : FVec Ideal S3x2000000 .f32) (j : Fin 2000000) :
    deg4 (F := Ideal) a (ix2 (6 : Fin 25) j) = h6 (a (ix2 (0 : Fin 3) j)) (a (ix2 (1 : Fin 3) j)) (a (ix2 (2 : Fin 3) j)) := by
  unfold deg4
  exact (concatenate_rows_apply _ _ 0 (by simp) 16 _ rfl 0 rfl (6 : Fin 25) (6 : Fin 16) j rfl).trans (deg3_apply_6 a j)

/-- Row 7 of the stack is harmonic 7. -/
theorem deg4_apply_7 (a : FVec Ideal S3x2000000 .f32) (j : Fin 2000000) :
    deg4 (F := Ideal) a (ix2 (7 : Fin 25) j) = h7 (a (ix2 (0 : Fin 3) j)) (a (ix2 (1 : Fin 3) j)) (a (ix2 (2 : Fin 3) j)) := by
  unfold deg4
  exact (concatenate_rows_apply _ _ 0 (by simp) 16 _ rfl 0 rfl (7 : Fin 25) (7 : Fin 16) j rfl).trans (deg3_apply_7 a j)

/-- Row 8 of the stack is harmonic 8. -/
theorem deg4_apply_8 (a : FVec Ideal S3x2000000 .f32) (j : Fin 2000000) :
    deg4 (F := Ideal) a (ix2 (8 : Fin 25) j) = h8 (a (ix2 (0 : Fin 3) j)) (a (ix2 (1 : Fin 3) j)) (a (ix2 (2 : Fin 3) j)) := by
  unfold deg4
  exact (concatenate_rows_apply _ _ 0 (by simp) 16 _ rfl 0 rfl (8 : Fin 25) (8 : Fin 16) j rfl).trans (deg3_apply_8 a j)

/-- Row 9 of the stack is harmonic 9. -/
theorem deg4_apply_9 (a : FVec Ideal S3x2000000 .f32) (j : Fin 2000000) :
    deg4 (F := Ideal) a (ix2 (9 : Fin 25) j) = h9 (a (ix2 (0 : Fin 3) j)) (a (ix2 (1 : Fin 3) j)) (a (ix2 (2 : Fin 3) j)) := by
  unfold deg4
  exact (concatenate_rows_apply _ _ 0 (by simp) 16 _ rfl 0 rfl (9 : Fin 25) (9 : Fin 16) j rfl).trans (deg3_apply_9 a j)

/-- Row 10 of the stack is harmonic 10. -/
theorem deg4_apply_10 (a : FVec Ideal S3x2000000 .f32) (j : Fin 2000000) :
    deg4 (F := Ideal) a (ix2 (10 : Fin 25) j) = h10 (a (ix2 (0 : Fin 3) j)) (a (ix2 (1 : Fin 3) j)) (a (ix2 (2 : Fin 3) j)) := by
  unfold deg4
  exact (concatenate_rows_apply _ _ 0 (by simp) 16 _ rfl 0 rfl (10 : Fin 25) (10 : Fin 16) j rfl).trans (deg3_apply_10 a j)

/-- Row 11 of the stack is harmonic 11. -/
theorem deg4_apply_11 (a : FVec Ideal S3x2000000 .f32) (j : Fin 2000000) :
    deg4 (F := Ideal) a (ix2 (11 : Fin 25) j) = h11 (a (ix2 (0 : Fin 3) j)) (a (ix2 (1 : Fin 3) j)) (a (ix2 (2 : Fin 3) j)) := by
  unfold deg4
  exact (concatenate_rows_apply _ _ 0 (by simp) 16 _ rfl 0 rfl (11 : Fin 25) (11 : Fin 16) j rfl).trans (deg3_apply_11 a j)

/-- Row 12 of the stack is harmonic 12. -/
theorem deg4_apply_12 (a : FVec Ideal S3x2000000 .f32) (j : Fin 2000000) :
    deg4 (F := Ideal) a (ix2 (12 : Fin 25) j) = h12 (a (ix2 (0 : Fin 3) j)) (a (ix2 (1 : Fin 3) j)) (a (ix2 (2 : Fin 3) j)) := by
  unfold deg4
  exact (concatenate_rows_apply _ _ 0 (by simp) 16 _ rfl 0 rfl (12 : Fin 25) (12 : Fin 16) j rfl).trans (deg3_apply_12 a j)

/-- Row 13 of the stack is harmonic 13. -/
theorem deg4_apply_13 (a : FVec Ideal S3x2000000 .f32) (j : Fin 2000000) :
    deg4 (F := Ideal) a (ix2 (13 : Fin 25) j) = h13 (a (ix2 (0 : Fin 3) j)) (a (ix2 (1 : Fin 3) j)) (a (ix2 (2 : Fin 3) j)) := by
  unfold deg4
  exact (concatenate_rows_apply _ _ 0 (by simp) 16 _ rfl 0 rfl (13 : Fin 25) (13 : Fin 16) j rfl).trans (deg3_apply_13 a j)

/-- Row 14 of the stack is harmonic 14. -/
theorem deg4_apply_14 (a : FVec Ideal S3x2000000 .f32) (j : Fin 2000000) :
    deg4 (F := Ideal) a (ix2 (14 : Fin 25) j) = h14 (a (ix2 (0 : Fin 3) j)) (a (ix2 (1 : Fin 3) j)) (a (ix2 (2 : Fin 3) j)) := by
  unfold deg4
  exact (concatenate_rows_apply _ _ 0 (by simp) 16 _ rfl 0 rfl (14 : Fin 25) (14 : Fin 16) j rfl).trans (deg3_apply_14 a j)

/-- Row 15 of the stack is harmonic 15. -/
theorem deg4_apply_15 (a : FVec Ideal S3x2000000 .f32) (j : Fin 2000000) :
    deg4 (F := Ideal) a (ix2 (15 : Fin 25) j) = h15 (a (ix2 (0 : Fin 3) j)) (a (ix2 (1 : Fin 3) j)) (a (ix2 (2 : Fin 3) j)) := by
  unfold deg4
  exact (concatenate_rows_apply _ _ 0 (by simp) 16 _ rfl 0 rfl (15 : Fin 25) (15 : Fin 16) j rfl).trans (deg3_apply_15 a j)

/-- Row 16 of the stack is harmonic 16. -/
theorem deg4_apply_16 (a : FVec Ideal S3x2000000 .f32) (j : Fin 2000000) :
    deg4 (F := Ideal) a (ix2 (16 : Fin 25) j) = h16 (a (ix2 (0 : Fin 3) j)) (a (ix2 (1 : Fin 3) j)) (a (ix2 (2 : Fin 3) j)) := by
  unfold deg4
  exact (concatenate_rows_apply _ _ 1 (by simp) 1 _ rfl 16 rfl (16 : Fin 25) (0 : Fin 1) j rfl).trans (piece16_apply a j)

/-- Row 17 of the stack is harmonic 17. -/
theorem deg4_apply_17 (a : FVec Ideal S3x2000000 .f32) (j : Fin 2000000) :
    deg4 (F := Ideal) a (ix2 (17 : Fin 25) j) = h17 (a (ix2 (0 : Fin 3) j)) (a (ix2 (1 : Fin 3) j)) (a (ix2 (2 : Fin 3) j)) := by
  unfold deg4
  exact (concatenate_rows_apply _ _ 2 (by simp) 1 _ rfl 17 rfl (17 : Fin 25) (0 : Fin 1) j rfl).trans (piece17_apply a j)

/-- Row 18 of the stack is harmonic 18. -/
theorem deg4_apply_18 (a : FVec Ideal S3x2000000 .f32) (j : Fin 2000000) :
    deg4 (F := Ideal) a (ix2 (18 : Fin 25) j) = h18 (a (ix2 (0 : Fin 3) j)) (a (ix2 (1 : Fin 3) j)) (a (ix2 (2 : Fin 3) j)) := by
  unfold deg4
  exact (concatenate_rows_apply _ _ 3 (by simp) 2 _ rfl 18 rfl (18 : Fin 25) (0 : Fin 2) j rfl).trans (piece18_apply_0 a j)

/-- Row 19 of the stack is harmonic 19. -/
theorem deg4_apply_19 (a : FVec Ideal S3x2000000 .f32) (j : Fin 2000000) :
    deg4 (F := Ideal) a (ix2 (19 : Fin 25) j) = h19 (a (ix2 (0 : Fin 3) j)) (a (ix2 (1 : Fin 3) j)) (a (ix2 (2 : Fin 3) j)) := by
  unfold deg4
  exact (concatenate_rows_apply _ _ 3 (by simp) 2 _ rfl 18 rfl (19 : Fin 25) (1 : Fin 2) j rfl).trans (piece18_apply_1 a j)

/-- Row 20 of the stack is harmonic 20. -/
theorem deg4_apply_20 (a : FVec Ideal S3x2000000 .f32) (j : Fin 2000000) :
    deg4 (F := Ideal) a (ix2 (20 : Fin 25) j) = h20 (a (ix2 (0 : Fin 3) j)) (a (ix2 (1 : Fin 3) j)) (a (ix2 (2 : Fin 3) j)) := by
  unfold deg4
  exact (concatenate_rows_apply _ _ 4 (by simp) 3 _ rfl 20 rfl (20 : Fin 25) (0 : Fin 3) j rfl).trans (piece20_apply_0 a j)

/-- Row 21 of the stack is harmonic 21. -/
theorem deg4_apply_21 (a : FVec Ideal S3x2000000 .f32) (j : Fin 2000000) :
    deg4 (F := Ideal) a (ix2 (21 : Fin 25) j) = h21 (a (ix2 (0 : Fin 3) j)) (a (ix2 (1 : Fin 3) j)) (a (ix2 (2 : Fin 3) j)) := by
  unfold deg4
  exact (concatenate_rows_apply _ _ 4 (by simp) 3 _ rfl 20 rfl (21 : Fin 25) (1 : Fin 3) j rfl).trans (piece20_apply_1 a j)

/-- Row 22 of the stack is harmonic 22. -/
theorem deg4_apply_22 (a : FVec Ideal S3x2000000 .f32) (j : Fin 2000000) :
    deg4 (F := Ideal) a (ix2 (22 : Fin 25) j) = h22 (a (ix2 (0 : Fin 3) j)) (a (ix2 (1 : Fin 3) j)) (a (ix2 (2 : Fin 3) j)) := by
  unfold deg4
  exact (concatenate_rows_apply _ _ 4 (by simp) 3 _ rfl 20 rfl (22 : Fin 25) (2 : Fin 3) j rfl).trans (piece20_apply_2 a j)

/-- Row 23 of the stack is harmonic 23. -/
theorem deg4_apply_23 (a : FVec Ideal S3x2000000 .f32) (j : Fin 2000000) :
    deg4 (F := Ideal) a (ix2 (23 : Fin 25) j) = h23 (a (ix2 (0 : Fin 3) j)) (a (ix2 (1 : Fin 3) j)) (a (ix2 (2 : Fin 3) j)) := by
  unfold deg4
  exact (concatenate_rows_apply _ _ 5 (by simp) 1 _ rfl 23 rfl (23 : Fin 25) (0 : Fin 1) j rfl).trans (piece23_apply a j)

/-- Row 24 of the stack is harmonic 24. -/
theorem deg4_apply_24 (a : FVec Ideal S3x2000000 .f32) (j : Fin 2000000) :
    deg4 (F := Ideal) a (ix2 (24 : Fin 25) j) = h24 (a (ix2 (0 : Fin 3) j)) (a (ix2 (1 : Fin 3) j)) (a (ix2 (2 : Fin 3) j)) := by
  unfold deg4
  exact (concatenate_rows_apply _ _ 6 (by simp) 1 _ rfl 24 rfl (24 : Fin 25) (0 : Fin 1) j rfl).trans (piece24_apply a j)

/-- Entry `(k, j)` of the stack is harmonic `k` of point `j`. -/
theorem deg4_apply (a : FVec Ideal S3x2000000 .f32) (k : Fin 25) (j : Fin 2000000) :
    deg4 (F := Ideal) a (ix2 k j) = harm k (a (ix2 (0 : Fin 3) j)) (a (ix2 (1 : Fin 3) j)) (a (ix2 (2 : Fin 3) j)) := by
  match k with
  | ⟨0, _⟩ => exact deg4_apply_0 a j
  | ⟨1, _⟩ => exact deg4_apply_1 a j
  | ⟨2, _⟩ => exact deg4_apply_2 a j
  | ⟨3, _⟩ => exact deg4_apply_3 a j
  | ⟨4, _⟩ => exact deg4_apply_4 a j
  | ⟨5, _⟩ => exact deg4_apply_5 a j
  | ⟨6, _⟩ => exact deg4_apply_6 a j
  | ⟨7, _⟩ => exact deg4_apply_7 a j
  | ⟨8, _⟩ => exact deg4_apply_8 a j
  | ⟨9, _⟩ => exact deg4_apply_9 a j
  | ⟨10, _⟩ => exact deg4_apply_10 a j
  | ⟨11, _⟩ => exact deg4_apply_11 a j
  | ⟨12, _⟩ => exact deg4_apply_12 a j
  | ⟨13, _⟩ => exact deg4_apply_13 a j
  | ⟨14, _⟩ => exact deg4_apply_14 a j
  | ⟨15, _⟩ => exact deg4_apply_15 a j
  | ⟨16, _⟩ => exact deg4_apply_16 a j
  | ⟨17, _⟩ => exact deg4_apply_17 a j
  | ⟨18, _⟩ => exact deg4_apply_18 a j
  | ⟨19, _⟩ => exact deg4_apply_19 a j
  | ⟨20, _⟩ => exact deg4_apply_20 a j
  | ⟨21, _⟩ => exact deg4_apply_21 a j
  | ⟨22, _⟩ => exact deg4_apply_22 a j
  | ⟨23, _⟩ => exact deg4_apply_23 a j
  | ⟨24, _⟩ => exact deg4_apply_24 a j
  | ⟨n + 25, h⟩ => exact absurd h (by omega)

end Cert.ReferenceIdeal.Read

end
-- ==== Proof.RefRead.lean ====
/-
  The reference program's result, read at an index: over the extended reals, entry (k, j) of `Terms.deg4 a` is
  harmonic `k` of the point whose coordinates are column `j` of the three rows of `a`.
-/
import proofs.«103363_j66211215835310_1_alg».proof.Proof.RefTerms
import proofs.«103363_j66211215835310_1_alg».proof.Proof.Spec
import proofs.«103363_j66211215835310_1_alg».proof.Proof.RefDeg4
import Idealize.ShloMosaic.Lib.ValueIdx
import Idealize.ShloMosaic.Lib.Pipeline.Value
import Idealize.ShloMosaic.Lib.ValueLayout
import Idealize.ShloMosaic.Lib.IdealHost

noncomputable section

namespace Cert.ReferenceIdeal.Read

open Cert.ReferenceIdeal Cert.ReferenceIdeal.Gen Cert.ReferenceIdeal.Terms Idealize.ShloMosaic Idealize.ShloMosaic.TcCoe Idealize.SL.Sem Idealize.ShloMosaic.ValueIdx

/-- The reference's result array is the array of the 25 harmonics. -/
theorem deg4_eq (a : FVec Ideal S3x2000000 .f32) : deg4 (F := Ideal) a = Cert.Harmonics.sph a := by
  funext i
  obtain ⟨k, j, rfl⟩ : ∃ (k : Fin 25) (j : Fin 2000000), i = ix2 k j := ⟨i 0, i 1, eq_ix2 i⟩
  rw [Cert.Harmonics.sph_apply]
  exact deg4_apply a k j

end Cert.ReferenceIdeal.Read

end
-- ==== Proof.lean ====
/-
  The certificate of a kernel that writes the real spherical harmonics of degree at most 4 of two million points,
  against a reference that builds the same 25 rows degree by degree with slices, gathers and concatenations.

  Both programs evaluate the same recurrence with the same coefficients, operation for operation, so over the
  extended reals their results are one array, `Cert.Harmonics.sph` of the argument (Proof/Spec.lean): no law of
  arithmetic is used, and the precondition is never opened.
    * The kernel: each grid point writes one block of columns, row `k` of a block is harmonic `k` of the three loaded
      rows, and the blocks tile the array (Proof/KerValue.lean, over the generated frame run).
    * The reference: its @main is a straight line of 238 host operations whose result is `Terms.deg4` of the argument
      (Proof/RefRun.lean), and that array read at an index is the harmonic (Proof/RefRead.lean).
  The two frames of the kernel are the generated ones; the reference's frame is its run with the value dropped; the
  idealization rewrote nothing.
-/
import proofs.«103363_j66211215835310_1_alg».proof.Defs
import proofs.«103363_j66211215835310_1_alg».proof.Proof.Gen.Kernel
import proofs.«103363_j66211215835310_1_alg».proof.Proof.Gen.Kernel.Skeleton
import proofs.«103363_j66211215835310_1_alg».proof.Proof.Gen.Kernel.Launch
import proofs.«103363_j66211215835310_1_alg».proof.Proof.Gen.Kernel.Points
import proofs.«103363_j66211215835310_1_alg».proof.Proof.Gen.Kernel.Frame
import proofs.«103363_j66211215835310_1_alg».proof.Proof.Gen.KernelIdeal
import proofs.«103363_j66211215835310_1_alg».proof.Proof.Gen.KernelIdeal.Skeleton
import proofs.«103363_j66211215835310_1_alg».proof.Proof.Gen.KernelIdeal.Launch
import proofs.«103363_j66211215835310_1_alg».proof.Proof.Gen.KernelIdeal.Points
import proofs.«103363_j66211215835310_1_alg».proof.Proof.Gen.KernelIdeal.Frame
import proofs.«103363_j66211215835310_1_alg».proof.Proof.Gen.KernelIdeal.Value
import proofs.«103363_j66211215835310_1_alg».proof.Proof.Gen.ReferenceIdeal
import proofs.«103363_j66211215835310_1_alg».proof.Proof.Gen.Pre_finite_inputs
import proofs.«103363_j66211215835310_1_alg».proof.Proof.Spec
import proofs.«103363_j66211215835310_1_alg».proof.Proof.KerValue
import proofs.«103363_j66211215835310_1_alg».proof.Proof.RefRun
import proofs.«103363_j66211215835310_1_alg».proof.Proof.RefRead
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the value of the result dropped. -/
theorem frame_referenceIdeal : Cert.frame_ReferenceIdeal := fun m ρ _ =>
  (θ_run Cert.ReferenceIdeal.defs _ _).mono (fun _ h c => (h c).2) (Cert.ReferenceIdeal.Run.run (F := Ideal) m ρ)

/-- Both runs end with the harmonics of the argument: the kernel's by its value, the reference's by its run read at
    an index, the two arguments being one array. -/
theorem algebraic : Cert.algebraic_KernelIdeal_ReferenceIdeal := by
  intro m ρ m' ρ' _ hagree
  refine ⟨fun c => Cert.Harmonics.sph (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.Run.run (F := Ideal) m' ρ')
  rw [Cert.ReferenceIdeal.Read.deg4_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
